-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S128x64 : Shape := ⟨2, ![128, 64]⟩
abbrev S128 : Shape := ⟨1, ![128]⟩
abbrev S128x256 : Shape := ⟨2, ![128, 256]⟩
abbrev S16x128 : Shape := ⟨2, ![16, 128]⟩
abbrev S16 : Shape := ⟨1, ![16]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16x128 .f32) (main_arg8 : FVec F S16 .f32) (main_v33 : IVec S_ 1) : IVec S_ 1 :=
  let main_v34 : FVec F S16x128 .f32 := Host.absf main_arg7
  let main_cst_12 : FVec F S_ .f32 := constant S_ .f32 0x7F800000#32
  let main_v35 : FVec F S16x128 .f32 := broadcastInDim S16x128 ![] bcast_S_S16x128 main_cst_12
  let main_v36 : IVec S16x128 1 := cmpf .olt main_v34 main_v35
  let main_c_13 : IVec S_ 1 := constantI S_ 1 1#1
  let main_v37 : IVec S_ 1 := (fun x v => Host.reduce IntOp.andi x v reducesTo_S16x128_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S128 .f32) (main_arg5 : FVec F S128x256 .f32) (main_arg6 : FVec F S128 .f32) (main_arg7 : FVec F S16x128 .f32) (main_arg8 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S131072x64 .f32) (main_arg1 : FVec F S128x64 .f32) (main_arg2 : FVec F S128 .f32) (main_arg3 : FVec F S128x64 .f32) (main_arg4 : FVec F S128 .f32) (main_arg5 : FVec F S128x256 .f32) (main_arg6 : FVec F S128 .f32) (main_arg7 : FVec F S16x128 .f32) (main_arg8 : FVec F S16 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_v13 main_v16
-- ==== Kernel.lean ====
abbrev S131072x64 : Shape := ⟨2, ![131072, 64]⟩
abbrev S128x64 : Shape := ⟨2, ![128, 64]⟩
abbrev S128 : Shape := ⟨1, ![128]⟩
abbrev S128x256 : Shape := ⟨2, ![128, 256]⟩
abbrev S16x128 : Shape := ⟨2, ![16, 128]⟩
abbrev S16 : Shape := ⟨1, ![16]⟩
abbrev S128x1 : Shape := ⟨2, ![128, 1]⟩
abbrev S128x63 : Shape := ⟨2, ![128, 63]⟩
abbrev S128x2 : Shape := ⟨2, ![128, 2]⟩
abbrev S128x62 : Shape := ⟨2, ![128, 62]⟩
abbrev S128x3 : Shape := ⟨2, ![128, 3]⟩
abbrev S128x61 : Shape := ⟨2, ![128, 61]⟩
abbrev S128x4 : Shape := ⟨2, ![128, 4]⟩
abbrev S128x60 : Shape := ⟨2, ![128, 60]⟩
abbrev S128x5 : Shape := ⟨2, ![128, 5]⟩
abbrev S128x59 : Shape := ⟨2, ![128, 59]⟩
abbrev S128x6 : Shape := ⟨2, ![128, 6]⟩
abbrev S128x58 : Shape := ⟨2, ![128, 58]⟩
abbrev S128x7 : Shape := ⟨2, ![128, 7]⟩
abbrev S128x57 : Shape := ⟨2, ![128, 57]⟩
abbrev S128x8 : Shape := ⟨2, ![128, 8]⟩
abbrev S128x56 : Shape := ⟨2, ![128, 56]⟩
abbrev S1x128x64 : Shape := ⟨3, ![1, 128, 64]⟩
abbrev S8x128x64 : Shape := ⟨3, ![8, 128, 64]⟩
abbrev S1024x64 : Shape := ⟨2, ![1024, 64]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S1x16 : Shape := ⟨2, ![1, 16]⟩
abbrev S131072x16 : Shape := ⟨2, ![131072, 16]⟩
abbrev S2048x64 : Shape := ⟨2, ![2048, 64]⟩
abbrev S2048x16 : Shape := ⟨2, ![2048, 16]⟩
abbrev S64x128 : Shape := ⟨2, ![64, 128]⟩
abbrev S2048x128 : Shape := ⟨2, ![2048, 128]⟩
abbrev S256x8x64 : Shape := ⟨3, ![256, 8, 64]⟩
abbrev S256x7x64 : Shape := ⟨3, ![256, 7, 64]⟩
abbrev S1792x64 : Shape := ⟨2, ![1792, 64]⟩
abbrev S64x1024 : Shape := ⟨2, ![64, 1024]⟩
abbrev S1792x1024 : Shape := ⟨2, ![1792, 1024]⟩
abbrev S256x7x8x128 : Shape := ⟨4, ![256, 7, 8, 128]⟩
abbrev S256x8x128 : Shape := ⟨3, ![256, 8, 128]⟩
abbrev S2048x256 : Shape := ⟨2, ![2048, 256]⟩
abbrev S256x128 : Shape := ⟨2, ![256, 128]⟩
abbrev S128x16 : Shape := ⟨2, ![128, 16]⟩

abbrev nBuf : Space → Nat
  | .hbm => 51
  | .vmem => 12
  | .smem => 0
  | _ => 0

abbrev bufTy : (tb : Table) → Fin (tcTables nBuf tb) → BufTy
  | .hbm, ⟨0, _⟩ => ⟨S131072x64, .f32⟩
  | .hbm, ⟨1, _⟩ => ⟨S128x64, .f32⟩
  | .hbm, ⟨2, _⟩ => ⟨S128, .f32⟩
  | .hbm, ⟨3, _⟩ => ⟨S128x64, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S16x128, .f32⟩
  | .hbm, ⟨8, _⟩ => ⟨S16, .f32⟩
  | .hbm, ⟨9, _⟩ => ⟨S128x1, .f32⟩
  | .hbm, ⟨10, _⟩ => ⟨S128x63, .f32⟩
  | .hbm, ⟨11, _⟩ => ⟨S128x64, .f32⟩
  | .hbm, ⟨12, _⟩ => ⟨S128x2, .f32⟩
  | .hbm, ⟨13, _⟩ => ⟨S128x62, .f32⟩
  | .hbm, ⟨14, _⟩ => ⟨S128x64, .f32⟩
  | .hbm, ⟨15, _⟩ => ⟨S128x3, .f32⟩
  | .hbm, ⟨16, _⟩ => ⟨S128x61, .f32⟩
  | .hbm, ⟨17, _⟩ => ⟨S128x64, .f32⟩
  | .hbm, ⟨18, _⟩ => ⟨S128x4, .f32⟩
  | .hbm, ⟨19, _⟩ => ⟨S128x60, .f32⟩
  | .hbm, ⟨20, _⟩ => ⟨S128x64, .f32⟩
  | .hbm, ⟨21, _⟩ => ⟨S128x5, .f32⟩
  | .hbm, ⟨22, _⟩ => ⟨S128x59, .f32⟩
  | .hbm, ⟨23, _⟩ => ⟨S128x64, .f32⟩
  | .hbm, ⟨24, _⟩ => ⟨S128x6, .f32⟩
  | .hbm, ⟨25, _⟩ => ⟨S128x58, .f32⟩
  | .hbm, ⟨26, _⟩ => ⟨S128x64, .f32⟩
  | .hbm, ⟨27, _⟩ => ⟨S128x7, .f32⟩
  | .hbm, ⟨28, _⟩ => ⟨S128x57, .f32⟩
  | .hbm, ⟨29, _⟩ => ⟨S128x64, .f32⟩
  | .hbm, ⟨30, _⟩ => ⟨S128x8, .f32⟩
  | .hbm, ⟨31, _⟩ => ⟨S128x56, .f32⟩
  | .hbm, ⟨32, _⟩ => ⟨S128x64, .f32⟩
  | .hbm, ⟨33, _⟩ => ⟨S1x128x64, .f32⟩
  | .hbm, ⟨34, _⟩ => ⟨S1x128x64, .f32⟩
  | .hbm, ⟨35, _⟩ => ⟨S1x128x64, .f32⟩
  | .hbm, ⟨36, _⟩ => ⟨S1x128x64, .f32⟩
  | .hbm, ⟨37, _⟩ => ⟨S1x128x64, .f32⟩
  | .hbm, ⟨38, _⟩ => ⟨S1x128x64, .f32⟩
  | .hbm, ⟨39, _⟩ => ⟨S1x128x64, .f32⟩
  | .hbm, ⟨40, _⟩ => ⟨S1x128x64, .f32⟩
  | .hbm, ⟨41, _⟩ => ⟨S8x128x64, .f32⟩
  | .hbm, ⟨42, _⟩ => ⟨S1024x64, .f32⟩
  | .hbm, ⟨43, _⟩ => ⟨S1x128, .f32⟩
  | .hbm, ⟨44, _⟩ => ⟨S8x128, .f32⟩
  | .hbm, ⟨45, _⟩ => ⟨S1024, .f32⟩
  | .hbm, ⟨46, _⟩ => ⟨S1x1024, .f32⟩
  | .hbm, ⟨47, _⟩ => ⟨S1x128, .f32⟩
  | .hbm, ⟨48, _⟩ => ⟨S1x128, .f32⟩
  | .hbm, ⟨49, _⟩ => ⟨S1x16, .f32⟩
  | .hbm, ⟨50, _⟩ => ⟨S131072x16, .f32⟩
  | .local _ .vmem, ⟨0, _⟩ => ⟨S2048x64, .f32⟩
  | .local _ .vmem, ⟨1, _⟩ => ⟨S2048x64, .f32⟩
  | .local _ .vmem, ⟨2, _⟩ => ⟨S128x64, .f32⟩
  | .local _ .vmem, ⟨3, _⟩ => ⟨S1x128, .f32⟩
  | .local _ .vmem, ⟨4, _⟩ => ⟨S1024x64, .f32⟩
  | .local _ .vmem, ⟨5, _⟩ => ⟨S1x1024, .f32⟩
  | .local _ .vmem, ⟨6, _⟩ => ⟨S128x256, .f32⟩
  | .local _ .vmem, ⟨7, _⟩ => ⟨S1x128, .f32⟩
  | .local _ .vmem, ⟨8, _⟩ => ⟨S16x128, .f32⟩
  | .local _ .vmem, ⟨9, _⟩ => ⟨S1x16, .f32⟩
  | .local _ .vmem, ⟨10, _⟩ => ⟨S2048x16, .f32⟩
  | .local _ .vmem, ⟨11, _⟩ => ⟨S2048x16, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_v1 : Ref sig .tc := ⟨.hbm, 14, rfl⟩
abbrev main_call2_v0 : Ref sig .tc := ⟨.hbm, 15, rfl⟩
abbrev main_call2_v1 : Ref sig .tc := ⟨.hbm, 16, rfl⟩
abbrev main_v2 : Ref sig .tc := ⟨.hbm, 17, rfl⟩
abbrev main_call3_v0 : Ref sig .tc := ⟨.hbm, 18, rfl⟩
abbrev main_call3_v1 : Ref sig .tc := ⟨.hbm, 19, rfl⟩
abbrev main_v3 : Ref sig .tc := ⟨.hbm, 20, rfl⟩
abbrev main_call4_v0 : Ref sig .tc := ⟨.hbm, 21, rfl⟩
abbrev main_call4_v1 : Ref sig .tc := ⟨.hbm, 22, rfl⟩
abbrev main_v4 : Ref sig .tc := ⟨.hbm, 23, rfl⟩
abbrev main_call5_v0 : Ref sig .tc := ⟨.hbm, 24, rfl⟩
abbrev main_call5_v1 : Ref sig .tc := ⟨.hbm, 25, rfl⟩
abbrev main_v5 : Ref sig .tc := ⟨.hbm, 26, rfl⟩
abbrev main_call6_v0 : Ref sig .tc := ⟨.hbm, 27, rfl⟩
abbrev main_call6_v1 : Ref sig .tc := ⟨.hbm, 28, rfl⟩
abbrev main_v6 : Ref sig .tc := ⟨.hbm, 29, rfl⟩
abbrev main_call7_v0 : Ref sig .tc := ⟨.hbm, 30, rfl⟩
abbrev main_call7_v1 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S128x64_S128x1_0_63 : S128x64.Slices ![0, 63] S128x1
  slices_S128x64_S128x63_0_0 : S128x64.Slices ![0, 0] S128x63
  concatenates_S128x1_S128x63_S128x64_d1 : Shape.Concatenates [S128x1, S128x63] S128x64 1
  slices_S128x64_S128x2_0_62 : S128x64.Slices ![0, 62] S128x2
  slices_S128x64_S128x62_0_0 : S128x64.Slices ![0, 0] S128x62
  concatenates_S128x2_S128x62_S128x64_d1 : Shape.Concatenates [S128x2, S128x62] S128x64 1
  slices_S128x64_S128x3_0_61 : S128x64.Slices ![0, 61] S128x3
  slices_S128x64_S128x61_0_0 : S128x64.Slices ![0, 0] S128x61
  concatenates_S128x3_S128x61_S128x64_d1 : Shape.Concatenates [S128x3, S128x61] S128x64 1
  slices_S128x64_S128x4_0_60 : S128x64.Slices ![0, 60] S128x4
  slices_S128x64_S128x60_0_0 : S128x64.Slices ![0, 0] S128x60
  concatenates_S128x4_S128x60_S128x64_d1 : Shape.Concatenates [S128x4, S128x60] S128x64 1
  slices_S128x64_S128x5_0_59 : S128x64.Slices ![0, 59] S128x5
  slices_S128x64_S128x59_0_0 : S128x64.Slices ![0, 0] S128x59
  concatenates_S128x5_S128x59_S128x64_d1 : Shape.Concatenates [S128x5, S128x59] S128x64 1
  slices_S128x64_S128x6_0_58 : S128x64.Slices ![0, 58] S128x6
  slices_S128x64_S128x58_0_0 : S128x64.Slices ![0, 0] S128x58
  concatenates_S128x6_S128x58_S128x64_d1 : Shape.Concatenates [S128x6, S128x58] S128x64 1
  slices_S128x64_S128x7_0_57 : S128x64.Slices ![0, 57] S128x7
  slices_S128x64_S128x57_0_0 : S128x64.Slices ![0, 0] S128x57
  concatenates_S128x7_S128x57_S128x64_d1 : Shape.Concatenates [S128x7, S128x57] S128x64 1
  slices_S128x64_S128x8_0_56 : S128x64.Slices ![0, 56] S128x8
  slices_S128x64_S128x56_0_0 : S128x64.Slices ![0, 0] S128x56
  concatenates_S128x8_S128x56_S128x64_d1 : Shape.Concatenates [S128x8, S128x56] S128x64 1
  bcast_S128x64_S1x128x64_1_2 : S128x64.BroadcastsInDim S1x128x64 (![1, 2] : Fin 2 → Fin S1x128x64.rank)
  concatenates_S1x128x64_S1x128x64_S1x128x64_S1x128x64_S1x128x64_S1x128x64_S1x128x64_S1x128x64_S8x128x64_d0 : Shape.Concatenates [S1x128x64, S1x128x64, S1x128x64, S1x128x64, S1x128x64, S1x128x64, S1x128x64, S1x128x64] S8x128x64 0
  shapeCasts_S8x128x64_S1024x64 : S8x128x64.ShapeCasts S1024x64
  shapeCasts_S128_S1x128 : S128.ShapeCasts S1x128
  bcast_S1x128_S8x128_0_1 : S1x128.BroadcastsInDim S8x128 (![0, 1] : Fin 2 → Fin S8x128.rank)
  shapeCasts_S8x128_S1024 : S8x128.ShapeCasts S1024
  shapeCasts_S1024_S1x1024 : S1024.ShapeCasts S1x1024
  shapeCasts_S16_S1x16 : S16.ShapeCasts S1x16
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  shapeCasts_S2048x64_S256x8x64 : S2048x64.ShapeCasts S256x8x64
  slices_S256x8x64_o0_1_0_S256x7x64 : S256x8x64.Slices ![0, 1, 0] S256x7x64
  shapeCasts_S256x7x64_S1792x64 : S256x7x64.ShapeCasts S1792x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1792x1024 : S1x1024.Broadcasts S1792x1024
  shapeCasts_S1792x1024_S256x7x8x128 : S1792x1024.ShapeCasts S256x7x8x128
  reduces_S256x7x8x128_S256x8x128 : S256x7x8x128.Reduces [1] S256x8x128
  shapeCasts_S256x8x128_S2048x128 : S256x8x128.ShapeCasts S2048x128
  concatenates_S2048x128_S2048x128_S2048x256_d1 : Shape.Concatenates [S2048x128, S2048x128] S2048x256 1
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S2048x16_S2048x16_0_0 : ∀ a, (![0, 0] : Fin 2 → Nat) a + S2048x16.size a ≤ S2048x16.size a
  h_S2048x16 : 0 < S2048x16.numel
  dot_S2048x64_S64x128_S2048x128_1_0_0_1_n_n_wf : DotDims.WF S2048x64 S64x128 S2048x128 [1] [0] [0] [1] [] []
  dot_S1792x64_S64x1024_S1792x1024_1_0_0_1_n_n_wf : DotDims.WF S1792x64 S64x1024 S1792x1024 [1] [0] [0] [1] [] []
  dot_S2048x256_S256x128_S2048x128_1_0_0_1_n_n_wf : DotDims.WF S2048x256 S256x128 S2048x128 [1] [0] [0] [1] [] []
  dot_S2048x128_S128x16_S2048x16_1_0_0_1_n_n_wf : DotDims.WF S2048x128 S128x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S131072x64.size a
  hwx0_0 : ∀ i : grid0.Coords, EltTy.bits .f32 = 32 ∨ (Rect.block (s := S131072x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S16x128.size a
  hwx0_7 : ∀ i : grid0.Coords, EltTy.bits .f32 = 32 ∨ (Rect.block (s := S16x128) S16x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x16.size a ≤ S131072x16.size a
  hwx0_9 : ∀ i : grid0.Coords, EltTy.bits .f32 = 32 ∨ (Rect.block (s := S131072x16) S2048x16.size (cc0_transform_9 i) (hinb0_9 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S1792x64_S64x1024_S1792x1024_1_0_0_1_n_n : DotDims S1792x64 S64x1024 S1792x1024 where
  lhsContracting := [1]
  rhsContracting := [0]
  lhsNonContracting := [0]
  rhsNonContracting := [1]
  lhsBatch := []
  rhsBatch := []
  wf := dot_S1792x64_S64x1024_S1792x1024_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S2048x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x64 : Shape := ⟨2, ![131072, 64]⟩
abbrev S128x64 : Shape := ⟨2, ![128, 64]⟩
abbrev S128 : Shape := ⟨1, ![128]⟩
abbrev S128x256 : Shape := ⟨2, ![128, 256]⟩
abbrev S16x128 : Shape := ⟨2, ![16, 128]⟩
abbrev S16 : Shape := ⟨1, ![16]⟩
abbrev S131072x63 : Shape := ⟨2, ![131072, 63]⟩
abbrev S131072x1 : Shape := ⟨2, ![131072, 1]⟩
abbrev S16384x8x64 : Shape := ⟨3, ![16384, 8, 64]⟩
abbrev S16384x7x64 : Shape := ⟨3, ![16384, 7, 64]⟩
abbrev S16384x56x64 : Shape := ⟨3, ![16384, 56, 64]⟩
abbrev S131072x7x64 : Shape := ⟨3, ![131072, 7, 64]⟩
abbrev S64x128 : Shape := ⟨2, ![64, 128]⟩
abbrev S131072x128 : Shape := ⟨2, ![131072, 128]⟩
abbrev S1x128 : Shape := ⟨2, ![1, 128]⟩
abbrev S_ : Shape := ⟨0, ![]⟩
abbrev S131072x7x128 : Shape := ⟨3, ![131072, 7, 128]⟩
abbrev S1x1x128 : Shape := ⟨3, ![1, 1, 128]⟩
abbrev S131072x256 : Shape := ⟨2, ![131072, 256]⟩
abbrev S256x128 : Shape := ⟨2, ![256, 128]⟩
abbrev S128x16 : Shape := ⟨2, ![128, 16]⟩
abbrev S131072x16 : Shape := ⟨2, ![131072, 16]⟩
abbrev S1x16 : Shape := ⟨2, ![1, 16]⟩

abbrev nBuf : Space → Nat
  | .hbm => 88
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S128x64, .f32⟩
  | .hbm, ⟨2, _⟩ => ⟨S128, .f32⟩
  | .hbm, ⟨3, _⟩ => ⟨S128x64, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S16x128, .f32⟩
  | .hbm, ⟨8, _⟩ => ⟨S16, .f32⟩
  | .hbm, ⟨9, _⟩ => ⟨S131072x63, .f32⟩
  | .hbm, ⟨10, _⟩ => ⟨S131072x1, .f32⟩
  | .hbm, ⟨11, _⟩ => ⟨S131072x64, .f32⟩
  | .hbm, ⟨12, _⟩ => ⟨S16384x8x64, .f32⟩
  | .hbm, ⟨13, _⟩ => ⟨S16384x7x64, .f32⟩
  | .hbm, ⟨14, _⟩ => ⟨S131072x63, .f32⟩
  | .hbm, ⟨15, _⟩ => ⟨S131072x1, .f32⟩
  | .hbm, ⟨16, _⟩ => ⟨S131072x64, .f32⟩
  | .hbm, ⟨17, _⟩ => ⟨S16384x8x64, .f32⟩
  | .hbm, ⟨18, _⟩ => ⟨S16384x7x64, .f32⟩
  | .hbm, ⟨19, _⟩ => ⟨S131072x63, .f32⟩
  | .hbm, ⟨20, _⟩ => ⟨S131072x1, .f32⟩
  | .hbm, ⟨21, _⟩ => ⟨S131072x64, .f32⟩
  | .hbm, ⟨22, _⟩ => ⟨S16384x8x64, .f32⟩
  | .hbm, ⟨23, _⟩ => ⟨S16384x7x64, .f32⟩
  | .hbm, ⟨24, _⟩ => ⟨S131072x63, .f32⟩
  | .hbm, ⟨25, _⟩ => ⟨S131072x1, .f32⟩
  | .hbm, ⟨26, _⟩ => ⟨S131072x64, .f32⟩
  | .hbm, ⟨27, _⟩ => ⟨S16384x8x64, .f32⟩
  | .hbm, ⟨28, _⟩ => ⟨S16384x7x64, .f32⟩
  | .hbm, ⟨29, _⟩ => ⟨S131072x63, .f32⟩
  | .hbm, ⟨30, _⟩ => ⟨S131072x1, .f32⟩
  | .hbm, ⟨31, _⟩ => ⟨S131072x64, .f32⟩
  | .hbm, ⟨32, _⟩ => ⟨S16384x8x64, .f32⟩
  | .hbm, ⟨33, _⟩ => ⟨S16384x7x64, .f32⟩
  | .hbm, ⟨34, _⟩ => ⟨S131072x63, .f32⟩
  | .hbm, ⟨35, _⟩ => ⟨S131072x1, .f32⟩
  | .hbm, ⟨36, _⟩ => ⟨S131072x64, .f32⟩
  | .hbm, ⟨37, _⟩ => ⟨S16384x8x64, .f32⟩
  | .hbm, ⟨38, _⟩ => ⟨S16384x7x64, .f32⟩
  | .hbm, ⟨39, _⟩ => ⟨S131072x63, .f32⟩
  | .hbm, ⟨40, _⟩ => ⟨S131072x1, .f32⟩
  | .hbm, ⟨41, _⟩ => ⟨S131072x64, .f32⟩
  | .hbm, ⟨42, _⟩ => ⟨S16384x8x64, .f32⟩
  | .hbm, ⟨43, _⟩ => ⟨S16384x7x64, .f32⟩
  | .hbm, ⟨44, _⟩ => ⟨S131072x63, .f32⟩
  | .hbm, ⟨45, _⟩ => ⟨S131072x1, .f32⟩
  | .hbm, ⟨46, _⟩ => ⟨S131072x64, .f32⟩
  | .hbm, ⟨47, _⟩ => ⟨S16384x8x64, .f32⟩
  | .hbm, ⟨48, _⟩ => ⟨S16384x7x64, .f32⟩
  | .hbm, ⟨49, _⟩ => ⟨S131072x63, .f32⟩
  | .hbm, ⟨50, _⟩ => ⟨S131072x1, .f32⟩
  | .hbm, ⟨51, _⟩ => ⟨S131072x64, .f32⟩
  | .hbm, ⟨52, _⟩ => ⟨S16384x56x64, .f32⟩
  | .hbm, ⟨53, _⟩ => ⟨S131072x7x64, .f32⟩
  | .hbm, ⟨54, _⟩ => ⟨S64x128, .f32⟩
  | .hbm, ⟨55, _⟩ => ⟨S131072x128, .f32⟩
  | .hbm, ⟨56, _⟩ => ⟨S1x128, .f32⟩
  | .hbm, ⟨57, _⟩ => ⟨S131072x128, .f32⟩
  | .hbm, ⟨58, _⟩ => ⟨S131072x128, .f32⟩
  | .hbm, ⟨59, _⟩ => ⟨S_, .f32⟩
  | .hbm, ⟨60, _⟩ => ⟨S131072x128, .f32⟩
  | .hbm, ⟨61, _⟩ => ⟨S131072x128, .f32⟩
  | .hbm, ⟨62, _⟩ => ⟨S131072x7x128, .f32⟩
  | .hbm, ⟨63, _⟩ => ⟨S1x1x128, .f32⟩
  | .hbm, ⟨64, _⟩ => ⟨S131072x7x128, .f32⟩
  | .hbm, ⟨65, _⟩ => ⟨S131072x7x128, .f32⟩
  | .hbm, ⟨66, _⟩ => ⟨S_, .f32⟩
  | .hbm, ⟨67, _⟩ => ⟨S131072x7x128, .f32⟩
  | .hbm, ⟨68, _⟩ => ⟨S131072x7x128, .f32⟩
  | .hbm, ⟨69, _⟩ => ⟨S_, .f32⟩
  | .hbm, ⟨70, _⟩ => ⟨S131072x128, .f32⟩
  | .hbm, ⟨71, _⟩ => ⟨S_, .f32⟩
  | .hbm, ⟨72, _⟩ => ⟨S131072x128, .f32⟩
  | .hbm, ⟨73, _⟩ => ⟨S131072x128, .f32⟩
  | .hbm, ⟨74, _⟩ => ⟨S131072x256, .f32⟩
  | .hbm, ⟨75, _⟩ => ⟨S256x128, .f32⟩
  | .hbm, ⟨76, _⟩ => ⟨S131072x128, .f32⟩
  | .hbm, ⟨77, _⟩ => ⟨S1x128, .f32⟩
  | .hbm, ⟨78, _⟩ => ⟨S131072x128, .f32⟩
  | .hbm, ⟨79, _⟩ => ⟨S131072x128, .f32⟩
  | .hbm, ⟨80, _⟩ => ⟨S_, .f32⟩
  | .hbm, ⟨81, _⟩ => ⟨S131072x128, .f32⟩
  | .hbm, ⟨82, _⟩ => ⟨S131072x128, .f32⟩
  | .hbm, ⟨83, _⟩ => ⟨S128x16, .f32⟩
  | .hbm, ⟨84, _⟩ => ⟨S131072x16, .f32⟩
  | .hbm, ⟨85, _⟩ => ⟨S1x16, .f32⟩
  | .hbm, ⟨86, _⟩ => ⟨S131072x16, .f32⟩
  | .hbm, ⟨87, _⟩ => ⟨S131072x16, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call1_v0 : Ref sig .tc := ⟨.hbm, 14, rfl⟩
abbrev main_call1_v1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call2_v0 : Ref sig .tc := ⟨.hbm, 19, rfl⟩
abbrev main_call2_v1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call3_v0 : Ref sig .tc := ⟨.hbm, 24, rfl⟩
abbrev main_call3_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call4_v0 : Ref sig .tc := ⟨.hbm, 29, rfl⟩
abbrev main_call4_v1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call5_v0 : Ref sig .tc := ⟨.hbm, 34, rfl⟩
abbrev main_call5_v1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call6_v0 : Ref sig .tc := ⟨.hbm, 39, rfl⟩
abbrev main_call6_v1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_call7_v0 : Ref sig .tc := ⟨.hbm, 44, rfl⟩
abbrev main_call7_v1 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_call8_v0 : Ref sig .tc := ⟨.hbm, 49, rfl⟩
abbrev main_call8_v1 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call9_cst : Ref sig .tc := ⟨.hbm, 59, rfl⟩
abbrev main_call9_v0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call10_cst : Ref sig .tc := ⟨.hbm, 66, rfl⟩
abbrev main_call10_v0 : Ref sig .tc := ⟨.hbm, 67, rfl⟩
abbrev main_v37 : Ref sig .tc := ⟨.hbm, 68, rfl⟩
abbrev main_cst : Ref sig .tc := ⟨.hbm, 69, rfl⟩
abbrev main_v38 : Ref sig .tc := ⟨.hbm, 70, rfl⟩
abbrev main_cst_0 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call11_cst : Ref sig .tc := ⟨.hbm, 80, rfl⟩
abbrev main_call11_v0 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩

abbrev nD : Nat := 1
abbrev τ : Topo := Topo.v7x

variable {F : FTy → Type} [FloatOps F]

class Facts₀ : Prop where
  slices_S131072x64_S131072x63_0_1 : S131072x64.Slices ![0, 1] S131072x63
  slices_S131072x64_S131072x1_0_0 : S131072x64.Slices ![0, 0] S131072x1
  concatenates_S131072x63_S131072x1_S131072x64_d1 : Shape.Concatenates [S131072x63, S131072x1] S131072x64 1
  shapeCasts_S131072x64_S16384x8x64 : S131072x64.ShapeCasts S16384x8x64
  slices_S16384x8x64_S16384x7x64_0_1_0 : S16384x8x64.Slices ![0, 1, 0] S16384x7x64
  concatenates_S16384x7x64_S16384x7x64_S16384x7x64_S16384x7x64_S16384x7x64_S16384x7x64_S16384x7x64_S16384x7x64_S16384x56x64_d1 : Shape.Concatenates [S16384x7x64, S16384x7x64, S16384x7x64, S16384x7x64, S16384x7x64, S16384x7x64, S16384x7x64, S16384x7x64] S16384x56x64 1
  shapeCasts_S16384x56x64_S131072x7x64 : S16384x56x64.ShapeCasts S131072x7x64
  transposes_S128x64_S64x128_1_0 : S128x64.Transposes [1, 0] S64x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S128_S1x1x128_2 : S128.BroadcastsInDim S1x1x128 (![2] : Fin 1 → Fin S1x1x128.rank)
  bcast_S1x1x128_S131072x7x128_0_1_2 : S1x1x128.BroadcastsInDim S131072x7x128 (![0, 1, 2] : Fin 3 → Fin S131072x7x128.rank)
  bcast_S_S131072x7x128 : S_.BroadcastsInDim S131072x7x128 (![] : Fin 0 → Fin S131072x7x128.rank)
  reducesTo_S131072x7x128_S131072x128_d1 : S131072x7x128.ReducesTo [1] S131072x128
  h_S_ : 0 < S_.numel
  concatenates_S131072x128_S131072x128_S131072x256_d1 : Shape.Concatenates [S131072x128, S131072x128] S131072x256 1
  transposes_S128x256_S256x128_1_0 : S128x256.Transposes [1, 0] S256x128
  transposes_S16x128_S128x16_1_0 : S16x128.Transposes [1, 0] S128x16
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  dot_S131072x64_S64x128_S131072x128_1_0_0_1_n_n_wf : DotDims.WF S131072x64 S64x128 S131072x128 [1] [0] [0] [1] [] []
  dot_S131072x7x64_S128x64_S131072x7x128_2_1_01_0_n_n_wf : DotDims.WF S131072x7x64 S128x64 S131072x7x128 [2] [1] [0, 1] [0] [] []
  dot_S131072x256_S256x128_S131072x128_1_0_0_1_n_n_wf : DotDims.WF S131072x256 S256x128 S131072x128 [1] [0] [0] [1] [] []
  dot_S131072x128_S128x16_S131072x16_1_0_0_1_n_n_wf : DotDims.WF S131072x128 S128x16 S131072x16 [1] [0] [0] [1] [] []

variable [Facts₀]

def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf
def dot_S131072x7x64_S128x64_S131072x7x128_2_1_01_0_n_n : DotDims S131072x7x64 S128x64 S131072x7x128 where
  lhsContracting := [2]
  rhsContracting := [1]
  lhsNonContracting := [0, 1]
  rhsNonContracting := [0]
  lhsBatch := []
  rhsBatch := []
  wf := dot_S131072x7x64_S128x64_S131072x7x128_2_1_01_0_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x16_S131072x16_1_0_0_1_n_n : DotDims S131072x128 S128x16 S131072x16 where
  lhsContracting := [1]
  rhsContracting := [0]
  lhsNonContracting := [0]
  rhsNonContracting := [1]
  lhsBatch := []
  rhsBatch := []
  wf := dot_S131072x128_S128x16_S131072x16_1_0_0_1_n_n_wf

class Facts : Prop extends Facts₀ where

variable [Facts]
-- ==== Proof.EntryB.lean ====
import proofs.«110319_j38714835206233_1_alg».proof.Proof.Gen.Kernel.Launch

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The program's buffers on core `c` when the one kernel region is entered: the launch contents after the nine
    stretches of host operations that build the eight rotated copies of the neighbour weights, stack them, repeat
    the neighbour bias eight times and lay the three other biases out as rows. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

end Cert.Kernel.Hand

end
-- ==== Proof.FrameB.lean ====
import proofs.«110319_j38714835206233_1_alg».proof.Proof.EntryB
import proofs.«110319_j38714835206233_1_alg».proof.Proof.Gen.Kernel.Launch
import proofs.«110319_j38714835206233_1_alg».proof.Proof.Gen.Kernel.Skeleton
import proofs.«110319_j38714835206233_1_alg».proof.Proof.Gen.Kernel.Points
import Idealize.ShloMosaic.Lib.Pipeline.FrameBody
import Idealize.ShloMosaic.Lib.Ring
import Idealize.ShloMosaic.Lib.Tactic

/-!
# The frame of the kernel program

The program is nine stretches of host operations — eight rotations of the neighbour weights, each a pair of slices
rejoined, then the stacking of the eight rotated copies, the eightfold repetition of the neighbour bias and the three
other biases laid out as rows — followed by one pipelined kernel region on a grid of 64 points over ten windows:
nine inputs, of which the first moves with the point and the other eight are fetched once, and one output, which
moves with the point.

The kernel body loads every input window whole, loads the output buffer once without using the value, and stores the
output buffer whole, once. So at every point the output buffer ends at a function `out0_9` of the nine input blocks
alone, every input buffer ends as it was, and the pipeline's frame theorem gives the run: the program terminates
without fault and every argument array ends as launched. Everything here is generic in the float family.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel region -/

/-- No operation of this stretch allocates a buffer of its own. -/
theorem hostOps0_fresh : (hostOps0 : List (HloOp τ sig (Elt F))).Forall fun op => op.fresh = ∅ := by
  simp only [List.Forall]; repeat' constructor
/-- No operation of this stretch allocates a buffer of its own. -/
theorem hostOps0_1_fresh : (hostOps0_1 : List (HloOp τ sig (Elt F))).Forall fun op => op.fresh = ∅ := by
  simp only [List.Forall]; repeat' constructor
/-- No operation of this stretch allocates a buffer of its own. -/
theorem hostOps0_2_fresh : (hostOps0_2 : List (HloOp τ sig (Elt F))).Forall fun op => op.fresh = ∅ := by
  simp only [List.Forall]; repeat' constructor
/-- No operation of this stretch allocates a buffer of its own. -/
theorem hostOps0_3_fresh : (hostOps0_3 : List (HloOp τ sig (Elt F))).Forall fun op => op.fresh = ∅ := by
  simp only [List.Forall]; repeat' constructor
/-- No operation of this stretch allocates a buffer of its own. -/
theorem hostOps0_4_fresh : (hostOps0_4 : List (HloOp τ sig (Elt F))).Forall fun op => op.fresh = ∅ := by
  simp only [List.Forall]; repeat' constructor
/-- No operation of this stretch allocates a buffer of its own. -/
theorem hostOps0_5_fresh : (hostOps0_5 : List (HloOp τ sig (Elt F))).Forall fun op => op.fresh = ∅ := by
  simp only [List.Forall]; repeat' constructor
/-- No operation of this stretch allocates a buffer of its own. -/
theorem hostOps0_6_fresh : (hostOps0_6 : List (HloOp τ sig (Elt F))).Forall fun op => op.fresh = ∅ := by
  simp only [List.Forall]; repeat' constructor
/-- No operation of this stretch allocates a buffer of its own. -/
theorem hostOps0_7_fresh : (hostOps0_7 : List (HloOp τ sig (Elt F))).Forall fun op => op.fresh = ∅ := by
  simp only [List.Forall]; repeat' constructor
/-- No operation of this stretch allocates a buffer of its own. -/
theorem hostOps0_8_fresh : (hostOps0_8 : List (HloOp τ sig (Elt F))).Forall fun op => op.fresh = ∅ := by
  simp only [List.Forall]; repeat' constructor

/-- The program up to the region: the nine stretches of host operations in order, then the region, each stretch
    touching TensorCore references only and allocating nothing. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- Every host operation writes one result buffer, and none of them is argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched its block index has not moved, and the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is not
    fetched its block index has not moved, and the body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is not
    fetched its block index has not moved, and the body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: where it is not
    fetched its block index has not moved, and the body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not: where it is not
    fetched its block index has not moved, and the body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post gives every
    argument array back as launched: an argument a window stages is an input the pipeline only reads, an argument no
    window stages is untouched by the region, and no host operation wrote either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).1 7).trans (((dats 0 c).arrAt_in 7 rfl _).trans ((hA c 7).trans (V_main_arg7 m c))),
      ((h c).2 main_arg8 (Pipeline.mem_restRefs_of main_arg8 (by decide) (by decide))).trans (V_main_arg8 m c)⟩) h

/-! ## The body's accesses: each window's buffer whole -/
abbrev r0_0 : Rect S2048x64 := Rect.unit (s := S2048x64) ![0, 0] S2048x64.size inb_S2048x64_S2048x64_0_0
abbrev r0_1 : Rect S128x64 := Rect.unit (s := S128x64) ![0, 0] S128x64.size inb_S128x64_S128x64_0_0
abbrev r0_2 : Rect S1x128 := Rect.unit (s := S1x128) ![0, 0] S1x128.size inb_S1x128_S1x128_0_0
abbrev r0_3 : Rect S1024x64 := Rect.unit (s := S1024x64) ![0, 0] S1024x64.size inb_S1024x64_S1024x64_0_0
abbrev r0_4 : Rect S1x1024 := Rect.unit (s := S1x1024) ![0, 0] S1x1024.size inb_S1x1024_S1x1024_0_0
abbrev r0_5 : Rect S128x256 := Rect.unit (s := S128x256) ![0, 0] S128x256.size inb_S128x256_S128x256_0_0
abbrev r0_6 : Rect S1x128 := Rect.unit (s := S1x128) ![0, 0] S1x128.size inb_S1x128_S1x128_0_0
abbrev r0_7 : Rect S16x128 := Rect.unit (s := S16x128) ![0, 0] S16x128.size inb_S16x128_S16x128_0_0
abbrev r0_8 : Rect S1x16 := Rect.unit (s := S1x16) ![0, 0] S1x16.size inb_S1x16_S1x16_0_0
abbrev r0_9 : Rect S2048x16 := Rect.unit (s := S2048x16) ![0, 0] S2048x16.size inb_S2048x16_S2048x16_0_0

/-! ## What the body leaves in the output window's buffer -/

/-- The output window's buffer after the body, from the nine input blocks: the one store, whole, of the second
    payload over the first payload of the first six blocks and the last three blocks. -/
def out0_9 (x0 : Vec F S2048x64 .f32) (x1 : Vec F S128x64 .f32) (x2 : Vec F S1x128 .f32) (x3 : Vec F S1024x64 .f32) (x4 : Vec F S1x1024 .f32) (x5 : Vec F S128x256 .f32) (x6 : Vec F S1x128 .f32) (x7 : Vec F S16x128 .f32) (x8 : Vec F S1x16 .f32) : Vec F S2048x16 .f32 :=
  View.canon [⟨r0_9, k0_pay1 (k0_pay2 (View.ld x0 r0_0) (View.ld x1 r0_1) (View.ld x2 r0_2) (View.ld x3 r0_3) (View.ld x4 r0_4) (View.ld x5 r0_5)) (View.ld x6 r0_6) (View.ld x7 r0_7) (View.ld x8 r0_8)⟩]

/-- The one store is of the whole buffer, so it covers it. -/
theorem cover0_9 (p0 : Vec F S2048x16 .f32) (y : S2048x16.Idx) :
    ∃ pc ∈ ([⟨r0_9, p0⟩] : List (View.Piece (Elt F) S2048x16 .f32)), y ∈ pc.1.set :=
  View.cover_of_tiled [⟨r0_9, p0⟩] S2048x16.size (by rfl) y

/-! ## The body's triple -/

set_option maxHeartbeats 1000000 in
/-- The kernel body on whole staging buffers, the inputs' at read contents `x0 … x8` and the output's at anything,
    runs to the continuation holding the inputs' as they were and the output's at `out0_9` of the inputs': the
    printed functions are sequences of whole-buffer loads and one whole-buffer store over the two payloads, and a
    whole-buffer store over anything reads back as the stored value. -/
theorem sound_kernel (c : Dev nD) (E : Set ℕ) (i : grid0.Coords) (arg1 : Memref sig .tc .vmem S2048x64 .f32) (harg1 : arg1.IsWhole) (arg2 : Memref sig .tc .vmem S128x64 .f32) (harg2 : arg2.IsWhole) (arg3 : Memref sig .tc .vmem S1x128 .f32) (harg3 : arg3.IsWhole) (arg4 : Memref sig .tc .vmem S1024x64 .f32) (harg4 : arg4.IsWhole) (arg5 : Memref sig .tc .vmem S1x1024 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S16x128 .f32) (harg8 : arg8.IsWhole) (arg9 : Memref sig .tc .vmem S1x16 .f32) (harg9 : arg9.IsWhole) (arg10 : Memref sig .tc .vmem S2048x16 .f32) (harg10 : arg10.IsWhole)
    (x0 : Vec F S2048x64 .f32) (x1 : Vec F S128x64 .f32) (x2 : Vec F S1x128 .f32) (x3 : Vec F S1024x64 .f32) (x4 : Vec F S1x1024 .f32) (x5 : Vec F S128x256 .f32) (x6 : Vec F S1x128 .f32) (x7 : Vec F S16x128 .f32) (x8 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of the one pipeline on core `c`: the arrays as the region finds them; after the body at point
    `t` each input's buffer still at its block and the output's at `out0_9` of the nine input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents, by projection. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and
    the core's owed waits pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and every final state has every array of the pipeline at what the proof
    data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, terminates without fault, and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.EntryI.lean ====
import proofs.«110319_j38714835206233_1_alg».proof.Proof.Gen.KernelIdeal.Launch

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The program's buffers on core `c` when the one kernel region is entered: the launch contents after the nine
    stretches of host operations that build the eight rotated copies of the neighbour weights, stack them, repeat
    the neighbour bias eight times and lay the three other biases out as rows. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

end Cert.KernelIdeal.Hand

end
-- ==== Proof.FrameI.lean ====
import proofs.«110319_j38714835206233_1_alg».proof.Proof.EntryI
import proofs.«110319_j38714835206233_1_alg».proof.Proof.Gen.KernelIdeal.Launch
import proofs.«110319_j38714835206233_1_alg».proof.Proof.Gen.KernelIdeal.Skeleton
import proofs.«110319_j38714835206233_1_alg».proof.Proof.Gen.KernelIdeal.Points
import Idealize.ShloMosaic.Lib.Pipeline.FrameBody
import Idealize.ShloMosaic.Lib.Ring
import Idealize.ShloMosaic.Lib.Tactic

/-!
# The frame of the kernel program

The program is nine stretches of host operations — eight rotations of the neighbour weights, each a pair of slices
rejoined, then the stacking of the eight rotated copies, the eightfold repetition of the neighbour bias and the three
other biases laid out as rows — followed by one pipelined kernel region on a grid of 64 points over ten windows:
nine inputs, of which the first moves with the point and the other eight are fetched once, and one output, which
moves with the point.

The kernel body loads every input window whole, loads the output buffer once without using the value, and stores the
output buffer whole, once. So at every point the output buffer ends at a function `out0_9` of the nine input blocks
alone, every input buffer ends as it was, and the pipeline's frame theorem gives the run: the program terminates
without fault and every argument array ends as launched. Everything here is generic in the float family.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel region -/

/-- No operation of this stretch allocates a buffer of its own. -/
theorem hostOps0_fresh : (hostOps0 : List (HloOp τ sig (Elt F))).Forall fun op => op.fresh = ∅ := by
  simp only [List.Forall]; repeat' constructor
/-- No operation of this stretch allocates a buffer of its own. -/
theorem hostOps0_1_fresh : (hostOps0_1 : List (HloOp τ sig (Elt F))).Forall fun op => op.fresh = ∅ := by
  simp only [List.Forall]; repeat' constructor
/-- No operation of this stretch allocates a buffer of its own. -/
theorem hostOps0_2_fresh : (hostOps0_2 : List (HloOp τ sig (Elt F))).Forall fun op => op.fresh = ∅ := by
  simp only [List.Forall]; repeat' constructor
/-- No operation of this stretch allocates a buffer of its own. -/
theorem hostOps0_3_fresh : (hostOps0_3 : List (HloOp τ sig (Elt F))).Forall fun op => op.fresh = ∅ := by
  simp only [List.Forall]; repeat' constructor
/-- No operation of this stretch allocates a buffer of its own. -/
theorem hostOps0_4_fresh : (hostOps0_4 : List (HloOp τ sig (Elt F))).Forall fun op => op.fresh = ∅ := by
  simp only [List.Forall]; repeat' constructor
/-- No operation of this stretch allocates a buffer of its own. -/
theorem hostOps0_5_fresh : (hostOps0_5 : List (HloOp τ sig (Elt F))).Forall fun op => op.fresh = ∅ := by
  simp only [List.Forall]; repeat' constructor
/-- No operation of this stretch allocates a buffer of its own. -/
theorem hostOps0_6_fresh : (hostOps0_6 : List (HloOp τ sig (Elt F))).Forall fun op => op.fresh = ∅ := by
  simp only [List.Forall]; repeat' constructor
/-- No operation of this stretch allocates a buffer of its own. -/
theorem hostOps0_7_fresh : (hostOps0_7 : List (HloOp τ sig (Elt F))).Forall fun op => op.fresh = ∅ := by
  simp only [List.Forall]; repeat' constructor
/-- No operation of this stretch allocates a buffer of its own. -/
theorem hostOps0_8_fresh : (hostOps0_8 : List (HloOp τ sig (Elt F))).Forall fun op => op.fresh = ∅ := by
  simp only [List.Forall]; repeat' constructor

/-- The program up to the region: the nine stretches of host operations in order, then the region, each stretch
    touching TensorCore references only and allocating nothing. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- Every host operation writes one result buffer, and none of them is argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Every host operation writes one result buffer, and none of them is argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched its block index has not moved, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched its block index has not moved, and the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is not
    fetched its block index has not moved, and the body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is not
    fetched its block index has not moved, and the body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: where it is not
    fetched its block index has not moved, and the body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not: where it is not
    fetched its block index has not moved, and the body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post gives every
    argument array back as launched: an argument a window stages is an input the pipeline only reads, an argument no
    window stages is untouched by the region, and no host operation wrote either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).1 7).trans (((dats 0 c).arrAt_in 7 rfl _).trans ((hA c 7).trans (V_main_arg7 m c))),
      ((h c).2 main_arg8 (Pipeline.mem_restRefs_of main_arg8 (by decide) (by decide))).trans (V_main_arg8 m c)⟩) h

/-! ## The body's accesses: each window's buffer whole -/
abbrev r0_0 : Rect S2048x64 := Rect.unit (s := S2048x64) ![0, 0] S2048x64.size inb_S2048x64_S2048x64_0_0
abbrev r0_1 : Rect S128x64 := Rect.unit (s := S128x64) ![0, 0] S128x64.size inb_S128x64_S128x64_0_0
abbrev r0_2 : Rect S1x128 := Rect.unit (s := S1x128) ![0, 0] S1x128.size inb_S1x128_S1x128_0_0
abbrev r0_3 : Rect S1024x64 := Rect.unit (s := S1024x64) ![0, 0] S1024x64.size inb_S1024x64_S1024x64_0_0
abbrev r0_4 : Rect S1x1024 := Rect.unit (s := S1x1024) ![0, 0] S1x1024.size inb_S1x1024_S1x1024_0_0
abbrev r0_5 : Rect S128x256 := Rect.unit (s := S128x256) ![0, 0] S128x256.size inb_S128x256_S128x256_0_0
abbrev r0_6 : Rect S1x128 := Rect.unit (s := S1x128) ![0, 0] S1x128.size inb_S1x128_S1x128_0_0
abbrev r0_7 : Rect S16x128 := Rect.unit (s := S16x128) ![0, 0] S16x128.size inb_S16x128_S16x128_0_0
abbrev r0_8 : Rect S1x16 := Rect.unit (s := S1x16) ![0, 0] S1x16.size inb_S1x16_S1x16_0_0
abbrev r0_9 : Rect S2048x16 := Rect.unit (s := S2048x16) ![0, 0] S2048x16.size inb_S2048x16_S2048x16_0_0

/-! ## What the body leaves in the output window's buffer -/

/-- The output window's buffer after the body, from the nine input blocks: the one store, whole, of the second
    payload over the first payload of the first six blocks and the last three blocks. -/
def out0_9 (x0 : Vec F S2048x64 .f32) (x1 : Vec F S128x64 .f32) (x2 : Vec F S1x128 .f32) (x3 : Vec F S1024x64 .f32) (x4 : Vec F S1x1024 .f32) (x5 : Vec F S128x256 .f32) (x6 : Vec F S1x128 .f32) (x7 : Vec F S16x128 .f32) (x8 : Vec F S1x16 .f32) : Vec F S2048x16 .f32 :=
  View.canon [⟨r0_9, k0_pay1 (k0_pay2 (View.ld x0 r0_0) (View.ld x1 r0_1) (View.ld x2 r0_2) (View.ld x3 r0_3) (View.ld x4 r0_4) (View.ld x5 r0_5)) (View.ld x6 r0_6) (View.ld x7 r0_7) (View.ld x8 r0_8)⟩]

/-- The one store is of the whole buffer, so it covers it. -/
theorem cover0_9 (p0 : Vec F S2048x16 .f32) (y : S2048x16.Idx) :
    ∃ pc ∈ ([⟨r0_9, p0⟩] : List (View.Piece (Elt F) S2048x16 .f32)), y ∈ pc.1.set :=
  View.cover_of_tiled [⟨r0_9, p0⟩] S2048x16.size (by rfl) y

/-! ## The body's triple -/

set_option maxHeartbeats 1000000 in
/-- The kernel body on whole staging buffers, the inputs' at read contents `x0 … x8` and the output's at anything,
    runs to the continuation holding the inputs' as they were and the output's at `out0_9` of the inputs': the
    printed functions are sequences of whole-buffer loads and one whole-buffer store over the two payloads, and a
    whole-buffer store over anything reads back as the stored value. -/
theorem sound_kernel (c : Dev nD) (E : Set ℕ) (i : grid0.Coords) (arg1 : Memref sig .tc .vmem S2048x64 .f32) (harg1 : arg1.IsWhole) (arg2 : Memref sig .tc .vmem S128x64 .f32) (harg2 : arg2.IsWhole) (arg3 : Memref sig .tc .vmem S1x128 .f32) (harg3 : arg3.IsWhole) (arg4 : Memref sig .tc .vmem S1024x64 .f32) (harg4 : arg4.IsWhole) (arg5 : Memref sig .tc .vmem S1x1024 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S16x128 .f32) (harg8 : arg8.IsWhole) (arg9 : Memref sig .tc .vmem S1x16 .f32) (harg9 : arg9.IsWhole) (arg10 : Memref sig .tc .vmem S2048x16 .f32) (harg10 : arg10.IsWhole)
    (x0 : Vec F S2048x64 .f32) (x1 : Vec F S128x64 .f32) (x2 : Vec F S1x128 .f32) (x3 : Vec F S1024x64 .f32) (x4 : Vec F S1x1024 .f32) (x5 : Vec F S128x256 .f32) (x6 : Vec F S1x128 .f32) (x7 : Vec F S16x128 .f32) (x8 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of the one pipeline on core `c`: the arrays as the region finds them; after the body at point
    `t` each input's buffer still at its block and the output's at `out0_9` of the nine input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents, by projection. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and
    the core's owed waits pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and every final state has every array of the pipeline at what the proof
    data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, terminates without fault, and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.Spec.lean ====
import Idealize.ShloMosaic.PureOps.Ideal
import Idealize.ShloMosaic.Lib.ValueIdx

noncomputable section

/-! # What the network computes, entry by entry

A DeepSet actor over groups of eight agents. Row `r` of the input belongs to group `r / 8` and is agent `r % 8` of it.
Its own features go through one dense layer; the features of the group's agents 1..7 (never agent 0), each rotated
left by `r % 8 + 1` places, go through a second dense layer, are rectified, summed over the seven and divided by eight.
The two 128-vectors are joined, and two more dense layers follow. Everything is over the extended reals. -/

namespace Cert.Spec

open Idealize.ShloMosaic Idealize.ShloMosaic.ValueIdx

/-- A matrix and a vector of extended reals over literal extents. -/
abbrev A2 (a b : Nat) : Type := (⟨2, ![a, b]⟩ : Shape).Idx → EReal
abbrev A1 (a : Nat) : Type := (⟨1, ![a]⟩ : Shape).Idx → EReal

/-- Row `r`'s `j`-th neighbour: agent `j + 1` of `r`'s group. -/
def nbr (r : Fin 131072) (j : Fin 7) : Fin 131072 :=
  ⟨r.val / 8 * 8 + (j.val + 1), by have := r.isLt; have := j.isLt; omega⟩

/-- The feature a left rotation by `s` places brings to place `o`. -/
def fwd (s : Nat) (o : Fin 64) : Fin 64 := ⟨(o.val + s) % 64, Nat.mod_lt _ (by norm_num)⟩

/-- The place a right rotation by `s` places (`s ≤ 64`) takes place `o` from: the inverse of `fwd s`. -/
def bwd (s : Nat) (o : Fin 64) : Fin 64 := ⟨(o.val + (64 - s)) % 64, Nat.mod_lt _ (by norm_num)⟩

theorem fwd_bwd {s : Nat} (hs : s ≤ 64) (o : Fin 64) : fwd s (bwd s o) = o := by
  apply Fin.ext; have := o.isLt; simp only [fwd, bwd]; omega

theorem bwd_fwd {s : Nat} (hs : s ≤ 64) (o : Fin 64) : bwd s (fwd s o) = o := by
  apply Fin.ext; have := o.isLt; simp only [fwd, bwd]; omega

/-- The two rotations as a permutation of the 64 places. -/
def rot (s : Nat) (hs : s ≤ 64) : Fin 64 ≃ Fin 64 where
  toFun := fwd s
  invFun := bwd s
  left_inv := bwd_fwd hs
  right_inv := fwd_bwd hs

/-- Rotating the weights right is rotating the features left: a sum over the 64 places taken in another order. -/
theorem sum_rot {s : Nat} (hs : s ≤ 64) (f g : Fin 64 → EReal) :
    ∑ o : Fin 64, f o * g (bwd s o) = ∑ o : Fin 64, f (fwd s o) * g o := by
  rw [← Equiv.sum_comp (rot s hs) (fun o => f o * g (bwd s o))]
  exact Finset.sum_congr rfl fun o _ => by
    show f (fwd s o) * g (bwd s (fwd s o)) = _
    rw [bwd_fwd hs]

section
variable (X : A2 131072 64) (W1 : A2 128 64) (b1 : A1 128) (W1o : A2 128 64) (b1o : A1 128)
  (W2 : A2 128 256) (b2 : A1 128) (Wv : A2 16 128) (bv : A1 16)

/-- The row's own path: a dense layer and a rectifier. -/
def own (r : Fin 131072) (h : Fin 128) : EReal :=
  max ((∑ o : Fin 64, X (ix2 r o) * W1 (ix2 h o)) + b1 (ix1 h)) 0

/-- One neighbour's contribution: its features rotated left by `s` places through the neighbour layer, rectified. -/
def nbrTerm (r : Fin 131072) (h : Fin 128) (j : Fin 7) : EReal :=
  max ((∑ o : Fin 64, X (ix2 (nbr r j) (fwd (r.val % 8 + 1) o)) * W1o (ix2 h o)) + b1o (ix1 h)) 0

/-- The neighbours' path: the seven contributions summed, times one eighth. -/
def oth (r : Fin 131072) (h : Fin 128) : EReal :=
  (∑ j : Fin 7, nbrTerm X W1o b1o r h j) * ((1 / 8 : ℝ) : EReal)

/-- The two paths side by side: 256 hidden values per row. -/
def cat (r : Fin 131072) (k : Fin 256) : EReal :=
  if hk : k.val < 128 then own X W1 b1 r ⟨k.val, hk⟩
  else oth X W1o b1o r ⟨k.val - 128, by have := k.isLt; omega⟩

/-- The second dense layer and rectifier. -/
def hid (r : Fin 131072) (h : Fin 128) : EReal :=
  max ((∑ k : Fin 256, cat X W1 b1 W1o b1o r k * W2 (ix2 h k)) + b2 (ix1 h)) 0

/-- The output layer. -/
def outv (r : Fin 131072) (n : Fin 16) : EReal :=
  (∑ h : Fin 128, hid X W1 b1 W1o b1o W2 b2 r h * Wv (ix2 n h)) + bv (ix1 n)

/-- The whole result array. -/
def G : A2 131072 16 := fun i =>
  outv X W1 b1 W1o b1o W2 b2 Wv bv ⟨(i 0).val, idx2_lt0 i⟩ ⟨(i 1).val, idx2_lt1 i⟩

theorem G_ix2 (r : Fin 131072) (n : Fin 16) :
    G X W1 b1 W1o b1o W2 b2 Wv bv (ix2 r n) = outv X W1 b1 W1o b1o W2 b2 Wv bv r n := rfl

end

end Cert.Spec

end
-- ==== Proof.HostVals.lean ====
import proofs.«110319_j38714835206233_1_alg».proof.Proof.EntryI
import proofs.«110319_j38714835206233_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## Two layout facts, for any kind of entry -/

section Layout
variable {α : Type}

/-- A 128 × 64 matrix with its last `a` columns moved in front of its first `b` (`a + b = 64`): column `o` of the
    result is column `(o + b) % 64` of the matrix. -/
theorem swap_apply {a b : Nat} (hab : a + b = 64) (W : (⟨2, ![128, 64]⟩ : Shape).Idx → α)
    (h1 : (⟨2, ![128, 64]⟩ : Shape).Slices ![0, b] ⟨2, ![128, a]⟩)
    (h2 : (⟨2, ![128, 64]⟩ : Shape).Slices ![0, 0] ⟨2, ![128, b]⟩)
    (hc : Shape.Concatenates [(⟨2, ![128, a]⟩ : Shape), ⟨2, ![128, b]⟩] ⟨2, ![128, 64]⟩ 1)
    (h : Fin 128) (o : Fin 64) :
    concatenate ⟨2, ![128, 64]⟩ 1
        [⟨⟨2, ![128, a]⟩, extractStridedSlice ⟨2, ![128, a]⟩ ![0, b] W h1⟩,
         ⟨⟨2, ![128, b]⟩, extractStridedSlice ⟨2, ![128, b]⟩ ![0, 0] W h2⟩] hc (ix2 h o)
      = W (ix2 h ⟨(o.val + b) % 64, Nat.mod_lt _ (by norm_num)⟩) := by
  have hoL := o.isLt
  by_cases ho : o.val < a
  · -- a column before `a` comes from the first piece, the slice that starts at column `b`
    refine (concatenate_pair_apply_left _ _ _ hc (ix2 h o) rfl (ix2 h (⟨o.val, ho⟩ : Fin a)) ?_).trans ?_
    · intro d
      match d with
      | ⟨0, _⟩ => rfl
      | ⟨1, _⟩ => rfl
    refine (extractStridedSlice_apply _ W h1 _ (ix2 h (⟨b + o.val, by omega⟩ : Fin 64)) ?_).trans ?_
    · intro d
      match d with
      | ⟨0, _⟩ => show h.val = 0 + h.val; omega
      | ⟨1, _⟩ => rfl
    · refine congrArg W (congrArg (ix2 h) (Fin.ext ?_))
      show b + o.val = (o.val + b) % 64
      omega
  · -- a column from `a` on comes from the second piece, the slice that starts at column 0, `a` places earlier
    have ho' : a ≤ o.val := Nat.le_of_not_lt ho
    refine (concatenate_pair_apply_right _ _ _ hc (ix2 h o) rfl rfl (ix2 h (⟨o.val - a, by omega⟩ : Fin b)) ?_ ?_).trans ?_
    · intro d hd
      match d, hd with
      | ⟨0, _⟩, _ => rfl
      | ⟨1, _⟩, hd => exact absurd rfl hd
    · show (o.val - a) + a = o.val
      omega
    refine (extractStridedSlice_apply _ W h2 _ (ix2 h (⟨o.val - a, by omega⟩ : Fin 64)) ?_).trans ?_
    · intro d
      match d with
      | ⟨0, _⟩ => show h.val = 0 + h.val; omega
      | ⟨1, _⟩ => show o.val - a = 0 + (o.val - a); omega
    · refine congrArg W (congrArg (ix2 h) (Fin.ext ?_))
      show o.val - a = (o.val + b) % 64
      omega

end Layout

section Stack
variable {α : Type}

/-- Eight 1 × 128 × 64 pieces laid one after another along the first axis: slab `i` of the result is piece `i`. -/
theorem stack8_apply (P : Fin 8 → S1x128x64.Idx → α)
    (hc : Shape.Concatenates [S1x128x64, S1x128x64, S1x128x64, S1x128x64, S1x128x64, S1x128x64, S1x128x64, S1x128x64] S8x128x64 0)
    (i : Fin 8) (h : Fin 128) (o : Fin 64) :
    concatenate S8x128x64 0 [⟨S1x128x64, P 0⟩, ⟨S1x128x64, P 1⟩, ⟨S1x128x64, P 2⟩, ⟨S1x128x64, P 3⟩, ⟨S1x128x64, P 4⟩, ⟨S1x128x64, P 5⟩, ⟨S1x128x64, P 6⟩, ⟨S1x128x64, P 7⟩] hc (ix3 i h o) = P i (ix3 (0 : Fin 1) h o) := by
  match i with
  | ⟨0, _⟩ =>
    exact concatenate_apply_piece (0 : Fin S8x128x64.rank) [⟨S1x128x64, P 0⟩, ⟨S1x128x64, P 1⟩, ⟨S1x128x64, P 2⟩, ⟨S1x128x64, P 3⟩, ⟨S1x128x64, P 4⟩, ⟨S1x128x64, P 5⟩, ⟨S1x128x64, P 6⟩, ⟨S1x128x64, P 7⟩] hc _ 0 (by simp) S1x128x64 (P 0) rfl rfl 0 rfl
      (ix3 (0 : Fin 1) h o)
      (fun d hd => match d, hd with
        | ⟨0, _⟩, hd => absurd rfl hd
        | ⟨1, _⟩, _ => rfl
        | ⟨2, _⟩, _ => rfl) rfl
  | ⟨1, _⟩ =>
    exact concatenate_apply_piece (0 : Fin S8x128x64.rank) [⟨S1x128x64, P 0⟩, ⟨S1x128x64, P 1⟩, ⟨S1x128x64, P 2⟩, ⟨S1x128x64, P 3⟩, ⟨S1x128x64, P 4⟩, ⟨S1x128x64, P 5⟩, ⟨S1x128x64, P 6⟩, ⟨S1x128x64, P 7⟩] hc _ 1 (by simp) S1x128x64 (P 1) rfl rfl 1 rfl
      (ix3 (0 : Fin 1) h o)
      (fun d hd => match d, hd with
        | ⟨0, _⟩, hd => absurd rfl hd
        | ⟨1, _⟩, _ => rfl
        | ⟨2, _⟩, _ => rfl) rfl
  | ⟨2, _⟩ =>
    exact concatenate_apply_piece (0 : Fin S8x128x64.rank) [⟨S1x128x64, P 0⟩, ⟨S1x128x64, P 1⟩, ⟨S1x128x64, P 2⟩, ⟨S1x128x64, P 3⟩, ⟨S1x128x64, P 4⟩, ⟨S1x128x64, P 5⟩, ⟨S1x128x64, P 6⟩, ⟨S1x128x64, P 7⟩] hc _ 2 (by simp) S1x128x64 (P 2) rfl rfl 2 rfl
      (ix3 (0 : Fin 1) h o)
      (fun d hd => match d, hd with
        | ⟨0, _⟩, hd => absurd rfl hd
        | ⟨1, _⟩, _ => rfl
        | ⟨2, _⟩, _ => rfl) rfl
  | ⟨3, _⟩ =>
    exact concatenate_apply_piece (0 : Fin S8x128x64.rank) [⟨S1x128x64, P 0⟩, ⟨S1x128x64, P 1⟩, ⟨S1x128x64, P 2⟩, ⟨S1x128x64, P 3⟩, ⟨S1x128x64, P 4⟩, ⟨S1x128x64, P 5⟩, ⟨S1x128x64, P 6⟩, ⟨S1x128x64, P 7⟩] hc _ 3 (by simp) S1x128x64 (P 3) rfl rfl 3 rfl
      (ix3 (0 : Fin 1) h o)
      (fun d hd => match d, hd with
        | ⟨0, _⟩, hd => absurd rfl hd
        | ⟨1, _⟩, _ => rfl
        | ⟨2, _⟩, _ => rfl) rfl
  | ⟨4, _⟩ =>
    exact concatenate_apply_piece (0 : Fin S8x128x64.rank) [⟨S1x128x64, P 0⟩, ⟨S1x128x64, P 1⟩, ⟨S1x128x64, P 2⟩, ⟨S1x128x64, P 3⟩, ⟨S1x128x64, P 4⟩, ⟨S1x128x64, P 5⟩, ⟨S1x128x64, P 6⟩, ⟨S1x128x64, P 7⟩] hc _ 4 (by simp) S1x128x64 (P 4) rfl rfl 4 rfl
      (ix3 (0 : Fin 1) h o)
      (fun d hd => match d, hd with
        | ⟨0, _⟩, hd => absurd rfl hd
        | ⟨1, _⟩, _ => rfl
        | ⟨2, _⟩, _ => rfl) rfl
  | ⟨5, _⟩ =>
    exact concatenate_apply_piece (0 : Fin S8x128x64.rank) [⟨S1x128x64, P 0⟩, ⟨S1x128x64, P 1⟩, ⟨S1x128x64, P 2⟩, ⟨S1x128x64, P 3⟩, ⟨S1x128x64, P 4⟩, ⟨S1x128x64, P 5⟩, ⟨S1x128x64, P 6⟩, ⟨S1x128x64, P 7⟩] hc _ 5 (by simp) S1x128x64 (P 5) rfl rfl 5 rfl
      (ix3 (0 : Fin 1) h o)
      (fun d hd => match d, hd with
        | ⟨0, _⟩, hd => absurd rfl hd
        | ⟨1, _⟩, _ => rfl
        | ⟨2, _⟩, _ => rfl) rfl
  | ⟨6, _⟩ =>
    exact concatenate_apply_piece (0 : Fin S8x128x64.rank) [⟨S1x128x64, P 0⟩, ⟨S1x128x64, P 1⟩, ⟨S1x128x64, P 2⟩, ⟨S1x128x64, P 3⟩, ⟨S1x128x64, P 4⟩, ⟨S1x128x64, P 5⟩, ⟨S1x128x64, P 6⟩, ⟨S1x128x64, P 7⟩] hc _ 6 (by simp) S1x128x64 (P 6) rfl rfl 6 rfl
      (ix3 (0 : Fin 1) h o)
      (fun d hd => match d, hd with
        | ⟨0, _⟩, hd => absurd rfl hd
        | ⟨1, _⟩, _ => rfl
        | ⟨2, _⟩, _ => rfl) rfl
  | ⟨7, _⟩ =>
    exact concatenate_apply_piece (0 : Fin S8x128x64.rank) [⟨S1x128x64, P 0⟩, ⟨S1x128x64, P 1⟩, ⟨S1x128x64, P 2⟩, ⟨S1x128x64, P 3⟩, ⟨S1x128x64, P 4⟩, ⟨S1x128x64, P 5⟩, ⟨S1x128x64, P 6⟩, ⟨S1x128x64, P 7⟩] hc _ 7 (by simp) S1x128x64 (P 7) rfl rfl 7 rfl
      (ix3 (0 : Fin 1) h o)
      (fun d hd => match d, hd with
        | ⟨0, _⟩, hd => absurd rfl hd
        | ⟨1, _⟩, _ => rfl
        | ⟨2, _⟩, _ => rfl) rfl

end Stack

/-! ## The eight rotated copies and their stack -/

section Rotated
variable {α : Type}

/-- The neighbour weights with their last `i + 1` columns moved to the front: rotated right by `i + 1` places. -/
def rotW (W : S128x64.Idx → α) : Fin 8 → S128x64.Idx → α
  | ⟨0, _⟩ =>
    concatenate S128x64 1
      [⟨S128x1, extractStridedSlice S128x1 ![0, 63] W slices_S128x64_S128x1_0_63⟩,
       ⟨S128x63, extractStridedSlice S128x63 ![0, 0] W slices_S128x64_S128x63_0_0⟩]
      concatenates_S128x1_S128x63_S128x64_d1
  | ⟨1, _⟩ =>
    concatenate S128x64 1
      [⟨S128x2, extractStridedSlice S128x2 ![0, 62] W slices_S128x64_S128x2_0_62⟩,
       ⟨S128x62, extractStridedSlice S128x62 ![0, 0] W slices_S128x64_S128x62_0_0⟩]
      concatenates_S128x2_S128x62_S128x64_d1
  | ⟨2, _⟩ =>
    concatenate S128x64 1
      [⟨S128x3, extractStridedSlice S128x3 ![0, 61] W slices_S128x64_S128x3_0_61⟩,
       ⟨S128x61, extractStridedSlice S128x61 ![0, 0] W slices_S128x64_S128x61_0_0⟩]
      concatenates_S128x3_S128x61_S128x64_d1
  | ⟨3, _⟩ =>
    concatenate S128x64 1
      [⟨S128x4, extractStridedSlice S128x4 ![0, 60] W slices_S128x64_S128x4_0_60⟩,
       ⟨S128x60, extractStridedSlice S128x60 ![0, 0] W slices_S128x64_S128x60_0_0⟩]
      concatenates_S128x4_S128x60_S128x64_d1
  | ⟨4, _⟩ =>
    concatenate S128x64 1
      [⟨S128x5, extractStridedSlice S128x5 ![0, 59] W slices_S128x64_S128x5_0_59⟩,
       ⟨S128x59, extractStridedSlice S128x59 ![0, 0] W slices_S128x64_S128x59_0_0⟩]
      concatenates_S128x5_S128x59_S128x64_d1
  | ⟨5, _⟩ =>
    concatenate S128x64 1
      [⟨S128x6, extractStridedSlice S128x6 ![0, 58] W slices_S128x64_S128x6_0_58⟩,
       ⟨S128x58, extractStridedSlice S128x58 ![0, 0] W slices_S128x64_S128x58_0_0⟩]
      concatenates_S128x6_S128x58_S128x64_d1
  | ⟨6, _⟩ =>
    concatenate S128x64 1
      [⟨S128x7, extractStridedSlice S128x7 ![0, 57] W slices_S128x64_S128x7_0_57⟩,
       ⟨S128x57, extractStridedSlice S128x57 ![0, 0] W slices_S128x64_S128x57_0_0⟩]
      concatenates_S128x7_S128x57_S128x64_d1
  | ⟨7, _⟩ =>
    concatenate S128x64 1
      [⟨S128x8, extractStridedSlice S128x8 ![0, 56] W slices_S128x64_S128x8_0_56⟩,
       ⟨S128x56, extractStridedSlice S128x56 ![0, 0] W slices_S128x64_S128x56_0_0⟩]
      concatenates_S128x8_S128x56_S128x64_d1
  | ⟨_ + 8, hk⟩ => absurd hk (Nat.not_lt.2 (Nat.le_add_left _ _))

/-- Column `o` of the copy rotated right by `i + 1` places is column `bwd (i + 1) o` of the weights. -/
theorem rotW_apply (W : S128x64.Idx → α) (i : Fin 8) (h : Fin 128) (o : Fin 64) :
    rotW W i (ix2 h o) = W (ix2 h (Cert.Spec.bwd (i.val + 1) o)) := by
  match i with
  | ⟨0, _⟩ =>
    exact (swap_apply (a := 1) (b := 63) rfl W slices_S128x64_S128x1_0_63 slices_S128x64_S128x63_0_0
      concatenates_S128x1_S128x63_S128x64_d1 h o).trans (congrArg W (congrArg (ix2 h) (Fin.ext rfl)))
  | ⟨1, _⟩ =>
    exact (swap_apply (a := 2) (b := 62) rfl W slices_S128x64_S128x2_0_62 slices_S128x64_S128x62_0_0
      concatenates_S128x2_S128x62_S128x64_d1 h o).trans (congrArg W (congrArg (ix2 h) (Fin.ext rfl)))
  | ⟨2, _⟩ =>
    exact (swap_apply (a := 3) (b := 61) rfl W slices_S128x64_S128x3_0_61 slices_S128x64_S128x61_0_0
      concatenates_S128x3_S128x61_S128x64_d1 h o).trans (congrArg W (congrArg (ix2 h) (Fin.ext rfl)))
  | ⟨3, _⟩ =>
    exact (swap_apply (a := 4) (b := 60) rfl W slices_S128x64_S128x4_0_60 slices_S128x64_S128x60_0_0
      concatenates_S128x4_S128x60_S128x64_d1 h o).trans (congrArg W (congrArg (ix2 h) (Fin.ext rfl)))
  | ⟨4, _⟩ =>
    exact (swap_apply (a := 5) (b := 59) rfl W slices_S128x64_S128x5_0_59 slices_S128x64_S128x59_0_0
      concatenates_S128x5_S128x59_S128x64_d1 h o).trans (congrArg W (congrArg (ix2 h) (Fin.ext rfl)))
  | ⟨5, _⟩ =>
    exact (swap_apply (a := 6) (b := 58) rfl W slices_S128x64_S128x6_0_58 slices_S128x64_S128x58_0_0
      concatenates_S128x6_S128x58_S128x64_d1 h o).trans (congrArg W (congrArg (ix2 h) (Fin.ext rfl)))
  | ⟨6, _⟩ =>
    exact (swap_apply (a := 7) (b := 57) rfl W slices_S128x64_S128x7_0_57 slices_S128x64_S128x57_0_0
      concatenates_S128x7_S128x57_S128x64_d1 h o).trans (congrArg W (congrArg (ix2 h) (Fin.ext rfl)))
  | ⟨7, _⟩ =>
    exact (swap_apply (a := 8) (b := 56) rfl W slices_S128x64_S128x8_0_56 slices_S128x64_S128x56_0_0
      concatenates_S128x8_S128x56_S128x64_d1 h o).trans (congrArg W (congrArg (ix2 h) (Fin.ext rfl)))

/-- A rotated copy as one slab of the stack. -/
def slab (W : S128x64.Idx → α) (i : Fin 8) : S1x128x64.Idx → α :=
  broadcastInDim S1x128x64 ![1, 2] bcast_S128x64_S1x128x64_1_2 (rotW W i)

theorem slab_apply (W : S128x64.Idx → α) (i : Fin 8) (h : Fin 128) (o : Fin 64) :
    slab W i (ix3 (0 : Fin 1) h o) = W (ix2 h (Cert.Spec.bwd (i.val + 1) o)) := by
  refine (broadcastInDim_apply _ _ _ _ (ix2 h o) ?_).trans (rotW_apply W i h o)
  intro a
  match a with
  | ⟨0, _⟩ => rfl
  | ⟨1, _⟩ => rfl

/-- The stack of the eight slabs read as a 1024 × 64 matrix: row `i * 128 + h` is row `h` of copy `i`. -/
theorem stacked_apply (W : S128x64.Idx → α) (i : Fin 8) (h : Fin 128) (o : Fin 64) :
    shapeCast S1024x64
        (concatenate S8x128x64 0 [⟨S1x128x64, slab W 0⟩, ⟨S1x128x64, slab W 1⟩, ⟨S1x128x64, slab W 2⟩, ⟨S1x128x64, slab W 3⟩, ⟨S1x128x64, slab W 4⟩, ⟨S1x128x64, slab W 5⟩, ⟨S1x128x64, slab W 6⟩, ⟨S1x128x64, slab W 7⟩]
          concatenates_S1x128x64_S1x128x64_S1x128x64_S1x128x64_S1x128x64_S1x128x64_S1x128x64_S1x128x64_S8x128x64_d0)
        shapeCasts_S8x128x64_S1024x64
        (ix2 (⟨i.val * 128 + h.val, by have := i.isLt; have := h.isLt; omega⟩ : Fin 1024) o)
      = W (ix2 h (Cert.Spec.bwd (i.val + 1) o)) := by
  refine (shapeCast_apply _ _ _ (ix3 i h o) ?_).trans ?_
  · rw [Shape.rowMajor_val_three, Shape.rowMajor_val_two]
    rfl
  exact (stack8_apply (slab W) _ i h o).trans (slab_apply W i h o)

end Rotated

/-- What an operation with eight literal operands leaves in its result buffer: its function of the eight operands'
    contents, each read at its own buffer. -/
theorem nary8_result {Val : EltTy → Type} {x0 x1 x2 x3 x4 x5 x6 x7 y : Ref sig .tc}
    (f : ((k : Fin 8) → ((![x0, x1, x2, x3, x4, x5, x6, x7] : Fin 8 → Ref sig .tc) k).ty.Contents Val) → y.ty.Contents Val)
    (hxs hy) (G : Valuation τ sig Val) :
    (StableHlo.nary (τ := τ) ![x0, x1, x2, x3, x4, x5, x6, x7] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) := by
  rw [StableHlo.nary_result]; congr 1; funext k; fin_cases k <;> rfl

/-! ## The stacked weights -/

/-- The buffers after the eight rotations, before the stacking. -/
abbrev pre (c : Dev nD) : Valuation τ sig (Elt F) :=
  StableHlo.after (List.flatten [hostOps0, hostOps0_1, hostOps0_2, hostOps0_3, hostOps0_4, hostOps0_5, hostOps0_6, hostOps0_7]) (fun b => m (c, b))

/-- A line of operations run after another: the second line's fold over the first line's. -/
theorem after_two {Val : EltTy → Type} : ∀ (l₁ l₂ : List (HloOp τ sig Val)) (V0 : Valuation τ sig Val),
    StableHlo.after (l₁ ++ l₂) V0 = StableHlo.after l₂ (StableHlo.after l₁ V0)
  | [], _, _ => rfl
  | op :: l₁, l₂, V0 => by
    rw [List.cons_append, StableHlo.after_cons, StableHlo.after_cons, after_two l₁ l₂]

/-- The region's buffers are the last stretch's fold over the buffers after the rotations. -/
theorem V_split (c : Dev nD) (b : Ref sig .tc) :
    V m c b = StableHlo.after hostOps0_8 (pre m c) b := by
  have hl : List.flatten ([hostOps0, hostOps0_1, hostOps0_2, hostOps0_3, hostOps0_4, hostOps0_5, hostOps0_6, hostOps0_7, hostOps0_8] : List (List (HloOp τ sig (Elt F))))
      = List.flatten [hostOps0, hostOps0_1, hostOps0_2, hostOps0_3, hostOps0_4, hostOps0_5, hostOps0_6, hostOps0_7] ++ hostOps0_8 := by
    simp only [List.flatten_cons, List.flatten_nil, List.append_nil, List.append_assoc]
  show StableHlo.after (List.flatten [hostOps0, hostOps0_1, hostOps0_2, hostOps0_3, hostOps0_4, hostOps0_5, hostOps0_6, hostOps0_7, hostOps0_8]) (fun b => m (c, b)) b = _
  rw [hl, after_two]

theorem pre_v0 (c : Dev nD) :
    (pre m c (Proc.devRef .tc main_v0) : S128x64.Idx → Elt F .f32)
      = rotW (m ((c : Thread nD τ).loc main_arg3) : S128x64.Idx → Elt F .f32) 0 := by
  dsimp only [pre]
  simp only [hostOps0, hostOps0_1, hostOps0_2, hostOps0_3, hostOps0_4, hostOps0_5, hostOps0_6, hostOps0_7, List.flatten_cons, List.flatten_nil, List.append_nil, List.cons_append, List.nil_append]
  after_results
  rfl

theorem pre_v1 (c : Dev nD) :
    (pre m c (Proc.devRef .tc main_v1) : S128x64.Idx → Elt F .f32)
      = rotW (m ((c : Thread nD τ).loc main_arg3) : S128x64.Idx → Elt F .f32) 1 := by
  dsimp only [pre]
  simp only [hostOps0, hostOps0_1, hostOps0_2, hostOps0_3, hostOps0_4, hostOps0_5, hostOps0_6, hostOps0_7, List.flatten_cons, List.flatten_nil, List.append_nil, List.cons_append, List.nil_append]
  after_results
  rfl

theorem pre_v2 (c : Dev nD) :
    (pre m c (Proc.devRef .tc main_v2) : S128x64.Idx → Elt F .f32)
      = rotW (m ((c : Thread nD τ).loc main_arg3) : S128x64.Idx → Elt F .f32) 2 := by
  dsimp only [pre]
  simp only [hostOps0, hostOps0_1, hostOps0_2, hostOps0_3, hostOps0_4, hostOps0_5, hostOps0_6, hostOps0_7, List.flatten_cons, List.flatten_nil, List.append_nil, List.cons_append, List.nil_append]
  after_results
  rfl

theorem pre_v3 (c : Dev nD) :
    (pre m c (Proc.devRef .tc main_v3) : S128x64.Idx → Elt F .f32)
      = rotW (m ((c : Thread nD τ).loc main_arg3) : S128x64.Idx → Elt F .f32) 3 := by
  dsimp only [pre]
  simp only [hostOps0, hostOps0_1, hostOps0_2, hostOps0_3, hostOps0_4, hostOps0_5, hostOps0_6, hostOps0_7, List.flatten_cons, List.flatten_nil, List.append_nil, List.cons_append, List.nil_append]
  after_results
  rfl

theorem pre_v4 (c : Dev nD) :
    (pre m c (Proc.devRef .tc main_v4) : S128x64.Idx → Elt F .f32)
      = rotW (m ((c : Thread nD τ).loc main_arg3) : S128x64.Idx → Elt F .f32) 4 := by
  dsimp only [pre]
  simp only [hostOps0, hostOps0_1, hostOps0_2, hostOps0_3, hostOps0_4, hostOps0_5, hostOps0_6, hostOps0_7, List.flatten_cons, List.flatten_nil, List.append_nil, List.cons_append, List.nil_append]
  after_results
  rfl

theorem pre_v5 (c : Dev nD) :
    (pre m c (Proc.devRef .tc main_v5) : S128x64.Idx → Elt F .f32)
      = rotW (m ((c : Thread nD τ).loc main_arg3) : S128x64.Idx → Elt F .f32) 5 := by
  dsimp only [pre]
  simp only [hostOps0, hostOps0_1, hostOps0_2, hostOps0_3, hostOps0_4, hostOps0_5, hostOps0_6, hostOps0_7, List.flatten_cons, List.flatten_nil, List.append_nil, List.cons_append, List.nil_append]
  after_results
  rfl

theorem pre_v6 (c : Dev nD) :
    (pre m c (Proc.devRef .tc main_v6) : S128x64.Idx → Elt F .f32)
      = rotW (m ((c : Thread nD τ).loc main_arg3) : S128x64.Idx → Elt F .f32) 6 := by
  dsimp only [pre]
  simp only [hostOps0, hostOps0_1, hostOps0_2, hostOps0_3, hostOps0_4, hostOps0_5, hostOps0_6, hostOps0_7, List.flatten_cons, List.flatten_nil, List.append_nil, List.cons_append, List.nil_append]
  after_results
  rfl

theorem pre_v7 (c : Dev nD) :
    (pre m c (Proc.devRef .tc main_v7) : S128x64.Idx → Elt F .f32)
      = rotW (m ((c : Thread nD τ).loc main_arg3) : S128x64.Idx → Elt F .f32) 7 := by
  dsimp only [pre]
  simp only [hostOps0, hostOps0_1, hostOps0_2, hostOps0_3, hostOps0_4, hostOps0_5, hostOps0_6, hostOps0_7, List.flatten_cons, List.flatten_nil, List.append_nil, List.cons_append, List.nil_append]
  after_results
  rfl

open Idealize.ShloMosaic.StableHlo in
/-- Reads a buffer's contents after a line of operations back to the operations' functions of the contents before,
    outermost operation first; an eight-operand operation by `nary8_result`. -/
macro "host_results" : tactic =>
  `(tactic| (simp only [after_cons, after_nil]
             repeat (first
               | rw [unary_result] | rw [binary_result] | rw [reshape_result] | rw [nary8_result]
               | (rw [unary_result_ne]; rotate_left; decide)
               | (rw [binary_result_ne]; rotate_left; decide)
               | (rw [reshape_result_ne]; rotate_left; decide)
               | (rw [nary_result_ne]; rotate_left; decide))))

set_option maxHeartbeats 2000000 in
/-- The last stretch's stacking, over any contents before it: the eight matrices, each as a slab, laid one after
    another and read as a 1024 × 64 matrix. -/
theorem last_v17 (V1 : Valuation τ sig (Elt F)) :
    (StableHlo.after hostOps0_8 V1 (Proc.devRef .tc main_v17) : S1024x64.Idx → Elt F .f32)
      = shapeCast S1024x64
          (concatenate S8x128x64 0
            [⟨S1x128x64, broadcastInDim S1x128x64 ![1, 2] bcast_S128x64_S1x128x64_1_2 (V1 (Proc.devRef .tc main_v0) : S128x64.Idx → Elt F .f32)⟩,
             ⟨S1x128x64, broadcastInDim S1x128x64 ![1, 2] bcast_S128x64_S1x128x64_1_2 (V1 (Proc.devRef .tc main_v1) : S128x64.Idx → Elt F .f32)⟩,
             ⟨S1x128x64, broadcastInDim S1x128x64 ![1, 2] bcast_S128x64_S1x128x64_1_2 (V1 (Proc.devRef .tc main_v2) : S128x64.Idx → Elt F .f32)⟩,
             ⟨S1x128x64, broadcastInDim S1x128x64 ![1, 2] bcast_S128x64_S1x128x64_1_2 (V1 (Proc.devRef .tc main_v3) : S128x64.Idx → Elt F .f32)⟩,
             ⟨S1x128x64, broadcastInDim S1x128x64 ![1, 2] bcast_S128x64_S1x128x64_1_2 (V1 (Proc.devRef .tc main_v4) : S128x64.Idx → Elt F .f32)⟩,
             ⟨S1x128x64, broadcastInDim S1x128x64 ![1, 2] bcast_S128x64_S1x128x64_1_2 (V1 (Proc.devRef .tc main_v5) : S128x64.Idx → Elt F .f32)⟩,
             ⟨S1x128x64, broadcastInDim S1x128x64 ![1, 2] bcast_S128x64_S1x128x64_1_2 (V1 (Proc.devRef .tc main_v6) : S128x64.Idx → Elt F .f32)⟩,
             ⟨S1x128x64, broadcastInDim S1x128x64 ![1, 2] bcast_S128x64_S1x128x64_1_2 (V1 (Proc.devRef .tc main_v7) : S128x64.Idx → Elt F .f32)⟩]
            concatenates_S1x128x64_S1x128x64_S1x128x64_S1x128x64_S1x128x64_S1x128x64_S1x128x64_S1x128x64_S8x128x64_d0)
          shapeCasts_S8x128x64_S1024x64 := by
  simp only [hostOps0_8]
  host_results
  rfl

theorem V_v17_eq (c : Dev nD) :
    (V m c main_v17 : S1024x64.Idx → Elt F .f32)
      = shapeCast S1024x64
          (concatenate S8x128x64 0
            [⟨S1x128x64, slab (m ((c : Thread nD τ).loc main_arg3) : S128x64.Idx → Elt F .f32) 0⟩,
             ⟨S1x128x64, slab (m ((c : Thread nD τ).loc main_arg3) : S128x64.Idx → Elt F .f32) 1⟩,
             ⟨S1x128x64, slab (m ((c : Thread nD τ).loc main_arg3) : S128x64.Idx → Elt F .f32) 2⟩,
             ⟨S1x128x64, slab (m ((c : Thread nD τ).loc main_arg3) : S128x64.Idx → Elt F .f32) 3⟩,
             ⟨S1x128x64, slab (m ((c : Thread nD τ).loc main_arg3) : S128x64.Idx → Elt F .f32) 4⟩,
             ⟨S1x128x64, slab (m ((c : Thread nD τ).loc main_arg3) : S128x64.Idx → Elt F .f32) 5⟩,
             ⟨S1x128x64, slab (m ((c : Thread nD τ).loc main_arg3) : S128x64.Idx → Elt F .f32) 6⟩,
             ⟨S1x128x64, slab (m ((c : Thread nD τ).loc main_arg3) : S128x64.Idx → Elt F .f32) 7⟩]
            concatenates_S1x128x64_S1x128x64_S1x128x64_S1x128x64_S1x128x64_S1x128x64_S1x128x64_S1x128x64_S8x128x64_d0)
          shapeCasts_S8x128x64_S1024x64 := by
  refine (V_split m c main_v17).trans ?_
  refine (last_v17 (pre m c)).trans ?_
  rw [pre_v0, pre_v1, pre_v2, pre_v3, pre_v4, pre_v5, pre_v6, pre_v7]
  rfl

/-- The stacked weights the region finds: row `i * 128 + h` is row `h` of the neighbour weights rotated right by `i + 1` places. -/
theorem V_v17_apply (c : Dev nD) (i : Fin 8) (h : Fin 128) (o : Fin 64) :
    V m c main_v17 (ix2 (⟨i.val * 128 + h.val, by have := i.isLt; have := h.isLt; omega⟩ : Fin 1024) o)
      = m ((c : Thread nD τ).loc main_arg3) (ix2 h (Cert.Spec.bwd (i.val + 1) o)) :=
  (congrFun (V_v17_eq m c) _).trans (stacked_apply _ i h o)

/-! ## What each buffer holds, as the operations' composed term of the argument -/

theorem V_v22_eq (c : Dev nD) :
    (V m c main_v22 : S1x128.Idx → Elt F .f32)
      = shapeCast S1x128 (m ((c : Thread nD τ).loc main_arg2) : S128.Idx → Elt F .f32) shapeCasts_S128_S1x128 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem V_v23_eq (c : Dev nD) :
    (V m c main_v23 : S1x128.Idx → Elt F .f32)
      = shapeCast S1x128 (m ((c : Thread nD τ).loc main_arg6) : S128.Idx → Elt F .f32) shapeCasts_S128_S1x128 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem V_v24_eq (c : Dev nD) :
    (V m c main_v24 : S1x16.Idx → Elt F .f32)
      = shapeCast S1x16 (m ((c : Thread nD τ).loc main_arg8) : S16.Idx → Elt F .f32) shapeCasts_S16_S1x16 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem V_v21_eq (c : Dev nD) :
    (V m c main_v21 : S1x1024.Idx → Elt F .f32)
      = shapeCast S1x1024
          (shapeCast S1024
            (broadcastInDim S8x128 ![0, 1] bcast_S1x128_S8x128_0_1
              (shapeCast S1x128 (m ((c : Thread nD τ).loc main_arg4) : S128.Idx → Elt F .f32) shapeCasts_S128_S1x128))
            shapeCasts_S8x128_S1024)
          shapeCasts_S1024_S1x1024 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The stacked bias row the region finds: entry `i * 128 + h` is entry `h` of the neighbour bias. -/
theorem V_v21_apply (c : Dev nD) (i : Fin 8) (h : Fin 128) :
    V m c main_v21 (ix2 (0 : Fin 1) (⟨i.val * 128 + h.val, by have := i.isLt; have := h.isLt; omega⟩ : Fin 1024))
      = m ((c : Thread nD τ).loc main_arg4) (ix1 h) := by
  refine (congrFun (V_v21_eq m c) _).trans ?_
  -- the row of 1024 is the vector of 1024; its place i * 128 + h is place (i, h) of the eight rows; every row is the one row
  refine (shapeCast_a_1a_apply _ _ _ _).trans ?_
  refine (shapeCast_apply _ _ _ (ix2 i h) ?_).trans ?_
  · rw [Shape.rowMajor_val_two, Shape.rowMajor_val_one]
    rfl
  refine (broadcastInDim_apply _ _ _ _ (ix2 (0 : Fin 1) h) ?_).trans ?_
  · intro a
    match a with
    | ⟨0, _⟩ => rfl
    | ⟨1, _⟩ => rfl
  exact shapeCast_a_1a_apply _ _ _ _

/-- The three other biases laid out as rows. -/
theorem V_v22_apply (c : Dev nD) (h : Fin 128) :
    V m c main_v22 (ix2 (0 : Fin 1) h) = m ((c : Thread nD τ).loc main_arg2) (ix1 h) :=
  (congrFun (V_v22_eq m c) _).trans (shapeCast_a_1a_apply _ _ _ _)
theorem V_v23_apply (c : Dev nD) (h : Fin 128) :
    V m c main_v23 (ix2 (0 : Fin 1) h) = m ((c : Thread nD τ).loc main_arg6) (ix1 h) :=
  (congrFun (V_v23_eq m c) _).trans (shapeCast_a_1a_apply _ _ _ _)
theorem V_v24_apply (c : Dev nD) (n : Fin 16) :
    V m c main_v24 (ix2 (0 : Fin 1) n) = m ((c : Thread nD τ).loc main_arg8) (ix1 n) :=
  (congrFun (V_v24_eq m c) _).trans (shapeCast_a_1a_apply _ _ _ _)

end Cert.KernelIdeal.Hand

end
-- ==== Proof.PayParts.lean ====
import proofs.«110319_j38714835206233_1_alg».proof.Proof.Gen.KernelIdeal.Skeleton

set_option synthInstance.maxSize 4096

noncomputable section

/-! The body's arithmetic before the second dense layer's bias, cut in three: the row's own path, the neighbours'
path, and the join of the two followed by the second layer's product. -/

namespace Cert.KernelIdeal.Hand

open Cert.KernelIdeal Cert.KernelIdeal.Gen
open Idealize.ShloMosaic Idealize.SL.Sem

variable {F : FTy → Type} [FloatOps F]

/-- The own path of a block of 2048 rows: the rows times the first layer's weights transposed, plus the bias row,
    rectified. -/
noncomputable def ownT (v0 : Vec F S2048x64 .f32) (v2 : Vec F S128x64 .f32) (v6 : Vec F S1x128 .f32) : FVec F S2048x128 .f32 :=
  have v1 : FVec F S2048x64 .bf16 := truncf .bf16 v0 bitsLt_bf16_f32
  have v3 : FVec F S128x64 .bf16 := truncf .bf16 v2 bitsLt_bf16_f32
  have v4 : FVec F S64x128 .bf16 := transpose S64x128 [1, 0] v3 transposes_S128x64_p1_0_S64x128
  have cst : FVec F S2048x128 .f32 := constant S2048x128 .f32 0x00000000#32
  have v5 : FVec F S2048x128 .f32 := matmul dot_S2048x64_S64x128_S2048x128_1_0_0_1_n_n none v1 v4 cst
  have v7 : FVec F S1x128 .f32 := shapeCast S1x128 v6 shapeCasts_S1x128_S1x128
  have v8 : FVec F S2048x128 .f32 := broadcastTo S2048x128 v7 broadcasts_S1x128_S2048x128
  have v9 : FVec F S2048x128 .f32 := addf v5 v8
  have cst_5 : F .f32 := Scalar.ofBits .f32 0x00000000#32
  have v10 : FVec F S2048x128 .f32 := broadcast S2048x128 cst_5
  have v11 : FVec F S2048x128 .f32 := maximumf v9 v10
  v11

/-- The neighbours' path of a block: the block seen as 256 groups of 8 rows, agents 1..7 of each group kept and laid
    out as 1792 rows, times the eight stacked rotated weight matrices transposed (1024 columns), plus the stacked bias
    row, rectified; seen as [256, 7, 8, 128], summed over the seven neighbours, times one eighth, laid out as 2048 rows. -/
noncomputable def othT (v0 : Vec F S2048x64 .f32) (v16 : Vec F S1024x64 .f32) (v21 : Vec F S1x1024 .f32) : FVec F S2048x128 .f32 :=
  have v12 : FVec F S256x8x64 .f32 := shapeCast S256x8x64 v0 shapeCasts_S2048x64_S256x8x64
  have v13 : FVec F S256x7x64 .f32 := extractStridedSlice S256x7x64 ![0, 1, 0] v12 slices_S256x8x64_o0_1_0_S256x7x64
  have v14 : FVec F S1792x64 .f32 := shapeCast S1792x64 v13 shapeCasts_S256x7x64_S1792x64
  have v15 : FVec F S1792x64 .bf16 := truncf .bf16 v14 bitsLt_bf16_f32
  have v17 : FVec F S1024x64 .f32 := shapeCast S1024x64 v16 shapeCasts_S1024x64_S1024x64
  have v18 : FVec F S1024x64 .bf16 := truncf .bf16 v17 bitsLt_bf16_f32
  have v19 : FVec F S64x1024 .bf16 := transpose S64x1024 [1, 0] v18 transposes_S1024x64_p1_0_S64x1024
  have cst_8 : FVec F S1792x1024 .f32 := constant S1792x1024 .f32 0x00000000#32
  have v20 : FVec F S1792x1024 .f32 := matmul dot_S1792x64_S64x1024_S1792x1024_1_0_0_1_n_n none v15 v19 cst_8
  have v22 : FVec F S1x1024 .f32 := shapeCast S1x1024 v21 shapeCasts_S1x1024_S1x1024
  have v23 : FVec F S1792x1024 .f32 := broadcastTo S1792x1024 v22 broadcasts_S1x1024_S1792x1024
  have v24 : FVec F S1792x1024 .f32 := addf v20 v23
  have cst_11 : F .f32 := Scalar.ofBits .f32 0x00000000#32
  have v25 : FVec F S1792x1024 .f32 := broadcast S1792x1024 cst_11
  have v26 : FVec F S1792x1024 .f32 := maximumf v24 v25
  have v27 : FVec F S256x7x8x128 .f32 := shapeCast S256x7x8x128 v26 shapeCasts_S1792x1024_S256x7x8x128
  have v28 : FVec F S256x8x128 .f32 := multiReduction .add [1] S256x8x128 v27 0x00000000#32 reduces_S256x7x8x128_S256x8x128 (.inl rfl) rfl
  have cst_13 : F .f32 := Scalar.ofBits .f32 0x3E000000#32
  have v29 : FVec F S256x8x128 .f32 := broadcast S256x8x128 cst_13
  have v30 : FVec F S256x8x128 .f32 := mulf v28 v29
  have v31 : FVec F S2048x128 .f32 := shapeCast S2048x128 v30 shapeCasts_S256x8x128_S2048x128
  v31

/-- The two paths joined along the columns, times the second layer's weights transposed. -/
noncomputable def mixT (v11 v31 : FVec F S2048x128 .f32) (v34 : Vec F S128x256 .f32) : FVec F S2048x128 .f32 :=
  have v32 : FVec F S2048x256 .f32 := concatenate S2048x256 1 [⟨S2048x128, v11⟩, ⟨S2048x128, v31⟩] concatenates_S2048x128_S2048x128_S2048x256_d1
  have v33 : FVec F S2048x256 .bf16 := truncf .bf16 v32 bitsLt_bf16_f32
  have v35 : FVec F S128x256 .bf16 := truncf .bf16 v34 bitsLt_bf16_f32
  have v36 : FVec F S256x128 .bf16 := transpose S256x128 [1, 0] v35 transposes_S128x256_p1_0_S256x128
  have cst_16 : FVec F S2048x128 .f32 := constant S2048x128 .f32 0x00000000#32
  have v37 : FVec F S2048x128 .f32 := matmul dot_S2048x256_S256x128_S2048x128_1_0_0_1_n_n none v33 v36 cst_16
  v37

/-- The printed payload is the three parts composed. -/
theorem pay2_eq (v0 : Vec F S2048x64 .f32) (v2 : Vec F S128x64 .f32) (v6 : Vec F S1x128 .f32) (v16 : Vec F S1024x64 .f32)
    (v21 : Vec F S1x1024 .f32) (v34 : Vec F S128x256 .f32) :
    k0_pay2 v0 v2 v6 v16 v21 v34 = mixT (ownT v0 v2 v6) (othT v0 v16 v21) v34 := rfl

end Cert.KernelIdeal.Hand

end
-- ==== Proof.PayOwn.lean ====
import proofs.«110319_j38714835206233_1_alg».proof.Proof.PayParts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx Idealize.SL.Sem

/-! ## The first layer's product

A `[2048, 64]` by `[64, 128]` product contracts the left operand's columns with the right operand's rows; its
operand indices at an output index and a contraction coordinate, axis by axis. -/

/-- The left operand's row is the output's row. -/
theorem ownDot_lhs_0 (i : S2048x128.Idx) (q : dot_S2048x64_S64x128_S2048x128_1_0_0_1_n_n.contr.Idx) :
    (dot_S2048x64_S64x128_S2048x128_1_0_0_1_n_n.lhsIdx i q 0).val = (i 0).val := by
  unfold DotDims.lhsIdx
  rw [dif_neg (show ¬(0 : Fin S2048x64.rank) ∈ dot_S2048x64_S64x128_S2048x128_1_0_0_1_n_n.lhsBatch by decide), dif_pos (show (0 : Fin S2048x64.rank) ∈ dot_S2048x64_S64x128_S2048x128_1_0_0_1_n_n.lhsNonContracting by decide)]
  rfl
/-- The left operand's column is the contraction coordinate. -/
theorem ownDot_lhs_1 (i : S2048x128.Idx) (q : dot_S2048x64_S64x128_S2048x128_1_0_0_1_n_n.contr.Idx) :
    (dot_S2048x64_S64x128_S2048x128_1_0_0_1_n_n.lhsIdx i q 1).val = (q ⟨0, by decide⟩).val :=
  dot_S2048x64_S64x128_S2048x128_1_0_0_1_n_n.lhsIdx_val_of_single rfl i q
/-- The right operand's row is the contraction coordinate. -/
theorem ownDot_rhs_0 (i : S2048x128.Idx) (q : dot_S2048x64_S64x128_S2048x128_1_0_0_1_n_n.contr.Idx) :
    (dot_S2048x64_S64x128_S2048x128_1_0_0_1_n_n.rhsIdx i q 0).val = (q ⟨0, by decide⟩).val :=
  dot_S2048x64_S64x128_S2048x128_1_0_0_1_n_n.rhsIdx_val_of_single rfl i q
/-- The right operand's column is the output's column. -/
theorem ownDot_rhs_1 (i : S2048x128.Idx) (q : dot_S2048x64_S64x128_S2048x128_1_0_0_1_n_n.contr.Idx) :
    (dot_S2048x64_S64x128_S2048x128_1_0_0_1_n_n.rhsIdx i q 1).val = (i 1).val := by
  unfold DotDims.rhsIdx
  rw [dif_neg (show ¬(1 : Fin S64x128.rank) ∈ dot_S2048x64_S64x128_S2048x128_1_0_0_1_n_n.rhsBatch by decide), dif_pos (show (1 : Fin S64x128.rank) ∈ dot_S2048x64_S64x128_S2048x128_1_0_0_1_n_n.rhsNonContracting by decide)]
  rfl

/-- The product into the zero accumulator read at row `p`, column `h`: the sum over the 64 contraction coordinates. -/
theorem ownDot_apply (l : FVec Ideal S2048x64 .bf16) (r : FVec Ideal S64x128 .bf16) (p : Fin 2048) (h : Fin 128) :
    matmul dot_S2048x64_S64x128_S2048x128_1_0_0_1_n_n none l r (constant S2048x128 .f32 0x00000000#32) (ix2 p h)
      = ∑ k : Fin 64, l (ix2 p k) * r (ix2 k h) := by
  simp only [matmul]
  rw [Ideal.matmul_constant_zero_apply, ← Equiv.sum_comp (contrEquiv1 dot_S2048x64_S64x128_S2048x128_1_0_0_1_n_n 64 rfl rfl).symm]
  refine Finset.sum_congr rfl fun k _ => ?_
  have hk := contrEquiv1_symm_val dot_S2048x64_S64x128_S2048x128_1_0_0_1_n_n 64 rfl rfl k
  have el : dot_S2048x64_S64x128_S2048x128_1_0_0_1_n_n.lhsIdx (ix2 p h) ((contrEquiv1 dot_S2048x64_S64x128_S2048x128_1_0_0_1_n_n 64 rfl rfl).symm k) = ix2 p k := funext fun a => Fin.ext (by
    match a with
    | ⟨0, _⟩ => exact ownDot_lhs_0 _ _
    | ⟨1, _⟩ => exact (ownDot_lhs_1 _ _).trans hk)
  have er : dot_S2048x64_S64x128_S2048x128_1_0_0_1_n_n.rhsIdx (ix2 p h) ((contrEquiv1 dot_S2048x64_S64x128_S2048x128_1_0_0_1_n_n 64 rfl rfl).symm k) = ix2 k h := funext fun a => Fin.ext (by
    match a with
    | ⟨0, _⟩ => exact (ownDot_rhs_0 _ _).trans hk
    | ⟨1, _⟩ => exact ownDot_rhs_1 _ _)
  rw [el, er]

/-- The transposed weights at row `k`, column `h` are the weights at row `h`, column `k`. -/
theorem ownW_apply (x1 : Vec Ideal S128x64 .f32) (k : Fin 64) (h : Fin 128) :
    transpose S64x128 [1, 0] (truncf .bf16 x1 bitsLt_bf16_f32 : FVec Ideal S128x64 .bf16) transposes_S128x64_p1_0_S64x128 (ix2 k h) = x1 (ix2 h k) := by
  refine (transpose_apply [1, 0] _ transposes_S128x64_p1_0_S64x128 (ix2 k h) (ix2 h k) (fun b => match b with
    | ⟨0, _⟩ => rfl
    | ⟨1, _⟩ => rfl)).trans ?_
  rfl

/-- A bias row of 128 spread down the 2048 rows reads the bias at the column. -/
theorem biasRow128_apply (x2 : Vec Ideal S1x128 .f32) (p : Fin 2048) (h : Fin 128) :
    broadcastTo S2048x128 (shapeCast S1x128 x2 shapeCasts_S1x128_S1x128) broadcasts_S1x128_S2048x128 (ix2 p h) = x2 (ix2 (0 : Fin 1) h) := by
  rw [shapeCast_self]
  exact broadcastTo_apply x2 broadcasts_S1x128_S2048x128 (ix2 p h) (ix2 (0 : Fin 1) h) (fun a => match a with
    | ⟨0, _⟩ => by show (0 : Nat) = if (1 : Nat) = 1 then 0 else p.val; rw [if_pos rfl]
    | ⟨1, _⟩ => by show h.val = if (128 : Nat) = 1 then 0 else h.val; rw [if_neg (by decide)])

/-- The own path read at row `p`, column `h` of a block: the row against row `h` of the weights, plus the bias, rectified. -/
theorem ownT_apply (x0 : Vec Ideal S2048x64 .f32) (x1 : Vec Ideal S128x64 .f32) (x2 : Vec Ideal S1x128 .f32) (p : Fin 2048) (h : Fin 128) :
    ownT (F := Ideal) x0 x1 x2 (ix2 p h)
      = max ((∑ o : Fin 64, x0 (ix2 p o) * x1 (ix2 h o)) + x2 (ix2 (0 : Fin 1) h)) 0 := by
  unfold ownT
  simp only [maximumf_apply, addf_apply, broadcast_apply]
  rw [ownDot_apply, biasRow128_apply]
  show max _ (Ideal.ofBits .f32 0x00000000#32) = _
  rw [Ideal.ofBits_zero_f32]
  refine congrArg (fun z => max (z + x2 (ix2 (0 : Fin 1) h)) 0) (Finset.sum_congr rfl fun k _ => ?_)
  rw [ownW_apply, truncf_apply]

/-! ## The join and the second layer's product

Two `[2048, 128]` blocks side by side make `[2048, 256]`; a `[2048, 256]` by `[256, 128]` product follows. -/

/-- The left operand's row is the output's row. -/
theorem mixDot_lhs_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
/-- The left operand's column is the contraction coordinate. -/
theorem mixDot_lhs_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
/-- The right operand's row is the contraction coordinate. -/
theorem mixDot_rhs_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
/-- The right operand's column is the output's column. -/
theorem mixDot_rhs_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The product into the zero accumulator read at row `p`, column `h`: the sum over the 256 contraction coordinates. -/
theorem mixDot_apply (l : FVec Ideal S2048x256 .bf16) (r : FVec Ideal S256x128 .bf16) (p : Fin 2048) (h : Fin 128) :
    matmul dot_S2048x256_S256x128_S2048x128_1_0_0_1_n_n none l r (constant S2048x128 .f32 0x00000000#32) (ix2 p h)
      = ∑ k : Fin 256, l (ix2 p k) * r (ix2 k h) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p h) ((contrEquiv1 dot_S2048x256_S256x128_S2048x128_1_0_0_1_n_n 256 rfl rfl).symm k) = ix2 p k := funext fun a => Fin.ext (by
    match a with
    | ⟨0, _⟩ => exact mixDot_lhs_0 _ _
    | ⟨1, _⟩ => exact (mixDot_lhs_1 _ _).trans hk)
  have er : dot_S2048x256_S256x128_S2048x128_1_0_0_1_n_n.rhsIdx (ix2 p h) ((contrEquiv1 dot_S2048x256_S256x128_S2048x128_1_0_0_1_n_n 256 rfl rfl).symm k) = ix2 k h := funext fun a => Fin.ext (by
    match a with
    | ⟨0, _⟩ => exact (mixDot_rhs_0 _ _).trans hk
    | ⟨1, _⟩ => exact mixDot_rhs_1 _ _)
  rw [el, er]

/-- The transposed second-layer weights at row `k`, column `h` are the weights at row `h`, column `k`. -/
theorem mixW_apply (x5 : Vec Ideal S128x256 .f32) (k : Fin 256) (h : Fin 128) :
    transpose S256x128 [1, 0] (truncf .bf16 x5 bitsLt_bf16_f32 : FVec Ideal S128x256 .bf16) transposes_S128x256_p1_0_S256x128 (ix2 k h) = x5 (ix2 h k) := by
  refine (transpose_apply [1, 0] _ transposes_S128x256_p1_0_S256x128 (ix2 k h) (ix2 h k) (fun b => match b with
    | ⟨0, _⟩ => rfl
    | ⟨1, _⟩ => rfl)).trans ?_
  rfl

/-- The joined row at column `k`: the first block's column `k` below 128, the second block's column `k - 128` from there on. -/
theorem join_apply (a b : FVec Ideal S2048x128 .f32) (p : Fin 2048) (k : Fin 256) :
    concatenate S2048x256 1 [⟨S2048x128, a⟩, ⟨S2048x128, b⟩] concatenates_S2048x128_S2048x128_S2048x256_d1 (ix2 p k)
      = if hk : k.val < 128 then a (ix2 p ⟨k.val, hk⟩) else b (ix2 p ⟨k.val - 128, by have := k.isLt; omega⟩) := by
  by_cases hk : k.val < 128
  · rw [dif_pos hk]
    exact concatenate_pair_apply_left (1 : Fin 2) a b concatenates_S2048x128_S2048x128_S2048x256_d1 (ix2 p k) rfl (ix2 p ⟨k.val, hk⟩)
      (fun c => match c with
        | ⟨0, _⟩ => rfl
        | ⟨1, _⟩ => rfl)
  · rw [dif_neg hk]
    exact concatenate_pair_apply_right (1 : Fin 2) a b concatenates_S2048x128_S2048x128_S2048x256_d1 (ix2 p k) rfl rfl
      (ix2 p ⟨k.val - 128, by have := k.isLt; omega⟩)
      (fun c hc => match c, hc with
        | ⟨0, _⟩, _ => rfl
        | ⟨1, _⟩, hc => absurd rfl hc)
      (by show (k.val - 128) + 128 = k.val; omega)

/-- The join and the second layer's product read at row `p`, column `h`: the 256 joined values of the row (the first 128
    from the own path, the rest from the neighbours') against row `h` of the weights. -/
theorem mixT_apply (a b : FVec Ideal S2048x128 .f32) (x5 : Vec Ideal S128x256 .f32) (p : Fin 2048) (h : Fin 128) :
    mixT (F := Ideal) a b x5 (ix2 p h)
      = ∑ k : Fin 256, (if hk : k.val < 128 then a (ix2 p ⟨k.val, hk⟩) else b (ix2 p ⟨k.val - 128, by have := k.isLt; omega⟩)) * x5 (ix2 h k) := by
  unfold mixT
  rw [mixDot_apply]
  refine Finset.sum_congr rfl fun k _ => ?_
  rw [mixW_apply, truncf_apply, join_apply]

/-! ## The output layer

The second layer's bias and rectifier at an element, then a `[2048, 128]` by `[128, 16]` product and the output bias. -/

/-- The left operand's row is the output's row. -/
theorem outDot_lhs_0 (i : S2048x16.Idx) (q : dot_S2048x128_S128x16_S2048x16_1_0_0_1_n_n.contr.Idx) :
    (dot_S2048x128_S128x16_S2048x16_1_0_0_1_n_n.lhsIdx i q 0).val = (i 0).val := by
  unfold DotDims.lhsIdx
  rw [dif_neg (show ¬(0 : Fin S2048x128.rank) ∈ dot_S2048x128_S128x16_S2048x16_1_0_0_1_n_n.lhsBatch by decide), dif_pos (show (0 : Fin S2048x128.rank) ∈ dot_S2048x128_S128x16_S2048x16_1_0_0_1_n_n.lhsNonContracting by decide)]
  rfl
/-- The left operand's column is the contraction coordinate. -/
theorem outDot_lhs_1 (i : S2048x16.Idx) (q : dot_S2048x128_S128x16_S2048x16_1_0_0_1_n_n.contr.Idx) :
    (dot_S2048x128_S128x16_S2048x16_1_0_0_1_n_n.lhsIdx i q 1).val = (q ⟨0, by decide⟩).val :=
  dot_S2048x128_S128x16_S2048x16_1_0_0_1_n_n.lhsIdx_val_of_single rfl i q
/-- The right operand's row is the contraction coordinate. -/
theorem outDot_rhs_0 (i : S2048x16.Idx) (q : dot_S2048x128_S128x16_S2048x16_1_0_0_1_n_n.contr.Idx) :
    (dot_S2048x128_S128x16_S2048x16_1_0_0_1_n_n.rhsIdx i q 0).val = (q ⟨0, by decide⟩).val :=
  dot_S2048x128_S128x16_S2048x16_1_0_0_1_n_n.rhsIdx_val_of_single rfl i q
/-- The right operand's column is the output's column. -/
theorem outDot_rhs_1 (i : S2048x16.Idx) (q : dot_S2048x128_S128x16_S2048x16_1_0_0_1_n_n.contr.Idx) :
    (dot_S2048x128_S128x16_S2048x16_1_0_0_1_n_n.rhsIdx i q 1).val = (i 1).val := by
  unfold DotDims.rhsIdx
  rw [dif_neg (show ¬(1 : Fin S128x16.rank) ∈ dot_S2048x128_S128x16_S2048x16_1_0_0_1_n_n.rhsBatch by decide), dif_pos (show (1 : Fin S128x16.rank) ∈ dot_S2048x128_S128x16_S2048x16_1_0_0_1_n_n.rhsNonContracting by decide)]
  rfl

/-- The product into the zero accumulator read at row `p`, column `h`: the sum over the 128 contraction coordinates. -/
theorem outDot_apply (l : FVec Ideal S2048x128 .bf16) (r : FVec Ideal S128x16 .bf16) (p : Fin 2048) (h : Fin 16) :
    matmul dot_S2048x128_S128x16_S2048x16_1_0_0_1_n_n none l r (constant S2048x16 .f32 0x00000000#32) (ix2 p h)
      = ∑ k : Fin 128, l (ix2 p k) * r (ix2 k h) := by
  simp only [matmul]
  rw [Ideal.matmul_constant_zero_apply, ← Equiv.sum_comp (contrEquiv1 dot_S2048x128_S128x16_S2048x16_1_0_0_1_n_n 128 rfl rfl).symm]
  refine Finset.sum_congr rfl fun k _ => ?_
  have hk := contrEquiv1_symm_val dot_S2048x128_S128x16_S2048x16_1_0_0_1_n_n 128 rfl rfl k
  have el : dot_S2048x128_S128x16_S2048x16_1_0_0_1_n_n.lhsIdx (ix2 p h) ((contrEquiv1 dot_S2048x128_S128x16_S2048x16_1_0_0_1_n_n 128 rfl rfl).symm k) = ix2 p k := funext fun a => Fin.ext (by
    match a with
    | ⟨0, _⟩ => exact outDot_lhs_0 _ _
    | ⟨1, _⟩ => exact (outDot_lhs_1 _ _).trans hk)
  have er : dot_S2048x128_S128x16_S2048x16_1_0_0_1_n_n.rhsIdx (ix2 p h) ((contrEquiv1 dot_S2048x128_S128x16_S2048x16_1_0_0_1_n_n 128 rfl rfl).symm k) = ix2 k h := funext fun a => Fin.ext (by
    match a with
    | ⟨0, _⟩ => exact (outDot_rhs_0 _ _).trans hk
    | ⟨1, _⟩ => exact outDot_rhs_1 _ _)
  rw [el, er]

/-- The transposed output weights at row `k`, column `n` are the weights at row `n`, column `k`. -/
theorem outW_apply (x7 : Vec Ideal S16x128 .f32) (k : Fin 128) (n : Fin 16) :
    transpose S128x16 [1, 0] (truncf .bf16 x7 bitsLt_bf16_f32 : FVec Ideal S16x128 .bf16) transposes_S16x128_p1_0_S128x16 (ix2 k n) = x7 (ix2 n k) := by
  refine (transpose_apply [1, 0] _ transposes_S16x128_p1_0_S128x16 (ix2 k n) (ix2 n k) (fun b => match b with
    | ⟨0, _⟩ => rfl
    | ⟨1, _⟩ => rfl)).trans ?_
  rfl

/-- A bias row of 16 spread down the 2048 rows reads the bias at the column. -/
theorem biasRow16_apply (x8 : Vec Ideal S1x16 .f32) (p : Fin 2048) (n : Fin 16) :
    broadcastTo S2048x16 (shapeCast S1x16 x8 shapeCasts_S1x16_S1x16) broadcasts_S1x16_S2048x16 (ix2 p n) = x8 (ix2 (0 : Fin 1) n) := by
  rw [shapeCast_self]
  exact broadcastTo_apply x8 broadcasts_S1x16_S2048x16 (ix2 p n) (ix2 (0 : Fin 1) n) (fun a => match a with
    | ⟨0, _⟩ => by show (0 : Nat) = if (1 : Nat) = 1 then 0 else p.val; rw [if_pos rfl]
    | ⟨1, _⟩ => by show n.val = if (16 : Nat) = 1 then 0 else n.val; rw [if_neg (by decide)])

/-- The stored value read at row `p`, column `n`: the second layer's bias and rectifier, then the output layer. -/
theorem pay1_apply (v37 : FVec Ideal S2048x128 .f32) (x6 : Vec Ideal S1x128 .f32) (x7 : Vec Ideal S16x128 .f32) (x8 : Vec Ideal S1x16 .f32)
    (p : Fin 2048) (n : Fin 16) :
    k0_pay1 (F := Ideal) v37 x6 x7 x8 (ix2 p n)
      = (∑ h : Fin 128, max (v37 (ix2 p h) + x6 (ix2 (0 : Fin 1) h)) 0 * x7 (ix2 n h)) + x8 (ix2 (0 : Fin 1) n) := by
  unfold k0_pay1
  simp only [addf_apply]
  rw [outDot_apply, biasRow16_apply]
  refine congrArg (fun z => z + x8 (ix2 (0 : Fin 1) n)) (Finset.sum_congr rfl fun k _ => ?_)
  rw [outW_apply, truncf_apply, maximumf_apply, addf_apply, broadcast_apply, biasRow128_apply]
  show max _ (Ideal.ofBits .f32 0x00000000#32) * _ = _
  rw [Ideal.ofBits_zero_f32]

end Cert.KernelIdeal.Hand

end
-- ==== Proof.PayOth.lean ====
import proofs.«110319_j38714835206233_1_alg».proof.Proof.PayParts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx Idealize.SL.Sem

/-- The neighbours' rows: the block seen as 256 groups of 8 rows, agents 1..7 kept, laid out as 1792 rows. -/
def nbRows (x0 : Vec Ideal S2048x64 .f32) : FVec Ideal S1792x64 .bf16 :=
  truncf .bf16 (shapeCast S1792x64 (extractStridedSlice S256x7x64 ![0, 1, 0] (shapeCast S256x8x64 x0 shapeCasts_S2048x64_S256x8x64)
    slices_S256x8x64_o0_1_0_S256x7x64) shapeCasts_S256x7x64_S1792x64) bitsLt_bf16_f32

/-- Row `g * 8 + a` of the block is agent `a` of group `g`. -/
theorem groups_apply (x0 : Vec Ideal S2048x64 .f32) (g : Fin 256) (a : Fin 8) (o : Fin 64) :
    shapeCast S256x8x64 x0 shapeCasts_S2048x64_S256x8x64 (ix3 g a o)
      = x0 (ix2 (⟨g.val * 8 + a.val, by have := g.isLt; have := a.isLt; omega⟩ : Fin 2048) o) :=
  shapeCast_apply x0 shapeCasts_S2048x64_S256x8x64 (ix3 g a o) _ (by
    rw [Shape.rowMajor_val_two, Shape.rowMajor_val_three]
    show (g.val * 8 + a.val) * 64 + o.val = (g.val * 8 + a.val) * 64 + o.val
    rfl)

/-- Dropping agent 0: neighbour `j` of a group is its agent `j + 1`. -/
theorem drop0_apply (y : FVec Ideal S256x8x64 .f32) (g : Fin 256) (j : Fin 7) (o : Fin 64) :
    extractStridedSlice S256x7x64 ![0, 1, 0] y slices_S256x8x64_o0_1_0_S256x7x64 (ix3 g j o)
      = y (ix3 g (⟨j.val + 1, by have := j.isLt; omega⟩ : Fin 8) o) :=
  extractStridedSlice_apply ![0, 1, 0] y slices_S256x8x64_o0_1_0_S256x7x64 (ix3 g j o) _ (fun a => match a with
    | ⟨0, _⟩ => by show g.val = 0 + g.val; omega
    | ⟨1, _⟩ => by show j.val + 1 = 1 + j.val; omega
    | ⟨2, _⟩ => by show o.val = 0 + o.val; omega)

/-- Row `r` of the 1792 neighbour rows is neighbour `r % 7` of group `r / 7`. -/
theorem flat7_apply (y : FVec Ideal S256x7x64 .f32) (r : Fin 1792) (o : Fin 64) :
    shapeCast S1792x64 y shapeCasts_S256x7x64_S1792x64 (ix2 r o)
      = y (ix3 (⟨r.val / 7, by have := r.isLt; omega⟩ : Fin 256) (⟨r.val % 7, Nat.mod_lt _ (by norm_num)⟩ : Fin 7) o) :=
  shapeCast_apply y shapeCasts_S256x7x64_S1792x64 (ix2 r o) _ (by
    rw [Shape.rowMajor_val_two, Shape.rowMajor_val_three]
    show (r.val / 7 * 7 + r.val % 7) * 64 + o.val = r.val * 64 + o.val
    have := r.isLt; omega)

/-- The neighbours' rows read at an index. -/
theorem nbRows_apply (x0 : Vec Ideal S2048x64 .f32) (r : Fin 1792) (o : Fin 64) :
    nbRows x0 (ix2 r o)
      = x0 (ix2 (⟨r.val / 7 * 8 + (r.val % 7 + 1), by have := r.isLt; omega⟩ : Fin 2048) o) := by
  unfold nbRows
  rw [truncf_apply, flat7_apply, drop0_apply, groups_apply]

/-- The stacked weights transposed: 64 rows, 1024 columns. -/
def wCols (x3 : Vec Ideal S1024x64 .f32) : FVec Ideal S64x1024 .bf16 :=
  transpose S64x1024 [1, 0] (truncf .bf16 (shapeCast S1024x64 x3 shapeCasts_S1024x64_S1024x64) bitsLt_bf16_f32)
    transposes_S1024x64_p1_0_S64x1024

/-- A cast to the same shape reads the same entry. -/
theorem same_apply (x3 : Vec Ideal S1024x64 .f32) (c : Fin 1024) (o : Fin 64) :
    shapeCast S1024x64 x3 shapeCasts_S1024x64_S1024x64 (ix2 c o) = x3 (ix2 c o) :=
  shapeCast_apply x3 shapeCasts_S1024x64_S1024x64 (ix2 c o) (ix2 c o) rfl

/-- The transposed weights read at an index. -/
theorem wCols_apply (x3 : Vec Ideal S1024x64 .f32) (o : Fin 64) (c : Fin 1024) :
    wCols x3 (ix2 o c) = x3 (ix2 c o) := by
  unfold wCols
  refine (transpose_apply [1, 0] _ transposes_S1024x64_p1_0_S64x1024 (ix2 o c) (ix2 c o) (fun b => match b with
    | ⟨0, _⟩ => rfl
    | ⟨1, _⟩ => rfl)).trans ?_
  rw [truncf_apply, same_apply]

theorem lhs_nb_0 (i : S1792x1024.Idx) (q : dot_S1792x64_S64x1024_S1792x1024_1_0_0_1_n_n.contr.Idx) :
    (dot_S1792x64_S64x1024_S1792x1024_1_0_0_1_n_n.lhsIdx i q 0).val = (i 0).val := by
  unfold DotDims.lhsIdx
  rw [dif_neg (show ¬(0 : Fin S1792x64.rank) ∈ dot_S1792x64_S64x1024_S1792x1024_1_0_0_1_n_n.lhsBatch by decide), dif_pos (show (0 : Fin S1792x64.rank) ∈ dot_S1792x64_S64x1024_S1792x1024_1_0_0_1_n_n.lhsNonContracting by decide)]
  rfl
theorem lhs_nb_1 (i : S1792x1024.Idx) (q : dot_S1792x64_S64x1024_S1792x1024_1_0_0_1_n_n.contr.Idx) :
    (dot_S1792x64_S64x1024_S1792x1024_1_0_0_1_n_n.lhsIdx i q 1).val = (q ⟨0, by decide⟩).val :=
  dot_S1792x64_S64x1024_S1792x1024_1_0_0_1_n_n.lhsIdx_val_of_single rfl i q
theorem rhs_nb_0 (i : S1792x1024.Idx) (q : dot_S1792x64_S64x1024_S1792x1024_1_0_0_1_n_n.contr.Idx) :
    (dot_S1792x64_S64x1024_S1792x1024_1_0_0_1_n_n.rhsIdx i q 0).val = (q ⟨0, by decide⟩).val :=
  dot_S1792x64_S64x1024_S1792x1024_1_0_0_1_n_n.rhsIdx_val_of_single rfl i q
theorem rhs_nb_1 (i : S1792x1024.Idx) (q : dot_S1792x64_S64x1024_S1792x1024_1_0_0_1_n_n.contr.Idx) :
    (dot_S1792x64_S64x1024_S1792x1024_1_0_0_1_n_n.rhsIdx i q 1).val = (i 1).val := by
  unfold DotDims.rhsIdx
  rw [dif_neg (show ¬(1 : Fin S64x1024.rank) ∈ dot_S1792x64_S64x1024_S1792x1024_1_0_0_1_n_n.rhsBatch by decide), dif_pos (show (1 : Fin S64x1024.rank) ∈ dot_S1792x64_S64x1024_S1792x1024_1_0_0_1_n_n.rhsNonContracting by decide)]
  rfl

/-- The product into the zero accumulator read at an index: the sum over the 64 features of row times column. -/
theorem nbProd_apply (l : FVec Ideal S1792x64 .bf16) (w : FVec Ideal S64x1024 .bf16) (r : Fin 1792) (c : Fin 1024) :
    matmul dot_S1792x64_S64x1024_S1792x1024_1_0_0_1_n_n none l w (constant (F := Ideal) S1792x1024 .f32 0x00000000#32) (ix2 r c)
      = ∑ o : Fin 64, l (ix2 r o) * w (ix2 o c) := by
  simp only [matmul]
  rw [Ideal.matmul_constant_zero_apply, ← Equiv.sum_comp (ValueIdx.contrEquiv1 dot_S1792x64_S64x1024_S1792x1024_1_0_0_1_n_n 64 rfl rfl).symm]
  refine Finset.sum_congr rfl fun k _ => ?_
  have hk := ValueIdx.contrEquiv1_symm_val dot_S1792x64_S64x1024_S1792x1024_1_0_0_1_n_n 64 rfl rfl k
  have el : dot_S1792x64_S64x1024_S1792x1024_1_0_0_1_n_n.lhsIdx (ix2 r c) ((ValueIdx.contrEquiv1 dot_S1792x64_S64x1024_S1792x1024_1_0_0_1_n_n 64 rfl rfl).symm k) = ix2 r k := funext fun a => Fin.ext (by
    match a with
    | ⟨0, _⟩ => exact lhs_nb_0 _ _
    | ⟨1, _⟩ => exact (lhs_nb_1 _ _).trans hk)
  have er : dot_S1792x64_S64x1024_S1792x1024_1_0_0_1_n_n.rhsIdx (ix2 r c) ((ValueIdx.contrEquiv1 dot_S1792x64_S64x1024_S1792x1024_1_0_0_1_n_n 64 rfl rfl).symm k) = ix2 k c := funext fun a => Fin.ext (by
    match a with
    | ⟨0, _⟩ => exact (rhs_nb_0 _ _).trans hk
    | ⟨1, _⟩ => exact rhs_nb_1 _ _)
  rw [el, er]

/-- The stacked bias row read at a column. -/
theorem biasRow_apply (x4 : Vec Ideal S1x1024 .f32) (r : Fin 1792) (c : Fin 1024) :
    broadcastTo S1792x1024 (shapeCast S1x1024 x4 shapeCasts_S1x1024_S1x1024) broadcasts_S1x1024_S1792x1024 (ix2 r c)
      = x4 (ix2 (0 : Fin 1) c) := by
  rw [broadcastTo_1b_ab_apply]
  exact shapeCast_apply x4 shapeCasts_S1x1024_S1x1024 (ix2 (0 : Fin 1) c) (ix2 (0 : Fin 1) c) rfl

/-- Every neighbour row through every one of the eight stacked layers: product, bias, rectifier. -/
def nbAct (x0 : Vec Ideal S2048x64 .f32) (x3 : Vec Ideal S1024x64 .f32) (x4 : Vec Ideal S1x1024 .f32) : FVec Ideal S1792x1024 .f32 :=
  maximumf (addf (matmul dot_S1792x64_S64x1024_S1792x1024_1_0_0_1_n_n none (nbRows x0) (wCols x3) (constant (F := Ideal) S1792x1024 .f32 0x00000000#32))
      (broadcastTo S1792x1024 (shapeCast S1x1024 x4 shapeCasts_S1x1024_S1x1024) broadcasts_S1x1024_S1792x1024))
    (broadcast S1792x1024 (Scalar.ofBits (F := Ideal) .f32 0x00000000#32))

/-- The zero scalar is the extended real 0. -/
theorem zeroScalar : (Scalar.ofBits (F := Ideal) .f32 0x00000000#32 : Ideal .f32) = (0 : EReal) :=
  Ideal.ofBits_zero_f32

theorem nbAct_apply (x0 : Vec Ideal S2048x64 .f32) (x3 : Vec Ideal S1024x64 .f32) (x4 : Vec Ideal S1x1024 .f32) (r : Fin 1792) (c : Fin 1024) :
    nbAct x0 x3 x4 (ix2 r c)
      = max ((∑ o : Fin 64, x0 (ix2 (⟨r.val / 7 * 8 + (r.val % 7 + 1), by have := r.isLt; omega⟩ : Fin 2048) o) * x3 (ix2 c o))
          + x4 (ix2 (0 : Fin 1) c)) 0 := by
  unfold nbAct
  rw [maximumf_apply, addf_apply, broadcast_apply, zeroScalar, nbProd_apply, biasRow_apply]
  simp only [nbRows_apply, wCols_apply]

/-- Entry (g, j, a, h) of the four-axis view is row g * 7 + j, column a * 128 + h. -/
theorem view4_apply (y : FVec Ideal S1792x1024 .f32) (g : Fin 256) (j : Fin 7) (a : Fin 8) (h : Fin 128) :
    shapeCast S256x7x8x128 y shapeCasts_S1792x1024_S256x7x8x128 (ix4 g j a h)
      = y (ix2 (⟨g.val * 7 + j.val, by have := g.isLt; have := j.isLt; omega⟩ : Fin 1792)
              (⟨a.val * 128 + h.val, by have := a.isLt; have := h.isLt; omega⟩ : Fin 1024)) :=
  shapeCast_apply y shapeCasts_S1792x1024_S256x7x8x128 (ix4 g j a h) _ (by
    rw [Shape.rowMajor_val_two, Shape.rowMajor_val_four]
    show (g.val * 7 + j.val) * 1024 + (a.val * 128 + h.val) = ((g.val * 7 + j.val) * 8 + a.val) * 128 + h.val
    omega)

/-- The sum over the neighbour axis read at (g, a, h): the seven entries (g, j, a, h). -/
theorem sum7_apply (y : FVec Ideal S256x7x8x128 .f32) (hφ : FKind.Formats .f32)
    (hacc : (0x00000000#32 : BitVec (FTy.bits .f32)) = FKind.add.neutral .f32 hφ) (g : Fin 256) (a : Fin 8) (h : Fin 128) :
    multiReduction (F := Ideal) .add [1] S256x8x128 y 0x00000000#32 reduces_S256x7x8x128_S256x8x128 hφ hacc (ix3 g a h)
      = ∑ j : Fin 7, y (ix4 g j a h) := by
  refine (Ideal.multiReduction_add_single y 0x00000000#32 reduces_S256x7x8x128_S256x8x128 hφ hacc (ix3 g a h)).trans ?_
  refine Finset.sum_congr rfl fun j _ => congrArg y (funext fun b => Fin.ext ?_)
  match b with
  | ⟨0, _⟩ => rfl
  | ⟨1, _⟩ => rfl
  | ⟨2, _⟩ => rfl
  | ⟨3, _⟩ => rfl

/-- The scale factor's word is one eighth. -/
theorem eighth : Ideal.ofBits .f32 0x3E000000#32 = ((1 / 8 : ℝ) : EReal) := by
  simp [Ideal.ofBits, Ideal.ieee]
  rw [← EReal.coe_mul]
  congr 1
  norm_num

/-- Row p of the block's result is (p / 8, p % 8) of the grouped one. -/
theorem rows_apply (y : FVec Ideal S256x8x128 .f32) (p : Fin 2048) (h : Fin 128) :
    shapeCast S2048x128 y shapeCasts_S256x8x128_S2048x128 (ix2 p h)
      = y (ix3 (⟨p.val / 8, by have := p.isLt; omega⟩ : Fin 256) (⟨p.val % 8, Nat.mod_lt _ (by norm_num)⟩ : Fin 8) h) :=
  shapeCast_apply y shapeCasts_S256x8x128_S2048x128 (ix2 p h) _ (by
    rw [Shape.rowMajor_val_two, Shape.rowMajor_val_three]
    show (p.val / 8 * 8 + p.val % 8) * 128 + h.val = p.val * 128 + h.val
    have := p.isLt; omega)

/-- A neighbour row's place in the block is inside the block. -/
theorem nbRow_lt (r : Fin 1792) : r.val / 7 * 8 + (r.val % 7 + 1) < 2048 := by have := r.isLt; omega

/-- The same entry with the row and the column named by the caller. -/
theorem nbAct_at (x0 : Vec Ideal S2048x64 .f32) (x3 : Vec Ideal S1024x64 .f32) (x4 : Vec Ideal S1x1024 .f32) (r : Fin 1792) (c : Fin 1024)
    (q : Fin 2048) (d : Fin 1024) (hq : q.val = r.val / 7 * 8 + (r.val % 7 + 1)) (hd : d = c) :
    nbAct x0 x3 x4 (ix2 r c) = max ((∑ o : Fin 64, x0 (ix2 q o) * x3 (ix2 d o)) + x4 (ix2 (0 : Fin 1) d)) 0 := by
  obtain rfl : q = ⟨r.val / 7 * 8 + (r.val % 7 + 1), nbRow_lt r⟩ := Fin.ext hq
  subst hd
  exact nbAct_apply x0 x3 x4 r d

/-- The neighbours' path is the rectified products seen on four axes, summed over the seven neighbours, times the
    scale factor, laid out as rows. -/
theorem othT_eq (x0 : Vec Ideal S2048x64 .f32) (x3 : Vec Ideal S1024x64 .f32) (x4 : Vec Ideal S1x1024 .f32) :
    othT (F := Ideal) x0 x3 x4
      = shapeCast S2048x128 (mulf (multiReduction (F := Ideal) .add [1] S256x8x128
            (shapeCast S256x7x8x128 (nbAct x0 x3 x4) shapeCasts_S1792x1024_S256x7x8x128) 0x00000000#32
            reduces_S256x7x8x128_S256x8x128 (.inl rfl) rfl)
          (broadcast S256x8x128 (Scalar.ofBits (F := Ideal) .f32 0x3E000000#32))) shapeCasts_S256x8x128_S2048x128 := rfl

/-- The neighbours' path read at row `p`, column `h` of a block: row `p` is agent `p % 8` of group `p / 8`; the seven
    neighbours are rows `p / 8 * 8 + 1 … + 7`; each goes against row `(p % 8) * 128 + h` of the stacked weights, plus that
    entry of the stacked bias, rectified; the seven are summed and the sum is taken times one eighth. -/
theorem othT_apply (x0 : Vec Ideal S2048x64 .f32) (x3 : Vec Ideal S1024x64 .f32) (x4 : Vec Ideal S1x1024 .f32) (p : Fin 2048) (h : Fin 128) :
    othT (F := Ideal) x0 x3 x4 (ix2 p h)
      = (∑ j : Fin 7, max ((∑ o : Fin 64, x0 (ix2 (⟨p.val / 8 * 8 + (j.val + 1), by have := p.isLt; have := j.isLt; omega⟩ : Fin 2048) o)
            * x3 (ix2 (⟨p.val % 8 * 128 + h.val, by have := h.isLt; omega⟩ : Fin 1024) o))
          + x4 (ix2 (0 : Fin 1) (⟨p.val % 8 * 128 + h.val, by have := h.isLt; omega⟩ : Fin 1024))) 0) * ((1 / 8 : ℝ) : EReal) := by
  rw [othT_eq]
  refine (rows_apply _ p h).trans ?_
  rw [mulf_apply, broadcast_apply]
  refine congrArg₂ (· * ·) ((sum7_apply _ (.inl rfl) rfl _ _ h).trans (Finset.sum_congr rfl fun j _ => ?_)) eighth
  refine (view4_apply _ _ j _ h).trans ?_
  exact nbAct_at x0 x3 x4 _ _ _ _
    (by show p.val / 8 * 8 + (j.val + 1) = (p.val / 8 * 7 + j.val) / 7 * 8 + ((p.val / 8 * 7 + j.val) % 7 + 1)
        have := j.isLt; omega) rfl

end Cert.KernelIdeal.Hand

end
-- ==== Proof.PayAll.lean ====
import proofs.«110319_j38714835206233_1_alg».proof.Proof.PayParts
import proofs.«110319_j38714835206233_1_alg».proof.Proof.PayOwn
import proofs.«110319_j38714835206233_1_alg».proof.Proof.PayOth
import proofs.«110319_j38714835206233_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx Idealize.SL.Sem

open Cert.Spec

/-- Row `p` of the block the grid point `t` works on is row `t * 2048 + p` of the input. -/
def row (t : Fin 64) (p : Fin 2048) : Fin 131072 := ⟨t.val * 2048 + p.val, by have := t.isLt; have := p.isLt; omega⟩

theorem row_nbr (t : Fin 64) (p : Fin 2048) (j : Fin 7) :
    row t (⟨p.val / 8 * 8 + (j.val + 1), by have := p.isLt; have := j.isLt; omega⟩ : Fin 2048) = nbr (row t p) j := by
  apply Fin.ext
  have := t.isLt; have := p.isLt; have := j.isLt
  simp only [row, nbr]
  omega

theorem row_mod (t : Fin 64) (p : Fin 2048) : (row t p).val % 8 = p.val % 8 := by
  have := t.isLt; have := p.isLt
  simp only [row]
  omega

/-- THE BODY'S STORED VALUE at row `p`, column `n` of the block of grid point `t` is the network's output at row
    `t * 2048 + p`: given that the input block is rows `t * 2048 …` of the input, the weight and bias blocks are the
    arrays, the stacked weights' row `i * 128 + h` is row `h` of the neighbour weights rotated right by `i + 1` places and the
    stacked bias repeats the neighbour bias. Rotating the weights right by `s` places against the plain features is rotating
    the features left by `s` against the plain weights: the same 64 products summed in another order. -/
theorem pay_apply
    (X : A2 131072 64) (W1 : A2 128 64) (b1 : A1 128) (W1o : A2 128 64) (b1o : A1 128) (W2 : A2 128 256) (b2 : A1 128)
    (Wv : A2 16 128) (bv : A1 16)
    (x0 : Vec Ideal S2048x64 .f32) (x1 : Vec Ideal S128x64 .f32) (x2 : Vec Ideal S1x128 .f32) (x3 : Vec Ideal S1024x64 .f32)
    (x4 : Vec Ideal S1x1024 .f32) (x5 : Vec Ideal S128x256 .f32) (x6 : Vec Ideal S1x128 .f32) (x7 : Vec Ideal S16x128 .f32)
    (x8 : Vec Ideal S1x16 .f32) (t : Fin 64)
    (h0 : ∀ (p : Fin 2048) (o : Fin 64), x0 (ix2 p o) = X (ix2 (row t p) o))
    (h1 : ∀ (h : Fin 128) (o : Fin 64), x1 (ix2 h o) = W1 (ix2 h o))
    (h2 : ∀ h : Fin 128, x2 (ix2 (0 : Fin 1) h) = b1 (ix1 h))
    (h3 : ∀ (i : Fin 8) (h : Fin 128) (o : Fin 64),
      x3 (ix2 (⟨i.val * 128 + h.val, by have := i.isLt; have := h.isLt; omega⟩ : Fin 1024) o) = W1o (ix2 h (bwd (i.val + 1) o)))
    (h4 : ∀ (i : Fin 8) (h : Fin 128),
      x4 (ix2 (0 : Fin 1) (⟨i.val * 128 + h.val, by have := i.isLt; have := h.isLt; omega⟩ : Fin 1024)) = b1o (ix1 h))
    (h5 : ∀ (h : Fin 128) (k : Fin 256), x5 (ix2 h k) = W2 (ix2 h k))
    (h6 : ∀ h : Fin 128, x6 (ix2 (0 : Fin 1) h) = b2 (ix1 h))
    (h7 : ∀ (n : Fin 16) (h : Fin 128), x7 (ix2 n h) = Wv (ix2 n h))
    (h8 : ∀ n : Fin 16, x8 (ix2 (0 : Fin 1) n) = bv (ix1 n))
    (p : Fin 2048) (n : Fin 16) :
    k0_pay1 (F := Ideal) (k0_pay2 (F := Ideal) x0 x1 x2 x3 x4 x5) x6 x7 x8 (ix2 p n)
      = outv X W1 b1 W1o b1o W2 b2 Wv bv (row t p) n := by
  rw [pay2_eq, pay1_apply, h8 n]
  unfold outv
  refine congrArg (· + bv (ix1 n)) (Finset.sum_congr rfl fun h _ => ?_)
  rw [h7 n h, h6 h, mixT_apply]
  unfold hid
  refine congrArg (fun z => max (z + b2 (ix1 h)) 0 * Wv (ix2 n h)) (Finset.sum_congr rfl fun k _ => ?_)
  rw [h5 h k]
  refine congrArg (· * W2 (ix2 h k)) ?_
  unfold cat
  by_cases hk : k.val < 128
  · rw [dif_pos hk, dif_pos hk, ownT_apply]
    unfold own
    rw [h2]
    exact congrArg (fun z => max (z + b1 (ix1 ⟨k.val, hk⟩)) 0) (Finset.sum_congr rfl fun o _ => by rw [h0, h1])
  · rw [dif_neg hk, dif_neg hk, othT_apply]
    unfold oth
    refine congrArg (· * ((1 / 8 : ℝ) : EReal)) (Finset.sum_congr rfl fun j _ => ?_)
    unfold nbrTerm
    have hp8 : p.val % 8 < 8 := Nat.mod_lt _ (by norm_num)
    rw [h4 ⟨p.val % 8, hp8⟩]
    refine congrArg (fun z => max (z + b1o (ix1 _)) 0) ?_
    have hs : p.val % 8 + 1 ≤ 64 := by omega
    rw [row_mod t p]
    refine Eq.trans ?_ (sum_rot hs (fun o => X (ix2 (nbr (row t p) j) o)) (fun o => W1o (ix2 _ o)))
    refine Finset.sum_congr rfl fun o _ => ?_
    rw [h0, row_nbr]
    exact congrArg (X (ix2 (nbr (row t p) j) o) * ·) (h3 ⟨p.val % 8, hp8⟩ _ o)

end Cert.KernelIdeal.Hand

end
-- ==== Proof.KernelValue.lean ====
import proofs.«110319_j38714835206233_1_alg».proof.Proof.FrameI
import proofs.«110319_j38714835206233_1_alg».proof.Proof.HostVals
import proofs.«110319_j38714835206233_1_alg».proof.Proof.PayAll
import proofs.«110319_j38714835206233_1_alg».proof.Proof.Spec
import Idealize.ShloMosaic.Lib.Pipeline.Value
import Idealize.ShloMosaic.Lib.ValueIdx

set_option maxRecDepth 16384

noncomputable section

/-! # The kernel's result array, entry by entry

Grid point `t` works on rows `2048 t … 2048 t + 2047`: its input block is those rows of the input, the other eight
blocks are whole arrays (the weights and biases as launched, the stacked rotated weights and the row-shaped biases as the
host operations left them), and the block it writes back is those rows of the result. The 64 blocks tile the result, so the
result array ends holding the network's function of the nine arguments. -/

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

variable (m : (ℓ : Loc nD τ sig) → Buf (Elt Ideal) ℓ) (ρ : Dev nD → PrngReg)

/-- The network's function of the nine arguments as launched on core `c`. -/
abbrev GK (c : Dev nD) : Buf (Elt Ideal) ((c : Thread nD τ).loc main_v25) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem hz : (![0, 0] : Fin 2 → Nat) = fun _ => 0 := funext fun a => by fin_cases a <;> rfl

/-- The printed index maps over the grid: the input's and the result's blocks move down with the point, every other
    block stays at the origin. -/
theorem idx_facts : ∀ t : Fin cfg0.N,
    (win0_0.index t (0 : Fin 2) = t.val ∧ win0_0.index t (1 : Fin 2) = 0)
    ∧ (win0_9.index t (0 : Fin 2) = t.val ∧ win0_9.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- A grid point as a number below 64. -/
def pt (t : Fin cfg0.N) : Fin 64 := ⟨t.val, lt_of_lt_of_eq t.isLt N_0⟩

/-! ## The nine input blocks at a point -/

theorem iblk0_apply (c : Dev nD) (t : Fin cfg0.N) (p : Fin 2048) (o : Fin 64) :
    (iblk m c 0 t : Vec Ideal S2048x64 .f32) (ix2 p o) = m ((c : Thread nD τ).loc main_arg0) (ix2 (row (pt t) p) o) := by
  obtain ⟨⟨e0, e1⟩, -⟩ := idx_facts t
  unfold iblk
  rw [View.read_apply]
  show V m c main_arg0 _ = _
  rw [V_main_arg0]
  congr 1
  funext a
  apply Fin.ext
  match a with
  | ⟨0, _⟩ => show win0_0.index t 0 * 2048 + 1 * p.val = t.val * 2048 + p.val; rw [e0]; omega
  | ⟨1, _⟩ => show win0_0.index t 1 * 64 + 1 * o.val = o.val; rw [e1]; omega

theorem iblk1_apply (c : Dev nD) (t : Fin cfg0.N) (h : Fin 128) (o : Fin 64) :
    (iblk m c 1 t : Vec Ideal S128x64 .f32) (ix2 h o) = m ((c : Thread nD τ).loc main_arg1) (ix2 h o) := by
  obtain ⟨-, -, ⟨e0, e1⟩, -⟩ := idx_facts t
  unfold iblk
  rw [View.read_apply]
  show V m c main_arg1 _ = _
  rw [V_main_arg1]
  congr 1
  funext a
  apply Fin.ext
  match a with
  | ⟨0, _⟩ => show win0_1.index t 0 * 128 + 1 * h.val = h.val; rw [e0]; omega
  | ⟨1, _⟩ => show win0_1.index t 1 * 64 + 1 * o.val = o.val; rw [e1]; omega

theorem iblk2_apply (c : Dev nD) (t : Fin cfg0.N) (h : Fin 128) :
    (iblk m c 2 t : Vec Ideal S1x128 .f32) (ix2 (0 : Fin 1) h) = m ((c : Thread nD τ).loc main_arg2) (ix1 h) := by
  obtain ⟨-, -, -, ⟨e0, e1⟩, -⟩ := idx_facts t
  unfold iblk
  rw [View.read_apply]
  show V m c main_v22 _ = _
  refine Eq.trans ?_ (V_v22_apply m c h)
  congr 1
  funext a
  apply Fin.ext
  match a with
  | ⟨0, _⟩ => show win0_2.index t 0 * 1 + 1 * 0 = 0; rw [e0]
  | ⟨1, _⟩ => show win0_2.index t 1 * 128 + 1 * h.val = h.val; rw [e1]; omega

theorem iblk3_apply (c : Dev nD) (t : Fin cfg0.N) (i : Fin 8) (h : Fin 128) (o : Fin 64) :
    (iblk m c 3 t : Vec Ideal S1024x64 .f32) (ix2 (⟨i.val * 128 + h.val, by have := i.isLt; have := h.isLt; omega⟩ : Fin 1024) o)
      = m ((c : Thread nD τ).loc main_arg3) (ix2 h (bwd (i.val + 1) o)) := by
  obtain ⟨-, -, -, -, ⟨e0, e1⟩, -⟩ := idx_facts t
  unfold iblk
  rw [View.read_apply]
  show V m c main_v17 _ = _
  refine Eq.trans ?_ (V_v17_apply m c i h o)
  congr 1
  funext a
  apply Fin.ext
  match a with
  | ⟨0, _⟩ => show win0_3.index t 0 * 1024 + 1 * (i.val * 128 + h.val) = i.val * 128 + h.val; rw [e0]; omega
  | ⟨1, _⟩ => show win0_3.index t 1 * 64 + 1 * o.val = o.val; rw [e1]; omega

theorem iblk4_apply (c : Dev nD) (t : Fin cfg0.N) (i : Fin 8) (h : Fin 128) :
    (iblk m c 4 t : Vec Ideal S1x1024 .f32) (ix2 (0 : Fin 1) (⟨i.val * 128 + h.val, by have := i.isLt; have := h.isLt; omega⟩ : Fin 1024))
      = m ((c : Thread nD τ).loc main_arg4) (ix1 h) := by
  obtain ⟨-, -, -, -, -, ⟨e0, e1⟩, -⟩ := idx_facts t
  unfold iblk
  rw [View.read_apply]
  show V m c main_v21 _ = _
  refine Eq.trans ?_ (V_v21_apply m c i h)
  congr 1
  funext a
  apply Fin.ext
  match a with
  | ⟨0, _⟩ => show win0_4.index t 0 * 1 + 1 * 0 = 0; rw [e0]
  | ⟨1, _⟩ => show win0_4.index t 1 * 1024 + 1 * (i.val * 128 + h.val) = i.val * 128 + h.val; rw [e1]; omega

theorem iblk5_apply (c : Dev nD) (t : Fin cfg0.N) (h : Fin 128) (k : Fin 256) :
    (iblk m c 5 t : Vec Ideal S128x256 .f32) (ix2 h k) = m ((c : Thread nD τ).loc main_arg5) (ix2 h k) := by
  obtain ⟨-, -, -, -, -, -, ⟨e0, e1⟩, -⟩ := idx_facts t
  unfold iblk
  rw [View.read_apply]
  show V m c main_arg5 _ = _
  rw [V_main_arg5]
  congr 1
  funext a
  apply Fin.ext
  match a with
  | ⟨0, _⟩ => show win0_5.index t 0 * 128 + 1 * h.val = h.val; rw [e0]; omega
  | ⟨1, _⟩ => show win0_5.index t 1 * 256 + 1 * k.val = k.val; rw [e1]; omega

theorem iblk6_apply (c : Dev nD) (t : Fin cfg0.N) (h : Fin 128) :
    (iblk m c 6 t : Vec Ideal S1x128 .f32) (ix2 (0 : Fin 1) h) = m ((c : Thread nD τ).loc main_arg6) (ix1 h) := by
  obtain ⟨-, -, -, -, -, -, -, ⟨e0, e1⟩, -⟩ := idx_facts t
  unfold iblk
  rw [View.read_apply]
  show V m c main_v23 _ = _
  refine Eq.trans ?_ (V_v23_apply m c h)
  congr 1
  funext a
  apply Fin.ext
  match a with
  | ⟨0, _⟩ => show win0_6.index t 0 * 1 + 1 * 0 = 0; rw [e0]
  | ⟨1, _⟩ => show win0_6.index t 1 * 128 + 1 * h.val = h.val; rw [e1]; omega

theorem iblk7_apply (c : Dev nD) (t : Fin cfg0.N) (n : Fin 16) (h : Fin 128) :
    (iblk m c 7 t : Vec Ideal S16x128 .f32) (ix2 n h) = m ((c : Thread nD τ).loc main_arg7) (ix2 n h) := by
  obtain ⟨-, -, -, -, -, -, -, -, ⟨e0, e1⟩, -⟩ := idx_facts t
  unfold iblk
  rw [View.read_apply]
  show V m c main_arg7 _ = _
  rw [V_main_arg7]
  congr 1
  funext a
  apply Fin.ext
  match a with
  | ⟨0, _⟩ => show win0_7.index t 0 * 16 + 1 * n.val = n.val; rw [e0]; omega
  | ⟨1, _⟩ => show win0_7.index t 1 * 128 + 1 * h.val = h.val; rw [e1]; omega

theorem iblk8_apply (c : Dev nD) (t : Fin cfg0.N) (n : Fin 16) :
    (iblk m c 8 t : Vec Ideal S1x16 .f32) (ix2 (0 : Fin 1) n) = m ((c : Thread nD τ).loc main_arg8) (ix1 n) := by
  obtain ⟨-, -, -, -, -, -, -, -, -, ⟨e0, e1⟩⟩ := idx_facts t
  unfold iblk
  rw [View.read_apply]
  show V m c main_v24 _ = _
  refine Eq.trans ?_ (V_v24_apply m c n)
  congr 1
  funext a
  apply Fin.ext
  match a with
  | ⟨0, _⟩ => show win0_8.index t 0 * 1 + 1 * 0 = 0; rw [e0]
  | ⟨1, _⟩ => show win0_8.index t 1 * 16 + 1 * n.val = n.val; rw [e1]; omega

/-! ## What a point writes back, the cover, the final array -/

/-- WHAT POINT `t` WRITES BACK is block `t` of the network's function of the arguments. -/
theorem flushed9_eq (c : Dev nD) (t : Fin cfg0.N) :
    (dats m 0 c).flushed 9 t = ((cfg0.win 9).blk t).view.read (Elt Ideal) (GK m c) := by
  show (cfg0.win 9).cut (grid0.coords t) ((dats m 0 c).after 9 t) = _
  rw [after0_9]
  unfold out0_9
  rw [View.canon_unit_zero hz]
  simp only [View.ld_unit_zero (S := S2048x64) hz, View.ld_unit_zero (S := S128x64) hz, View.ld_unit_zero (S := S1x128) hz,
    View.ld_unit_zero (S := S1024x64) hz, View.ld_unit_zero (S := S1x1024) hz, View.ld_unit_zero (S := S128x256) hz,
    View.ld_unit_zero (S := S16x128) hz, View.ld_unit_zero (S := S1x16) hz]
  funext y
  obtain ⟨p, n, rfl⟩ : ∃ (p : Fin 2048) (n : Fin 16), y = ix2 p n := ⟨y 0, y 1, eq_ix2 y⟩
  obtain ⟨-, ⟨e0, e1⟩, -⟩ := idx_facts t
  refine (pay_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (iblk m c 0 t) (iblk m c 1 t) (iblk m c 2 t) (iblk m c 3 t) (iblk m c 4 t) (iblk m c 5 t) (iblk m c 6 t) (iblk m c 7 t) (iblk m c 8 t)
    (pt t) (iblk0_apply m c t) (iblk1_apply m c t) (iblk2_apply m c t) (iblk3_apply m c t) (iblk4_apply m c t)
    (iblk5_apply m c t) (iblk6_apply m c t) (iblk7_apply m c t) (iblk8_apply m c t) p n).trans ?_
  rw [View.read_apply]
  show _ = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _
  have e : ((cfg0.win 9).blk t).view.emb (ix2 p n) = ix2 (row (pt t) p) n := by
    funext a
    apply Fin.ext
    match a with
    | ⟨0, _⟩ => show win0_9.index t 0 * 2048 + 1 * p.val = t.val * 2048 + p.val; rw [e0]; omega
    | ⟨1, _⟩ => show win0_9.index t 1 * 16 + 1 * n.val = n.val; rw [e1]; omega
  rw [e]
  rfl

/-- Every row of the result lies in the block of the point `row / 2048`. -/
theorem cover9 (i : S131072x16.Idx) :
    ∃ t : Fin cfg0.N, (cfg0.win 9).flush t = true ∧ i ∈ ((cfg0.win 9).blk t).view.set := by
  have hi0 : (i 0).val < 131072 := (i 0).isLt
  have hi1 : (i 1).val < 16 := (i 1).isLt
  have hN : cfg0.N = 64 := N_0
  have hlt : (i 0).val / 2048 < cfg0.N := by rw [hN]; omega
  obtain ⟨t, ht⟩ : ∃ t : Fin cfg0.N, t.val = (i 0).val / 2048 := ⟨⟨(i 0).val / 2048, hlt⟩, rfl⟩
  refine ⟨t, flush0_9 t, ?_⟩
  obtain ⟨-, ⟨e0, e1⟩, -⟩ := idx_facts t
  show i ∈ ((View.whole main_v25).slice (win0_9.rect t)).set
  rw [View.set_slice_whole, Rect.mem_set_unit]
  intro a
  match a with
  | ⟨0, _⟩ =>
    show win0_9.index t (0 : Fin 2) * 2048 ≤ (i 0).val ∧ (i 0).val < win0_9.index t (0 : Fin 2) * 2048 + 2048
    rw [e0, ht]; omega
  | ⟨1, _⟩ =>
    show win0_9.index t (1 : Fin 2) * 16 ≤ (i 1).val ∧ (i 1).val < win0_9.index t (1 : Fin 2) * 16 + 16
    rw [e1]; omega

/-- THE RESULT ARRAY after the run is the network's function of the arguments. -/
theorem final9 (c : Dev nD) : (dats m 0 c).arrAt 9 cfg0.N = GK m c :=
  (dats m 0 c).arrAt_eq_of_cover 9 (GK m c) (fun t _ => flushed9_eq m c t) cover9

/-! ## The run, read -/

theorem run : θ_run defs (onTc (τ := τ) (main (F := Ideal))) ⟨m, fun _ => 0, ρ⟩ fun r => ∀ c : Dev nD,
      r.2.mem ((c.tc : Thread nD τ).loc main_v25) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c)⟩)
    (run_main m ρ)

end Cert.KernelIdeal.Hand

end
-- ==== Proof.RefRunA1.lean ====
import proofs.«110319_j38714835206233_1_alg».proof.Proof.RefRead
import Idealize.ShloMosaic.Lib.StableHlo.Run

noncomputable section

/-! # The reference's run, first part: the first five unit rotations

Each rotation is five operations: the input's columns 1..63 and its column 0 are cut out and joined in that order (a
rotation left by one place), the result is re-laid as groups of eight rows, and agents 1..7 of every group are cut out
of it. The next rotation starts from the rotated array, so the k-th one holds the input rotated by k places. The five
rotations are run one after the other from ANY contents of the buffers in which argument 0 holds `x0`; what each
leaves in its two result buffers is the stage of that name, and a buffer none of them writes keeps its contents. -/

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 1 to 25 of @main, in order: five rotations of five operations each. -/
abbrev opsA1 : List (HloOp τ sig (Elt F)) :=
  [ TRef.unary (TRef.of (T := ⟨S131072x64, .f32⟩) main_arg0) (TRef.of (T := ⟨S131072x63, .f32⟩) main_call0_v0) (extractStridedSlice S131072x63 ![0, 1] · slices_S131072x64_S131072x63_0_1),
    TRef.unary (TRef.of (T := ⟨S131072x64, .f32⟩) main_arg0) (TRef.of (T := ⟨S131072x1, .f32⟩) main_call0_v1) (extractStridedSlice S131072x1 ![0, 0] · slices_S131072x64_S131072x1_0_0),
    TRef.binary (TRef.of (T := ⟨S131072x63, .f32⟩) main_call0_v0) (TRef.of (T := ⟨S131072x1, .f32⟩) main_call0_v1) (TRef.of (T := ⟨S131072x64, .f32⟩) main_v0) (fun a b => concatenate S131072x64 1 [⟨S131072x63, a⟩, ⟨S131072x1, b⟩] concatenates_S131072x63_S131072x1_S131072x64_d1),
    reshape main_v0 main_v1 rfl shapeCasts_S131072x64_S16384x8x64,
    unary main_v1 main_v2 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)),
    TRef.unary (TRef.of (T := ⟨S131072x64, .f32⟩) main_v0) (TRef.of (T := ⟨S131072x63, .f32⟩) main_call1_v0) (extractStridedSlice S131072x63 ![0, 1] · slices_S131072x64_S131072x63_0_1),
    TRef.unary (TRef.of (T := ⟨S131072x64, .f32⟩) main_v0) (TRef.of (T := ⟨S131072x1, .f32⟩) main_call1_v1) (extractStridedSlice S131072x1 ![0, 0] · slices_S131072x64_S131072x1_0_0),
    TRef.binary (TRef.of (T := ⟨S131072x63, .f32⟩) main_call1_v0) (TRef.of (T := ⟨S131072x1, .f32⟩) main_call1_v1) (TRef.of (T := ⟨S131072x64, .f32⟩) main_v3) (fun a b => concatenate S131072x64 1 [⟨S131072x63, a⟩, ⟨S131072x1, b⟩] concatenates_S131072x63_S131072x1_S131072x64_d1),
    reshape main_v3 main_v4 rfl shapeCasts_S131072x64_S16384x8x64,
    unary main_v4 main_v5 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)),
    TRef.unary (TRef.of (T := ⟨S131072x64, .f32⟩) main_v3) (TRef.of (T := ⟨S131072x63, .f32⟩) main_call2_v0) (extractStridedSlice S131072x63 ![0, 1] · slices_S131072x64_S131072x63_0_1),
    TRef.unary (TRef.of (T := ⟨S131072x64, .f32⟩) main_v3) (TRef.of (T := ⟨S131072x1, .f32⟩) main_call2_v1) (extractStridedSlice S131072x1 ![0, 0] · slices_S131072x64_S131072x1_0_0),
    TRef.binary (TRef.of (T := ⟨S131072x63, .f32⟩) main_call2_v0) (TRef.of (T := ⟨S131072x1, .f32⟩) main_call2_v1) (TRef.of (T := ⟨S131072x64, .f32⟩) main_v6) (fun a b => concatenate S131072x64 1 [⟨S131072x63, a⟩, ⟨S131072x1, b⟩] concatenates_S131072x63_S131072x1_S131072x64_d1),
    reshape main_v6 main_v7 rfl shapeCasts_S131072x64_S16384x8x64,
    unary main_v7 main_v8 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)),
    TRef.unary (TRef.of (T := ⟨S131072x64, .f32⟩) main_v6) (TRef.of (T := ⟨S131072x63, .f32⟩) main_call3_v0) (extractStridedSlice S131072x63 ![0, 1] · slices_S131072x64_S131072x63_0_1),
    TRef.unary (TRef.of (T := ⟨S131072x64, .f32⟩) main_v6) (TRef.of (T := ⟨S131072x1, .f32⟩) main_call3_v1) (extractStridedSlice S131072x1 ![0, 0] · slices_S131072x64_S131072x1_0_0),
    TRef.binary (TRef.of (T := ⟨S131072x63, .f32⟩) main_call3_v0) (TRef.of (T := ⟨S131072x1, .f32⟩) main_call3_v1) (TRef.of (T := ⟨S131072x64, .f32⟩) main_v9) (fun a b => concatenate S131072x64 1 [⟨S131072x63, a⟩, ⟨S131072x1, b⟩] concatenates_S131072x63_S131072x1_S131072x64_d1),
    reshape main_v9 main_v10 rfl shapeCasts_S131072x64_S16384x8x64,
    unary main_v10 main_v11 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)),
    TRef.unary (TRef.of (T := ⟨S131072x64, .f32⟩) main_v9) (TRef.of (T := ⟨S131072x63, .f32⟩) main_call4_v0) (extractStridedSlice S131072x63 ![0, 1] · slices_S131072x64_S131072x63_0_1),
    TRef.unary (TRef.of (T := ⟨S131072x64, .f32⟩) main_v9) (TRef.of (T := ⟨S131072x1, .f32⟩) main_call4_v1) (extractStridedSlice S131072x1 ![0, 0] · slices_S131072x64_S131072x1_0_0),
    TRef.binary (TRef.of (T := ⟨S131072x63, .f32⟩) main_call4_v0) (TRef.of (T := ⟨S131072x1, .f32⟩) main_call4_v1) (TRef.of (T := ⟨S131072x64, .f32⟩) main_v12) (fun a b => concatenate S131072x64 1 [⟨S131072x63, a⟩, ⟨S131072x1, b⟩] concatenates_S131072x63_S131072x1_S131072x64_d1),
    reshape main_v12 main_v13 rfl shapeCasts_S131072x64_S16384x8x64,
    unary main_v13 main_v14 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)) ]

theorem opsA1_sub : (opsA1 : List (HloOp τ sig (Elt F))).Forall fun op => op.bufs ⊆ tcRefs τ sig :=
  ⟨unary_bufs_sub .., unary_bufs_sub .., binary_bufs_sub .., reshape_bufs_sub .., unary_bufs_sub .., unary_bufs_sub .., unary_bufs_sub .., binary_bufs_sub .., reshape_bufs_sub .., unary_bufs_sub .., unary_bufs_sub .., unary_bufs_sub .., binary_bufs_sub .., reshape_bufs_sub .., unary_bufs_sub .., unary_bufs_sub .., unary_bufs_sub .., binary_bufs_sub .., reshape_bufs_sub .., unary_bufs_sub .., unary_bufs_sub .., unary_bufs_sub .., binary_bufs_sub .., reshape_bufs_sub .., unary_bufs_sub ..⟩

/-- Every one of the 25 operations determines its result. -/
theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-! ## What the part writes, and that it writes nothing else -/

/-- The buffers the 25 operations write, in order. -/
abbrev writesA1 : List (Ref sig .tc) :=
  [main_call0_v0, main_call0_v1, main_v0, main_v1, main_v2, main_call1_v0, main_call1_v1, main_v3, main_v4, main_v5, main_call2_v0, main_call2_v1, main_v6, main_v7, main_v8, main_call3_v0, main_call3_v1, main_v9, main_v10, main_v11, main_call4_v0, main_call4_v1, main_v12, main_v13, main_v14]

/-- An operation whose one written buffer is in a list writes inside the list. -/
theorem writes_sub_of_memA1 {op : HloOp τ sig (Elt F)} {y : Ref sig .tc} {L : List (Ref sig .tc)}
    (hw : op.writes = {Proc.devRef .tc y}) (hy : y ∈ L) :
    op.writes ⊆ (L.map (Proc.devRef (τ := τ) .tc)).toFinset := by
  rw [hw]
  exact Finset.singleton_subset_iff.mpr (List.mem_toFinset.mpr (List.mem_map.mpr ⟨y, hy, rfl⟩))

theorem opsA1_writes :
    (opsA1 : List (HloOp τ sig (Elt F))).Forall fun op => op.writes ⊆ (writesA1.map (Proc.devRef (τ := τ) .tc)).toFinset :=
  ⟨writes_sub_of_memA1 (y := main_call0_v0) rfl (by decide),
   writes_sub_of_memA1 (y := main_call0_v1) rfl (by decide),
   writes_sub_of_memA1 (y := main_v0) rfl (by decide),
   writes_sub_of_memA1 (y := main_v1) rfl (by decide),
   writes_sub_of_memA1 (y := main_v2) rfl (by decide),
   writes_sub_of_memA1 (y := main_call1_v0) rfl (by decide),
   writes_sub_of_memA1 (y := main_call1_v1) rfl (by decide),
   writes_sub_of_memA1 (y := main_v3) rfl (by decide),
   writes_sub_of_memA1 (y := main_v4) rfl (by decide),
   writes_sub_of_memA1 (y := main_v5) rfl (by decide),
   writes_sub_of_memA1 (y := main_call2_v0) rfl (by decide),
   writes_sub_of_memA1 (y := main_call2_v1) rfl (by decide),
   writes_sub_of_memA1 (y := main_v6) rfl (by decide),
   writes_sub_of_memA1 (y := main_v7) rfl (by decide),
   writes_sub_of_memA1 (y := main_v8) rfl (by decide),
   writes_sub_of_memA1 (y := main_call3_v0) rfl (by decide),
   writes_sub_of_memA1 (y := main_call3_v1) rfl (by decide),
   writes_sub_of_memA1 (y := main_v9) rfl (by decide),
   writes_sub_of_memA1 (y := main_v10) rfl (by decide),
   writes_sub_of_memA1 (y := main_v11) rfl (by decide),
   writes_sub_of_memA1 (y := main_call4_v0) rfl (by decide),
   writes_sub_of_memA1 (y := main_call4_v1) rfl (by decide),
   writes_sub_of_memA1 (y := main_v12) rfl (by decide),
   writes_sub_of_memA1 (y := main_v13) rfl (by decide),
   writes_sub_of_memA1 (y := main_v14) rfl (by decide)⟩

/-- A buffer that is none of the 25 written ones holds after the part what it held before. -/
theorem afterA1_keeps (W : Valuation τ sig (Elt F)) (b : Ref sig .tc) (hb : b ∉ writesA1) :
    after opsA1 W (Proc.devRef .tc b) = W (Proc.devRef .tc b) :=
  after_of_writes_sub opsA1 W opsA1_writes hb

/-! ## One rotation at a time

The 25 operations are the five rotations one after the other, so the contents after all of them are the contents after
the fifth, run from those after the fourth, and so on: each rotation is read on its own, from any contents in which its
source buffer holds the array rotated so far. -/

/-- Running two lists in a row is running their concatenation. -/
theorem after_concatA1 : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concatA1 l₁ l₂]

/-- The first rotation's five operations. -/
abbrev rdA1_0 : List (HloOp τ sig (Elt F)) :=
  [ TRef.unary (TRef.of (T := ⟨S131072x64, .f32⟩) main_arg0) (TRef.of (T := ⟨S131072x63, .f32⟩) main_call0_v0) (extractStridedSlice S131072x63 ![0, 1] · slices_S131072x64_S131072x63_0_1),
    TRef.unary (TRef.of (T := ⟨S131072x64, .f32⟩) main_arg0) (TRef.of (T := ⟨S131072x1, .f32⟩) main_call0_v1) (extractStridedSlice S131072x1 ![0, 0] · slices_S131072x64_S131072x1_0_0),
    TRef.binary (TRef.of (T := ⟨S131072x63, .f32⟩) main_call0_v0) (TRef.of (T := ⟨S131072x1, .f32⟩) main_call0_v1) (TRef.of (T := ⟨S131072x64, .f32⟩) main_v0) (fun a b => concatenate S131072x64 1 [⟨S131072x63, a⟩, ⟨S131072x1, b⟩] concatenates_S131072x63_S131072x1_S131072x64_d1),
    reshape main_v0 main_v1 rfl shapeCasts_S131072x64_S16384x8x64,
    unary main_v1 main_v2 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)) ]

theorem rdA1_0_writes :
    (rdA1_0 : List (HloOp τ sig (Elt F))).Forall fun op =>
      op.writes ⊆ (([main_call0_v0, main_call0_v1, main_v0, main_v1, main_v2] : List (Ref sig .tc)).map (Proc.devRef (τ := τ) .tc)).toFinset :=
  ⟨writes_sub_of_memA1 (y := main_call0_v0) rfl (by decide),
   writes_sub_of_memA1 (y := main_call0_v1) rfl (by decide),
   writes_sub_of_memA1 (y := main_v0) rfl (by decide),
   writes_sub_of_memA1 (y := main_v1) rfl (by decide),
   writes_sub_of_memA1 (y := main_v2) rfl (by decide)⟩

/-- From contents whose source buffer holds the input, the first rotation leaves the input rotated by 1 place
    and the seven agents cut out of it. -/
theorem after_rdA1_0 (V : Valuation τ sig (Elt F)) (x0 : (⟨S131072x64, .f32⟩ : BufTy).Contents (Elt F))
    (h : V (Proc.devRef .tc main_arg0) = x0) :
    after rdA1_0 V (Proc.devRef .tc main_v0) = val_main_v0 (F := F) x0
      ∧ after rdA1_0 V (Proc.devRef .tc main_v2) = val_main_v2 (F := F) x0 := by
  constructor
  · after_results
    rw [h]
    rfl
  · after_results
    rw [h]
    rfl

/-- The second rotation's five operations. -/
abbrev rdA1_1 : List (HloOp τ sig (Elt F)) :=
  [ TRef.unary (TRef.of (T := ⟨S131072x64, .f32⟩) main_v0) (TRef.of (T := ⟨S131072x63, .f32⟩) main_call1_v0) (extractStridedSlice S131072x63 ![0, 1] · slices_S131072x64_S131072x63_0_1),
    TRef.unary (TRef.of (T := ⟨S131072x64, .f32⟩) main_v0) (TRef.of (T := ⟨S131072x1, .f32⟩) main_call1_v1) (extractStridedSlice S131072x1 ![0, 0] · slices_S131072x64_S131072x1_0_0),
    TRef.binary (TRef.of (T := ⟨S131072x63, .f32⟩) main_call1_v0) (TRef.of (T := ⟨S131072x1, .f32⟩) main_call1_v1) (TRef.of (T := ⟨S131072x64, .f32⟩) main_v3) (fun a b => concatenate S131072x64 1 [⟨S131072x63, a⟩, ⟨S131072x1, b⟩] concatenates_S131072x63_S131072x1_S131072x64_d1),
    reshape main_v3 main_v4 rfl shapeCasts_S131072x64_S16384x8x64,
    unary main_v4 main_v5 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)) ]

theorem rdA1_1_writes :
    (rdA1_1 : List (HloOp τ sig (Elt F))).Forall fun op =>
      op.writes ⊆ (([main_call1_v0, main_call1_v1, main_v3, main_v4, main_v5] : List (Ref sig .tc)).map (Proc.devRef (τ := τ) .tc)).toFinset :=
  ⟨writes_sub_of_memA1 (y := main_call1_v0) rfl (by decide),
   writes_sub_of_memA1 (y := main_call1_v1) rfl (by decide),
   writes_sub_of_memA1 (y := main_v3) rfl (by decide),
   writes_sub_of_memA1 (y := main_v4) rfl (by decide),
   writes_sub_of_memA1 (y := main_v5) rfl (by decide)⟩

/-- From contents whose source buffer holds the input rotated by 1 place, the second rotation leaves the input rotated by 2 places
    and the seven agents cut out of it. -/
theorem after_rdA1_1 (V : Valuation τ sig (Elt F)) (x0 : (⟨S131072x64, .f32⟩ : BufTy).Contents (Elt F))
    (h : V (Proc.devRef .tc main_v0) = val_main_v0 (F := F) x0) :
    after rdA1_1 V (Proc.devRef .tc main_v3) = val_main_v3 (F := F) x0
      ∧ after rdA1_1 V (Proc.devRef .tc main_v5) = val_main_v5 (F := F) x0 := by
  constructor
  · after_results
    rw [h]
    rfl
  · after_results
    rw [h]
    rfl

/-- The third rotation's five operations. -/
abbrev rdA1_2 : List (HloOp τ sig (Elt F)) :=
  [ TRef.unary (TRef.of (T := ⟨S131072x64, .f32⟩) main_v3) (TRef.of (T := ⟨S131072x63, .f32⟩) main_call2_v0) (extractStridedSlice S131072x63 ![0, 1] · slices_S131072x64_S131072x63_0_1),
    TRef.unary (TRef.of (T := ⟨S131072x64, .f32⟩) main_v3) (TRef.of (T := ⟨S131072x1, .f32⟩) main_call2_v1) (extractStridedSlice S131072x1 ![0, 0] · slices_S131072x64_S131072x1_0_0),
    TRef.binary (TRef.of (T := ⟨S131072x63, .f32⟩) main_call2_v0) (TRef.of (T := ⟨S131072x1, .f32⟩) main_call2_v1) (TRef.of (T := ⟨S131072x64, .f32⟩) main_v6) (fun a b => concatenate S131072x64 1 [⟨S131072x63, a⟩, ⟨S131072x1, b⟩] concatenates_S131072x63_S131072x1_S131072x64_d1),
    reshape main_v6 main_v7 rfl shapeCasts_S131072x64_S16384x8x64,
    unary main_v7 main_v8 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)) ]

theorem rdA1_2_writes :
    (rdA1_2 : List (HloOp τ sig (Elt F))).Forall fun op =>
      op.writes ⊆ (([main_call2_v0, main_call2_v1, main_v6, main_v7, main_v8] : List (Ref sig .tc)).map (Proc.devRef (τ := τ) .tc)).toFinset :=
  ⟨writes_sub_of_memA1 (y := main_call2_v0) rfl (by decide),
   writes_sub_of_memA1 (y := main_call2_v1) rfl (by decide),
   writes_sub_of_memA1 (y := main_v6) rfl (by decide),
   writes_sub_of_memA1 (y := main_v7) rfl (by decide),
   writes_sub_of_memA1 (y := main_v8) rfl (by decide)⟩

/-- From contents whose source buffer holds the input rotated by 2 places, the third rotation leaves the input rotated by 3 places
    and the seven agents cut out of it. -/
theorem after_rdA1_2 (V : Valuation τ sig (Elt F)) (x0 : (⟨S131072x64, .f32⟩ : BufTy).Contents (Elt F))
    (h : V (Proc.devRef .tc main_v3) = val_main_v3 (F := F) x0) :
    after rdA1_2 V (Proc.devRef .tc main_v6) = val_main_v6 (F := F) x0
      ∧ after rdA1_2 V (Proc.devRef .tc main_v8) = val_main_v8 (F := F) x0 := by
  constructor
  · after_results
    rw [h]
    rfl
  · after_results
    rw [h]
    rfl

/-- The fourth rotation's five operations. -/
abbrev rdA1_3 : List (HloOp τ sig (Elt F)) :=
  [ TRef.unary (TRef.of (T := ⟨S131072x64, .f32⟩) main_v6) (TRef.of (T := ⟨S131072x63, .f32⟩) main_call3_v0) (extractStridedSlice S131072x63 ![0, 1] · slices_S131072x64_S131072x63_0_1),
    TRef.unary (TRef.of (T := ⟨S131072x64, .f32⟩) main_v6) (TRef.of (T := ⟨S131072x1, .f32⟩) main_call3_v1) (extractStridedSlice S131072x1 ![0, 0] · slices_S131072x64_S131072x1_0_0),
    TRef.binary (TRef.of (T := ⟨S131072x63, .f32⟩) main_call3_v0) (TRef.of (T := ⟨S131072x1, .f32⟩) main_call3_v1) (TRef.of (T := ⟨S131072x64, .f32⟩) main_v9) (fun a b => concatenate S131072x64 1 [⟨S131072x63, a⟩, ⟨S131072x1, b⟩] concatenates_S131072x63_S131072x1_S131072x64_d1),
    reshape main_v9 main_v10 rfl shapeCasts_S131072x64_S16384x8x64,
    unary main_v10 main_v11 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)) ]

theorem rdA1_3_writes :
    (rdA1_3 : List (HloOp τ sig (Elt F))).Forall fun op =>
      op.writes ⊆ (([main_call3_v0, main_call3_v1, main_v9, main_v10, main_v11] : List (Ref sig .tc)).map (Proc.devRef (τ := τ) .tc)).toFinset :=
  ⟨writes_sub_of_memA1 (y := main_call3_v0) rfl (by decide),
   writes_sub_of_memA1 (y := main_call3_v1) rfl (by decide),
   writes_sub_of_memA1 (y := main_v9) rfl (by decide),
   writes_sub_of_memA1 (y := main_v10) rfl (by decide),
   writes_sub_of_memA1 (y := main_v11) rfl (by decide)⟩

/-- From contents whose source buffer holds the input rotated by 3 places, the fourth rotation leaves the input rotated by 4 places
    and the seven agents cut out of it. -/
theorem after_rdA1_3 (V : Valuation τ sig (Elt F)) (x0 : (⟨S131072x64, .f32⟩ : BufTy).Contents (Elt F))
    (h : V (Proc.devRef .tc main_v6) = val_main_v6 (F := F) x0) :
    after rdA1_3 V (Proc.devRef .tc main_v9) = val_main_v9 (F := F) x0
      ∧ after rdA1_3 V (Proc.devRef .tc main_v11) = val_main_v11 (F := F) x0 := by
  constructor
  · after_results
    rw [h]
    rfl
  · after_results
    rw [h]
    rfl

/-- The fifth rotation's five operations. -/
abbrev rdA1_4 : List (HloOp τ sig (Elt F)) :=
  [ TRef.unary (TRef.of (T := ⟨S131072x64, .f32⟩) main_v9) (TRef.of (T := ⟨S131072x63, .f32⟩) main_call4_v0) (extractStridedSlice S131072x63 ![0, 1] · slices_S131072x64_S131072x63_0_1),
    TRef.unary (TRef.of (T := ⟨S131072x64, .f32⟩) main_v9) (TRef.of (T := ⟨S131072x1, .f32⟩) main_call4_v1) (extractStridedSlice S131072x1 ![0, 0] · slices_S131072x64_S131072x1_0_0),
    TRef.binary (TRef.of (T := ⟨S131072x63, .f32⟩) main_call4_v0) (TRef.of (T := ⟨S131072x1, .f32⟩) main_call4_v1) (TRef.of (T := ⟨S131072x64, .f32⟩) main_v12) (fun a b => concatenate S131072x64 1 [⟨S131072x63, a⟩, ⟨S131072x1, b⟩] concatenates_S131072x63_S131072x1_S131072x64_d1),
    reshape main_v12 main_v13 rfl shapeCasts_S131072x64_S16384x8x64,
    unary main_v13 main_v14 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)) ]

theorem rdA1_4_writes :
    (rdA1_4 : List (HloOp τ sig (Elt F))).Forall fun op =>
      op.writes ⊆ (([main_call4_v0, main_call4_v1, main_v12, main_v13, main_v14] : List (Ref sig .tc)).map (Proc.devRef (τ := τ) .tc)).toFinset :=
  ⟨writes_sub_of_memA1 (y := main_call4_v0) rfl (by decide),
   writes_sub_of_memA1 (y := main_call4_v1) rfl (by decide),
   writes_sub_of_memA1 (y := main_v12) rfl (by decide),
   writes_sub_of_memA1 (y := main_v13) rfl (by decide),
   writes_sub_of_memA1 (y := main_v14) rfl (by decide)⟩

/-- From contents whose source buffer holds the input rotated by 4 places, the fifth rotation leaves the input rotated by 5 places
    and the seven agents cut out of it. -/
theorem after_rdA1_4 (V : Valuation τ sig (Elt F)) (x0 : (⟨S131072x64, .f32⟩ : BufTy).Contents (Elt F))
    (h : V (Proc.devRef .tc main_v9) = val_main_v9 (F := F) x0) :
    after rdA1_4 V (Proc.devRef .tc main_v12) = val_main_v12 (F := F) x0
      ∧ after rdA1_4 V (Proc.devRef .tc main_v14) = val_main_v14 (F := F) x0 := by
  constructor
  · after_results
    rw [h]
    rfl
  · after_results
    rw [h]
    rfl

/-- The 25 operations are the five rotations in a row. -/
theorem opsA1_eq : (opsA1 : List (HloOp τ sig (Elt F))) = rdA1_0 ++ (rdA1_1 ++ (rdA1_2 ++ (rdA1_3 ++ rdA1_4))) := rfl

/-! ## The part's results -/

/-- After the first 25 operations, from any contents in which argument 0 holds `x0`: the fifth rotation's array and the
    five cuts are the stages of those names. -/
theorem afterA1 (W : Valuation τ sig (Elt F)) (x0 : (⟨S131072x64, .f32⟩ : BufTy).Contents (Elt F))
    (h0 : W (Proc.devRef .tc main_arg0) = x0) :
    after opsA1 W (Proc.devRef .tc main_v12) = val_main_v12 (F := F) x0
      ∧ after opsA1 W (Proc.devRef .tc main_v2) = val_main_v2 (F := F) x0
      ∧ after opsA1 W (Proc.devRef .tc main_v5) = val_main_v5 (F := F) x0
      ∧ after opsA1 W (Proc.devRef .tc main_v8) = val_main_v8 (F := F) x0
      ∧ after opsA1 W (Proc.devRef .tc main_v11) = val_main_v11 (F := F) x0
      ∧ after opsA1 W (Proc.devRef .tc main_v14) = val_main_v14 (F := F) x0 := by
  rw [opsA1_eq, after_concatA1, after_concatA1, after_concatA1, after_concatA1]
  obtain ⟨a0, c0⟩ := after_rdA1_0 W x0 h0
  obtain ⟨a1, c1⟩ := after_rdA1_1 (after rdA1_0 W) x0 a0
  obtain ⟨a2, c2⟩ := after_rdA1_2 (after rdA1_1 (after rdA1_0 W)) x0 a1
  obtain ⟨a3, c3⟩ := after_rdA1_3 (after rdA1_2 (after rdA1_1 (after rdA1_0 W))) x0 a2
  obtain ⟨a4, c4⟩ := after_rdA1_4 (after rdA1_3 (after rdA1_2 (after rdA1_1 (after rdA1_0 W)))) x0 a3
  refine ⟨a4, ?_, ?_, ?_, ?_, c4⟩
  · rw [after_of_writes_sub rdA1_4 _ rdA1_4_writes (by decide), after_of_writes_sub rdA1_3 _ rdA1_3_writes (by decide),
      after_of_writes_sub rdA1_2 _ rdA1_2_writes (by decide), after_of_writes_sub rdA1_1 _ rdA1_1_writes (by decide)]
    exact c0
  · rw [after_of_writes_sub rdA1_4 _ rdA1_4_writes (by decide), after_of_writes_sub rdA1_3 _ rdA1_3_writes (by decide),
      after_of_writes_sub rdA1_2 _ rdA1_2_writes (by decide)]
    exact c1
  · rw [after_of_writes_sub rdA1_4 _ rdA1_4_writes (by decide), after_of_writes_sub rdA1_3 _ rdA1_3_writes (by decide)]
    exact c2
  · rw [after_of_writes_sub rdA1_4 _ rdA1_4_writes (by decide)]
    exact c3

end Cert.ReferenceIdeal.RunH

end
-- ==== Proof.RefRunA2.lean ====
import proofs.«110319_j38714835206233_1_alg».proof.Proof.RefRead
import Idealize.ShloMosaic.Lib.StableHlo.Run

noncomputable section

/-! The middle stretch of the reference: the sixth to ninth unit rotations of the rows' features, each cut into the
seven neighbour rows of every group of eight, the eight cut pieces joined along the neighbour axis and laid out as
one row of seven neighbours per agent. For any contents of the buffers before the stretch that hold the fifth
rotation and the first five cut pieces, the last buffer written holds the joined stage. -/

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The stretch's twenty operations, in order. -/
abbrev opsA2 : List (HloOp τ sig (Elt F)) :=
  [ TRef.unary (TRef.of (T := ⟨S131072x64, .f32⟩) main_v12) (TRef.of (T := ⟨S131072x63, .f32⟩) main_call5_v0) (extractStridedSlice S131072x63 ![0, 1] · slices_S131072x64_S131072x63_0_1),
    TRef.unary (TRef.of (T := ⟨S131072x64, .f32⟩) main_v12) (TRef.of (T := ⟨S131072x1, .f32⟩) main_call5_v1) (extractStridedSlice S131072x1 ![0, 0] · slices_S131072x64_S131072x1_0_0),
    TRef.binary (TRef.of (T := ⟨S131072x63, .f32⟩) main_call5_v0) (TRef.of (T := ⟨S131072x1, .f32⟩) main_call5_v1) (TRef.of (T := ⟨S131072x64, .f32⟩) main_v15) (fun a b => concatenate S131072x64 1 [⟨S131072x63, a⟩, ⟨S131072x1, b⟩] concatenates_S131072x63_S131072x1_S131072x64_d1),
    reshape main_v15 main_v16 rfl shapeCasts_S131072x64_S16384x8x64,
    unary main_v16 main_v17 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)),
    TRef.unary (TRef.of (T := ⟨S131072x64, .f32⟩) main_v15) (TRef.of (T := ⟨S131072x63, .f32⟩) main_call6_v0) (extractStridedSlice S131072x63 ![0, 1] · slices_S131072x64_S131072x63_0_1),
    TRef.unary (TRef.of (T := ⟨S131072x64, .f32⟩) main_v15) (TRef.of (T := ⟨S131072x1, .f32⟩) main_call6_v1) (extractStridedSlice S131072x1 ![0, 0] · slices_S131072x64_S131072x1_0_0),
    TRef.binary (TRef.of (T := ⟨S131072x63, .f32⟩) main_call6_v0) (TRef.of (T := ⟨S131072x1, .f32⟩) main_call6_v1) (TRef.of (T := ⟨S131072x64, .f32⟩) main_v18) (fun a b => concatenate S131072x64 1 [⟨S131072x63, a⟩, ⟨S131072x1, b⟩] concatenates_S131072x63_S131072x1_S131072x64_d1),
    reshape main_v18 main_v19 rfl shapeCasts_S131072x64_S16384x8x64,
    unary main_v19 main_v20 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)),
    TRef.unary (TRef.of (T := ⟨S131072x64, .f32⟩) main_v18) (TRef.of (T := ⟨S131072x63, .f32⟩) main_call7_v0) (extractStridedSlice S131072x63 ![0, 1] · slices_S131072x64_S131072x63_0_1),
    TRef.unary (TRef.of (T := ⟨S131072x64, .f32⟩) main_v18) (TRef.of (T := ⟨S131072x1, .f32⟩) main_call7_v1) (extractStridedSlice S131072x1 ![0, 0] · slices_S131072x64_S131072x1_0_0),
    TRef.binary (TRef.of (T := ⟨S131072x63, .f32⟩) main_call7_v0) (TRef.of (T := ⟨S131072x1, .f32⟩) main_call7_v1) (TRef.of (T := ⟨S131072x64, .f32⟩) main_v21) (fun a b => concatenate S131072x64 1 [⟨S131072x63, a⟩, ⟨S131072x1, b⟩] concatenates_S131072x63_S131072x1_S131072x64_d1),
    reshape main_v21 main_v22 rfl shapeCasts_S131072x64_S16384x8x64,
    unary main_v22 main_v23 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)),
    TRef.unary (TRef.of (T := ⟨S131072x64, .f32⟩) main_v21) (TRef.of (T := ⟨S131072x63, .f32⟩) main_call8_v0) (extractStridedSlice S131072x63 ![0, 1] · slices_S131072x64_S131072x63_0_1),
    TRef.unary (TRef.of (T := ⟨S131072x64, .f32⟩) main_v21) (TRef.of (T := ⟨S131072x1, .f32⟩) main_call8_v1) (extractStridedSlice S131072x1 ![0, 0] · slices_S131072x64_S131072x1_0_0),
    TRef.binary (TRef.of (T := ⟨S131072x63, .f32⟩) main_call8_v0) (TRef.of (T := ⟨S131072x1, .f32⟩) main_call8_v1) (TRef.of (T := ⟨S131072x64, .f32⟩) main_v24) (fun a b => concatenate S131072x64 1 [⟨S131072x63, a⟩, ⟨S131072x1, b⟩] concatenates_S131072x63_S131072x1_S131072x64_d1),
    nary ![main_v2, main_v5, main_v8, main_v11, main_v14, main_v17, main_v20, main_v23] main_v25 (fun u => concatenate S16384x56x64 1 [⟨S16384x7x64, u 0⟩, ⟨S16384x7x64, u 1⟩, ⟨S16384x7x64, u 2⟩, ⟨S16384x7x64, u 3⟩, ⟨S16384x7x64, u 4⟩, ⟨S16384x7x64, u 5⟩, ⟨S16384x7x64, u 6⟩, ⟨S16384x7x64, u 7⟩] concatenates_S16384x7x64_S16384x7x64_S16384x7x64_S16384x7x64_S16384x7x64_S16384x7x64_S16384x7x64_S16384x7x64_S16384x56x64_d1),
    reshape main_v25 main_v26 rfl shapeCasts_S16384x56x64_S131072x7x64 ]

/-- Every operation of the stretch touches TensorCore references only. -/
theorem opsA2_sub : (opsA2 : List (HloOp τ sig (Elt F))).Forall fun op => op.bufs ⊆ tcRefs τ sig :=
  ⟨unary_bufs_sub .., unary_bufs_sub .., binary_bufs_sub .., reshape_bufs_sub .., unary_bufs_sub .., unary_bufs_sub .., unary_bufs_sub .., binary_bufs_sub .., reshape_bufs_sub .., unary_bufs_sub .., unary_bufs_sub .., unary_bufs_sub .., binary_bufs_sub .., reshape_bufs_sub .., unary_bufs_sub .., unary_bufs_sub .., unary_bufs_sub .., binary_bufs_sub .., nary_bufs_sub .., reshape_bufs_sub ..⟩

/-- No operation of the stretch allocates a buffer of its own. -/
theorem opsA2_fresh : (opsA2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The twenty buffers the stretch writes, one per operation, in order. -/
abbrev writesA2 : List (Ref sig .tc) :=
  [main_call5_v0, main_call5_v1, main_v15, main_v16, main_v17, main_call6_v0, main_call6_v1, main_v18, main_v19, main_v20,
   main_call7_v0, main_call7_v1, main_v21, main_v22, main_v23, main_call8_v0, main_call8_v1, main_v24, main_v25, main_v26]

/-- A single written buffer that is on a list lies in the list's set of device buffers. -/
theorem single_sub_writesA2 {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-- Each operation writes its one result buffer, which is on the list. -/
theorem opsA2_writes : (opsA2 : List (HloOp τ sig (Elt F))).Forall fun op => op.writes ⊆ (writesA2.map (Proc.devRef (τ := τ) .tc)).toFinset :=
  ⟨single_sub_writesA2 (by decide), single_sub_writesA2 (by decide), single_sub_writesA2 (by decide), single_sub_writesA2 (by decide), single_sub_writesA2 (by decide), single_sub_writesA2 (by decide), single_sub_writesA2 (by decide), single_sub_writesA2 (by decide), single_sub_writesA2 (by decide), single_sub_writesA2 (by decide), single_sub_writesA2 (by decide), single_sub_writesA2 (by decide), single_sub_writesA2 (by decide), single_sub_writesA2 (by decide), single_sub_writesA2 (by decide), single_sub_writesA2 (by decide), single_sub_writesA2 (by decide), single_sub_writesA2 (by decide), single_sub_writesA2 (by decide), single_sub_writesA2 (by decide)⟩

/-- A buffer the stretch does not write keeps its contents. -/
theorem afterA2_keeps (W : Valuation τ sig (Elt F)) (b : Ref sig .tc) (hb : b ∉ writesA2) :
    after (opsA2 (F := F)) W (Proc.devRef .tc b) = W (Proc.devRef .tc b) :=
  after_of_writes_sub opsA2 W opsA2_writes hb

/-- An operation over a literal family of eight operands leaves its result at its function of the eight contents,
    each read at its own buffer. -/
theorem nary8_result_A2 {Val : EltTy → Type} {r0 r1 r2 r3 r4 r5 r6 r7 y : Ref sig .tc}
    (f : ((k : Fin 8) → ((![r0, r1, r2, r3, r4, r5, r6, r7] : Fin 8 → Ref sig .tc) k).ty.Contents Val) → y.ty.Contents Val) (hxs hy)
    (V : Valuation τ sig Val) :
    (nary (τ := τ) ![r0, r1, r2, r3, r4, r5, r6, r7] y f hxs hy).result V (Proc.devRef .tc y)
      = f (Fin.cons (V (Proc.devRef .tc r0)) (Fin.cons (V (Proc.devRef .tc r1)) (Fin.cons (V (Proc.devRef .tc r2)) (Fin.cons (V (Proc.devRef .tc r3))
          (Fin.cons (V (Proc.devRef .tc r4)) (Fin.cons (V (Proc.devRef .tc r5)) (Fin.cons (V (Proc.devRef .tc r6)) (Fin.cons (V (Proc.devRef .tc r7))
            (fun i => i.elim0))))))))) := by
  rw [nary_result]; congr 1; funext k; fin_cases k <;> rfl

/-- Reads each operation's result at its own buffer as its function of the contents before it, and at any other
    buffer as what was there, outermost operation first. -/
local macro "results_loop" : tactic =>
  `(tactic| repeat (first
      | rw [unary_result] | rw [binary_result] | rw [reshape_result] | rw [nary8_result_A2]
      | (rw [unary_result_ne]; rotate_left; decide)
      | (rw [binary_result_ne]; rotate_left; decide)
      | (rw [reshape_result_ne]; rotate_left; decide)
      | (rw [nary_result_ne]; rotate_left; decide)))

/-! ## The stretch in four parts

Rotations six, seven and eight are five operations each: two slices of the previous rotation, their join the other
way round, the view as groups of eight rows, and the cut to the seven neighbour rows. The last part is rotation
nine (kept by the program, not read again), the join of the eight cut pieces and its view as rows. -/

/-- Operations run one list after another are the concatenated list run at once. -/
theorem after_split_A2 (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Rotation six and its cut piece. -/
abbrev opsA2_r6 : List (HloOp τ sig (Elt F)) :=
  [ TRef.unary (TRef.of (T := ⟨S131072x64, .f32⟩) main_v12) (TRef.of (T := ⟨S131072x63, .f32⟩) main_call5_v0) (extractStridedSlice S131072x63 ![0, 1] · slices_S131072x64_S131072x63_0_1),
    TRef.unary (TRef.of (T := ⟨S131072x64, .f32⟩) main_v12) (TRef.of (T := ⟨S131072x1, .f32⟩) main_call5_v1) (extractStridedSlice S131072x1 ![0, 0] · slices_S131072x64_S131072x1_0_0),
    TRef.binary (TRef.of (T := ⟨S131072x63, .f32⟩) main_call5_v0) (TRef.of (T := ⟨S131072x1, .f32⟩) main_call5_v1) (TRef.of (T := ⟨S131072x64, .f32⟩) main_v15) (fun a b => concatenate S131072x64 1 [⟨S131072x63, a⟩, ⟨S131072x1, b⟩] concatenates_S131072x63_S131072x1_S131072x64_d1),
    reshape main_v15 main_v16 rfl shapeCasts_S131072x64_S16384x8x64,
    unary main_v16 main_v17 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)) ]

/-- The buffers these operations write, one each, in order. -/
abbrev opsA2_r6_w : List (Ref sig .tc) := [main_call5_v0, main_call5_v1, main_v15, main_v16, main_v17]

/-- Each of them writes its one result buffer, which is on that list. -/
theorem opsA2_r6_writes : (opsA2_r6 : List (HloOp τ sig (Elt F))).Forall fun op => op.writes ⊆ (opsA2_r6_w.map (Proc.devRef (τ := τ) .tc)).toFinset :=
  ⟨single_sub_writesA2 (by decide), single_sub_writesA2 (by decide), single_sub_writesA2 (by decide), single_sub_writesA2 (by decide), single_sub_writesA2 (by decide)⟩

/-- A buffer they do not write keeps its contents. -/
theorem opsA2_r6_keeps (V : Valuation τ sig (Elt F)) (b : Ref sig .tc) (hb : b ∉ opsA2_r6_w) :
    after (opsA2_r6 (F := F)) V (Proc.devRef .tc b) = V (Proc.devRef .tc b) :=
  after_of_writes_sub opsA2_r6 V opsA2_r6_writes hb

/-- From the previous rotation the five operations leave the next rotation and its cut piece. -/
theorem opsA2_r6_after (V : Valuation τ sig (Elt F)) (x0 : (⟨S131072x64, .f32⟩ : BufTy).Contents (Elt F))
    (h : V (Proc.devRef .tc main_v12) = val_main_v12 (F := F) x0) :
    after (opsA2_r6 (F := F)) V (Proc.devRef .tc main_v15) = val_main_v15 (F := F) x0
      ∧ after (opsA2_r6 (F := F)) V (Proc.devRef .tc main_v17) = val_main_v17 (F := F) x0 := by
  constructor
  · simp only [after_cons, after_nil]
    results_loop
    rw [h]
    rfl
  · simp only [after_cons, after_nil]
    results_loop
    rw [h]
    rfl

/-- Rotation seven and its cut piece. -/
abbrev opsA2_r7 : List (HloOp τ sig (Elt F)) :=
  [ TRef.unary (TRef.of (T := ⟨S131072x64, .f32⟩) main_v15) (TRef.of (T := ⟨S131072x63, .f32⟩) main_call6_v0) (extractStridedSlice S131072x63 ![0, 1] · slices_S131072x64_S131072x63_0_1),
    TRef.unary (TRef.of (T := ⟨S131072x64, .f32⟩) main_v15) (TRef.of (T := ⟨S131072x1, .f32⟩) main_call6_v1) (extractStridedSlice S131072x1 ![0, 0] · slices_S131072x64_S131072x1_0_0),
    TRef.binary (TRef.of (T := ⟨S131072x63, .f32⟩) main_call6_v0) (TRef.of (T := ⟨S131072x1, .f32⟩) main_call6_v1) (TRef.of (T := ⟨S131072x64, .f32⟩) main_v18) (fun a b => concatenate S131072x64 1 [⟨S131072x63, a⟩, ⟨S131072x1, b⟩] concatenates_S131072x63_S131072x1_S131072x64_d1),
    reshape main_v18 main_v19 rfl shapeCasts_S131072x64_S16384x8x64,
    unary main_v19 main_v20 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)) ]

/-- The buffers these operations write, one each, in order. -/
abbrev opsA2_r7_w : List (Ref sig .tc) := [main_call6_v0, main_call6_v1, main_v18, main_v19, main_v20]

/-- Each of them writes its one result buffer, which is on that list. -/
theorem opsA2_r7_writes : (opsA2_r7 : List (HloOp τ sig (Elt F))).Forall fun op => op.writes ⊆ (opsA2_r7_w.map (Proc.devRef (τ := τ) .tc)).toFinset :=
  ⟨single_sub_writesA2 (by decide), single_sub_writesA2 (by decide), single_sub_writesA2 (by decide), single_sub_writesA2 (by decide), single_sub_writesA2 (by decide)⟩

/-- A buffer they do not write keeps its contents. -/
theorem opsA2_r7_keeps (V : Valuation τ sig (Elt F)) (b : Ref sig .tc) (hb : b ∉ opsA2_r7_w) :
    after (opsA2_r7 (F := F)) V (Proc.devRef .tc b) = V (Proc.devRef .tc b) :=
  after_of_writes_sub opsA2_r7 V opsA2_r7_writes hb

/-- From the previous rotation the five operations leave the next rotation and its cut piece. -/
theorem opsA2_r7_after (V : Valuation τ sig (Elt F)) (x0 : (⟨S131072x64, .f32⟩ : BufTy).Contents (Elt F))
    (h : V (Proc.devRef .tc main_v15) = val_main_v15 (F := F) x0) :
    after (opsA2_r7 (F := F)) V (Proc.devRef .tc main_v18) = val_main_v18 (F := F) x0
      ∧ after (opsA2_r7 (F := F)) V (Proc.devRef .tc main_v20) = val_main_v20 (F := F) x0 := by
  constructor
  · simp only [after_cons, after_nil]
    results_loop
    rw [h]
    rfl
  · simp only [after_cons, after_nil]
    results_loop
    rw [h]
    rfl

/-- Rotation eight and its cut piece. -/
abbrev opsA2_r8 : List (HloOp τ sig (Elt F)) :=
  [ TRef.unary (TRef.of (T := ⟨S131072x64, .f32⟩) main_v18) (TRef.of (T := ⟨S131072x63, .f32⟩) main_call7_v0) (extractStridedSlice S131072x63 ![0, 1] · slices_S131072x64_S131072x63_0_1),
    TRef.unary (TRef.of (T := ⟨S131072x64, .f32⟩) main_v18) (TRef.of (T := ⟨S131072x1, .f32⟩) main_call7_v1) (extractStridedSlice S131072x1 ![0, 0] · slices_S131072x64_S131072x1_0_0),
    TRef.binary (TRef.of (T := ⟨S131072x63, .f32⟩) main_call7_v0) (TRef.of (T := ⟨S131072x1, .f32⟩) main_call7_v1) (TRef.of (T := ⟨S131072x64, .f32⟩) main_v21) (fun a b => concatenate S131072x64 1 [⟨S131072x63, a⟩, ⟨S131072x1, b⟩] concatenates_S131072x63_S131072x1_S131072x64_d1),
    reshape main_v21 main_v22 rfl shapeCasts_S131072x64_S16384x8x64,
    unary main_v22 main_v23 ((extractStridedSlice S16384x7x64 ![0, 1, 0] · slices_S16384x8x64_S16384x7x64_0_1_0) : (⟨S16384x8x64, .f32⟩ : BufTy).Contents (Elt F) → (⟨S16384x7x64, .f32⟩ : BufTy).Contents (Elt F)) ]

/-- The buffers these operations write, one each, in order. -/
abbrev opsA2_r8_w : List (Ref sig .tc) := [main_call7_v0, main_call7_v1, main_v21, main_v22, main_v23]

/-- Each of them writes its one result buffer, which is on that list. -/
theorem opsA2_r8_writes : (opsA2_r8 : List (HloOp τ sig (Elt F))).Forall fun op => op.writes ⊆ (opsA2_r8_w.map (Proc.devRef (τ := τ) .tc)).toFinset :=
  ⟨single_sub_writesA2 (by decide), single_sub_writesA2 (by decide), single_sub_writesA2 (by decide), single_sub_writesA2 (by decide), single_sub_writesA2 (by decide)⟩

/-- A buffer they do not write keeps its contents. -/
theorem opsA2_r8_keeps (V : Valuation τ sig (Elt F)) (b : Ref sig .tc) (hb : b ∉ opsA2_r8_w) :
    after (opsA2_r8 (F := F)) V (Proc.devRef .tc b) = V (Proc.devRef .tc b) :=
  after_of_writes_sub opsA2_r8 V opsA2_r8_writes hb

/-- From the previous rotation the five operations leave the next rotation and its cut piece. -/
theorem opsA2_r8_after (V : Valuation τ sig (Elt F)) (x0 : (⟨S131072x64, .f32⟩ : BufTy).Contents (Elt F))
    (h : V (Proc.devRef .tc main_v18) = val_main_v18 (F := F) x0) :
    after (opsA2_r8 (F := F)) V (Proc.devRef .tc main_v21) = val_main_v21 (F := F) x0
      ∧ after (opsA2_r8 (F := F)) V (Proc.devRef .tc main_v23) = val_main_v23 (F := F) x0 := by
  constructor
  · simp only [after_cons, after_nil]
    results_loop
    rw [h]
    rfl
  · simp only [after_cons, after_nil]
    results_loop
    rw [h]
    rfl

/-- Rotation nine, the join of the eight cut pieces, and its view as seven neighbour rows per agent. -/
abbrev opsA2_t : List (HloOp τ sig (Elt F)) :=
  [ TRef.unary (TRef.of (T := ⟨S131072x64, .f32⟩) main_v21) (TRef.of (T := ⟨S131072x63, .f32⟩) main_call8_v0) (extractStridedSlice S131072x63 ![0, 1] · slices_S131072x64_S131072x63_0_1),
    TRef.unary (TRef.of (T := ⟨S131072x64, .f32⟩) main_v21) (TRef.of (T := ⟨S131072x1, .f32⟩) main_call8_v1) (extractStridedSlice S131072x1 ![0, 0] · slices_S131072x64_S131072x1_0_0),
    TRef.binary (TRef.of (T := ⟨S131072x63, .f32⟩) main_call8_v0) (TRef.of (T := ⟨S131072x1, .f32⟩) main_call8_v1) (TRef.of (T := ⟨S131072x64, .f32⟩) main_v24) (fun a b => concatenate S131072x64 1 [⟨S131072x63, a⟩, ⟨S131072x1, b⟩] concatenates_S131072x63_S131072x1_S131072x64_d1),
    nary ![main_v2, main_v5, main_v8, main_v11, main_v14, main_v17, main_v20, main_v23] main_v25 (fun u => concatenate S16384x56x64 1 [⟨S16384x7x64, u 0⟩, ⟨S16384x7x64, u 1⟩, ⟨S16384x7x64, u 2⟩, ⟨S16384x7x64, u 3⟩, ⟨S16384x7x64, u 4⟩, ⟨S16384x7x64, u 5⟩, ⟨S16384x7x64, u 6⟩, ⟨S16384x7x64, u 7⟩] concatenates_S16384x7x64_S16384x7x64_S16384x7x64_S16384x7x64_S16384x7x64_S16384x7x64_S16384x7x64_S16384x7x64_S16384x56x64_d1),
    reshape main_v25 main_v26 rfl shapeCasts_S16384x56x64_S131072x7x64 ]

/-- The buffers these operations write, one each, in order. -/
abbrev opsA2_t_w : List (Ref sig .tc) := [main_call8_v0, main_call8_v1, main_v24, main_v25, main_v26]

/-- Each of them writes its one result buffer, which is on that list. -/
theorem opsA2_t_writes : (opsA2_t : List (HloOp τ sig (Elt F))).Forall fun op => op.writes ⊆ (opsA2_t_w.map (Proc.devRef (τ := τ) .tc)).toFinset :=
  ⟨single_sub_writesA2 (by decide), single_sub_writesA2 (by decide), single_sub_writesA2 (by decide), single_sub_writesA2 (by decide), single_sub_writesA2 (by decide)⟩

/-- A buffer they do not write keeps its contents. -/
theorem opsA2_t_keeps (V : Valuation τ sig (Elt F)) (b : Ref sig .tc) (hb : b ∉ opsA2_t_w) :
    after (opsA2_t (F := F)) V (Proc.devRef .tc b) = V (Proc.devRef .tc b) :=
  after_of_writes_sub opsA2_t V opsA2_t_writes hb

/-- From the eight cut pieces the last part leaves the joined stage. -/
theorem opsA2_t_after (V : Valuation τ sig (Elt F)) (x0 : (⟨S131072x64, .f32⟩ : BufTy).Contents (Elt F))
    (h2 : V (Proc.devRef .tc main_v2) = val_main_v2 (F := F) x0)
    (h5 : V (Proc.devRef .tc main_v5) = val_main_v5 (F := F) x0)
    (h8 : V (Proc.devRef .tc main_v8) = val_main_v8 (F := F) x0)
    (h11 : V (Proc.devRef .tc main_v11) = val_main_v11 (F := F) x0)
    (h14 : V (Proc.devRef .tc main_v14) = val_main_v14 (F := F) x0)
    (h17 : V (Proc.devRef .tc main_v17) = val_main_v17 (F := F) x0)
    (h20 : V (Proc.devRef .tc main_v20) = val_main_v20 (F := F) x0)
    (h23 : V (Proc.devRef .tc main_v23) = val_main_v23 (F := F) x0) :
    after (opsA2_t (F := F)) V (Proc.devRef .tc main_v26) = val_main_v26 (F := F) x0 := by
  simp only [after_cons, after_nil]
  results_loop
  rw [h2, h5, h8, h11, h14, h17, h20, h23]
  rfl

/-- The twenty operations are the four parts in order. -/
theorem opsA2_eq : (opsA2 : List (HloOp τ sig (Elt F))) = opsA2_r6 ++ (opsA2_r7 ++ (opsA2_r8 ++ opsA2_t)) := rfl

/-- After the stretch the last buffer holds the joined stage: the eight cut pieces side by side along the neighbour
    axis, seen as seven neighbour rows per agent. -/
theorem afterA2 (W : Valuation τ sig (Elt F)) (x0 : (⟨S131072x64, .f32⟩ : BufTy).Contents (Elt F))
    (h12 : W (Proc.devRef .tc main_v12) = val_main_v12 (F := F) x0)
    (h2 : W (Proc.devRef .tc main_v2) = val_main_v2 (F := F) x0)
    (h5 : W (Proc.devRef .tc main_v5) = val_main_v5 (F := F) x0)
    (h8 : W (Proc.devRef .tc main_v8) = val_main_v8 (F := F) x0)
    (h11 : W (Proc.devRef .tc main_v11) = val_main_v11 (F := F) x0)
    (h14 : W (Proc.devRef .tc main_v14) = val_main_v14 (F := F) x0) :
    after (opsA2 (F := F)) W (Proc.devRef .tc main_v26) = val_main_v26 (F := F) x0 := by
  rw [opsA2_eq, after_split_A2, after_split_A2, after_split_A2]
  have a6 := opsA2_r6_after W x0 h12
  have a7 := opsA2_r7_after (after opsA2_r6 W) x0 a6.1
  have a8 := opsA2_r8_after (after opsA2_r7 (after opsA2_r6 W)) x0 a7.1
  refine opsA2_t_after _ x0 ?_ ?_ ?_ ?_ ?_ ?_ ?_ ?_
  · rw [opsA2_r8_keeps _ _ (by decide), opsA2_r7_keeps _ _ (by decide), opsA2_r6_keeps _ _ (by decide)]; exact h2
  · rw [opsA2_r8_keeps _ _ (by decide), opsA2_r7_keeps _ _ (by decide), opsA2_r6_keeps _ _ (by decide)]; exact h5
  · rw [opsA2_r8_keeps _ _ (by decide), opsA2_r7_keeps _ _ (by decide), opsA2_r6_keeps _ _ (by decide)]; exact h8
  · rw [opsA2_r8_keeps _ _ (by decide), opsA2_r7_keeps _ _ (by decide), opsA2_r6_keeps _ _ (by decide)]; exact h11
  · rw [opsA2_r8_keeps _ _ (by decide), opsA2_r7_keeps _ _ (by decide), opsA2_r6_keeps _ _ (by decide)]; exact h14
  · rw [opsA2_r8_keeps _ _ (by decide), opsA2_r7_keeps _ _ (by decide)]; exact a6.2
  · rw [opsA2_r8_keeps _ _ (by decide)]; exact a7.2
  · exact a8.2

end Cert.ReferenceIdeal.RunH

end
-- ==== Proof.RefRunB.lean ====
import proofs.«110319_j38714835206233_1_alg».proof.Proof.RefRead
import Idealize.ShloMosaic.Lib.StableHlo.Run

/-!
# The reference's last 34 operations, read back

The reference's operations after the stack of rotated copies is built: four stretches — the first dense layer, the
neighbour layer and its mean, the second dense layer over the two joined, the output layer — each computing one
buffer from buffers before it. For any contents `W` before them, the result buffer afterwards holds the last stage
`val_main_v52` of the nine arguments, given that `W` holds the arguments and the stack's stage; and a buffer none
of them writes keeps what `W` had.
-/

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The last 34 operations of the reference, in order: the first dense layer with its bias and its clamp at zero,
    the neighbour layer over the nine rotated copies with its bias, its clamp at zero and its mean over the seven
    neighbours, the two joined side by side, the second dense layer with its bias and clamp, and the output layer
    with its bias. -/
abbrev opsB : List (HloOp τ sig (Elt F)) :=
  [
    unary main_arg1 main_v27 ((transpose S64x128 [1, 0] · transposes_S128x64_S64x128_1_0) : (⟨S128x64, .f32⟩ : BufTy).Contents (Elt F) → (⟨S64x128, .f32⟩ : BufTy).Contents (Elt F)),
    binary main_arg0 main_v27 main_v28 ((fun l r => Host.dotGeneral dot_S131072x64_S64x128_S131072x128_1_0_0_1_n_n none l r) : (⟨S131072x64, .f32⟩ : BufTy).Contents (Elt F) → (⟨S64x128, .f32⟩ : BufTy).Contents (Elt F) → (⟨S131072x128, .f32⟩ : BufTy).Contents (Elt F)),
    unary main_arg2 main_v29 (broadcastInDim S1x128 ![1] bcast_S128_S1x128_1 : (⟨S128, .f32⟩ : BufTy).Contents (Elt F) → (⟨S1x128, .f32⟩ : BufTy).Contents (Elt F)),
    unary main_v29 main_v30 (broadcastInDim S131072x128 ![0, 1] bcast_S1x128_S131072x128_0_1 : (⟨S1x128, .f32⟩ : BufTy).Contents (Elt F) → (⟨S131072x128, .f32⟩ : BufTy).Contents (Elt F)),
    binary main_v28 main_v30 main_v31 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S131072x128, .f32⟩) main_call9_v0) (broadcastInDim S131072x128 ![] bcast_S_S131072x128),
    TRef.binary (TRef.of (T := ⟨S131072x128, .f32⟩) main_v31) (TRef.of (T := ⟨S131072x128, .f32⟩) main_call9_v0) (TRef.of (T := ⟨S131072x128, .f32⟩) main_v32) maximumf,
    binary main_v26 main_arg3 main_v33 ((fun l r => Host.dotGeneral dot_S131072x7x64_S128x64_S131072x7x128_2_1_01_0_n_n none l r) : (⟨S131072x7x64, .f32⟩ : BufTy).Contents (Elt F) → (⟨S128x64, .f32⟩ : BufTy).Contents (Elt F) → (⟨S131072x7x128, .f32⟩ : BufTy).Contents (Elt F)),
    unary main_arg4 main_v34 (broadcastInDim S1x1x128 ![2] bcast_S128_S1x1x128_2 : (⟨S128, .f32⟩ : BufTy).Contents (Elt F) → (⟨S1x1x128, .f32⟩ : BufTy).Contents (Elt F)),
    unary main_v34 main_v35 (broadcastInDim S131072x7x128 ![0, 1, 2] bcast_S1x1x128_S131072x7x128_0_1_2 : (⟨S1x1x128, .f32⟩ : BufTy).Contents (Elt F) → (⟨S131072x7x128, .f32⟩ : BufTy).Contents (Elt F)),
    binary main_v33 main_v35 main_v36 (addf : (⟨S131072x7x128, .f32⟩ : BufTy).Contents (Elt F) → (⟨S131072x7x128, .f32⟩ : BufTy).Contents (Elt F) → (⟨S131072x7x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S131072x7x128, .f32⟩) main_call10_v0) (broadcastInDim S131072x7x128 ![] bcast_S_S131072x7x128),
    TRef.binary (TRef.of (T := ⟨S131072x7x128, .f32⟩) main_v36) (TRef.of (T := ⟨S131072x7x128, .f32⟩) main_call10_v0) (TRef.of (T := ⟨S131072x7x128, .f32⟩) main_v37) maximumf,
    nullary main_cst (constant S_ .f32 0x00000000#32),
    binary main_v37 main_cst main_v38 ((fun x v => Host.reduceAdd x v reducesTo_S131072x7x128_S131072x128_d1 h_S_) : (⟨S131072x7x128, .f32⟩ : BufTy).Contents (Elt F) → (⟨S_, .f32⟩ : BufTy).Contents (Elt F) → (⟨S131072x128, .f32⟩ : BufTy).Contents (Elt F)),
    nullary main_cst_0 (constant S_ .f32 0x41000000#32),
    unary main_cst_0 main_v39 (broadcastInDim S131072x128 ![] bcast_S_S131072x128 : (⟨S_, .f32⟩ : BufTy).Contents (Elt F) → (⟨S131072x128, .f32⟩ : BufTy).Contents (Elt F)),
    binary main_v38 main_v39 main_v40 (Host.divf : (⟨S131072x128, .f32⟩ : BufTy).Contents (Elt F) → (⟨S131072x128, .f32⟩ : BufTy).Contents (Elt F) → (⟨S131072x128, .f32⟩ : BufTy).Contents (Elt F)),
    binary main_v32 main_v40 main_v41 ((fun a b => concatenate S131072x256 1 [⟨S131072x128, a⟩, ⟨S131072x128, b⟩] concatenates_S131072x128_S131072x128_S131072x256_d1) : (⟨S131072x128, .f32⟩ : BufTy).Contents (Elt F) → (⟨S131072x128, .f32⟩ : BufTy).Contents (Elt F) → (⟨S131072x256, .f32⟩ : BufTy).Contents (Elt F)),
    unary main_arg5 main_v42 ((transpose S256x128 [1, 0] · transposes_S128x256_S256x128_1_0) : (⟨S128x256, .f32⟩ : BufTy).Contents (Elt F) → (⟨S256x128, .f32⟩ : BufTy).Contents (Elt F)),
    binary main_v41 main_v42 main_v43 ((fun l r => Host.dotGeneral dot_S131072x256_S256x128_S131072x128_1_0_0_1_n_n none l r) : (⟨S131072x256, .f32⟩ : BufTy).Contents (Elt F) → (⟨S256x128, .f32⟩ : BufTy).Contents (Elt F) → (⟨S131072x128, .f32⟩ : BufTy).Contents (Elt F)),
    unary main_arg6 main_v44 (broadcastInDim S1x128 ![1] bcast_S128_S1x128_1 : (⟨S128, .f32⟩ : BufTy).Contents (Elt F) → (⟨S1x128, .f32⟩ : BufTy).Contents (Elt F)),
    unary main_v44 main_v45 (broadcastInDim S131072x128 ![0, 1] bcast_S1x128_S131072x128_0_1 : (⟨S1x128, .f32⟩ : BufTy).Contents (Elt F) → (⟨S131072x128, .f32⟩ : BufTy).Contents (Elt F)),
    binary main_v43 main_v45 main_v46 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S131072x128, .f32⟩) main_call11_v0) (broadcastInDim S131072x128 ![] bcast_S_S131072x128),
    TRef.binary (TRef.of (T := ⟨S131072x128, .f32⟩) main_v46) (TRef.of (T := ⟨S131072x128, .f32⟩) main_call11_v0) (TRef.of (T := ⟨S131072x128, .f32⟩) main_v47) maximumf,
    unary main_arg7 main_v48 ((transpose S128x16 [1, 0] · transposes_S16x128_S128x16_1_0) : (⟨S16x128, .f32⟩ : BufTy).Contents (Elt F) → (⟨S128x16, .f32⟩ : BufTy).Contents (Elt F)),
    binary main_v47 main_v48 main_v49 ((fun l r => Host.dotGeneral dot_S131072x128_S128x16_S131072x16_1_0_0_1_n_n none l r) : (⟨S131072x128, .f32⟩ : BufTy).Contents (Elt F) → (⟨S128x16, .f32⟩ : BufTy).Contents (Elt F) → (⟨S131072x16, .f32⟩ : BufTy).Contents (Elt F)),
    unary main_arg8 main_v50 (broadcastInDim S1x16 ![1] bcast_S16_S1x16_1 : (⟨S16, .f32⟩ : BufTy).Contents (Elt F) → (⟨S1x16, .f32⟩ : BufTy).Contents (Elt F)),
    unary main_v50 main_v51 (broadcastInDim S131072x16 ![0, 1] bcast_S1x16_S131072x16_0_1 : (⟨S1x16, .f32⟩ : BufTy).Contents (Elt F) → (⟨S131072x16, .f32⟩ : BufTy).Contents (Elt F)),
    binary main_v49 main_v51 main_v52 (addf : (⟨S131072x16, .f32⟩ : BufTy).Contents (Elt F) → (⟨S131072x16, .f32⟩ : BufTy).Contents (Elt F) → (⟨S131072x16, .f32⟩ : BufTy).Contents (Elt F)) ]

/-- Each touches TensorCore references only. -/
theorem opsB_sub : (opsB : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-- None of them allocates a buffer of its own. -/
theorem opsB_fresh : (opsB : List (HloOp τ sig (Elt F))).Forall fun op => op.fresh = ∅ := by
  simp only [List.Forall]; repeat' constructor

/-- Running two stretches of operations one after the other is running their concatenation. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first dense layer: the input times the transposed first weights, plus the first bias repeated along the rows, clamped below at zero. -/
abbrev opsB1 : List (HloOp τ sig (Elt F)) :=
  [
    unary main_arg1 main_v27 ((transpose S64x128 [1, 0] · transposes_S128x64_S64x128_1_0) : (⟨S128x64, .f32⟩ : BufTy).Contents (Elt F) → (⟨S64x128, .f32⟩ : BufTy).Contents (Elt F)),
    binary main_arg0 main_v27 main_v28 ((fun l r => Host.dotGeneral dot_S131072x64_S64x128_S131072x128_1_0_0_1_n_n none l r) : (⟨S131072x64, .f32⟩ : BufTy).Contents (Elt F) → (⟨S64x128, .f32⟩ : BufTy).Contents (Elt F) → (⟨S131072x128, .f32⟩ : BufTy).Contents (Elt F)),
    unary main_arg2 main_v29 (broadcastInDim S1x128 ![1] bcast_S128_S1x128_1 : (⟨S128, .f32⟩ : BufTy).Contents (Elt F) → (⟨S1x128, .f32⟩ : BufTy).Contents (Elt F)),
    unary main_v29 main_v30 (broadcastInDim S131072x128 ![0, 1] bcast_S1x128_S131072x128_0_1 : (⟨S1x128, .f32⟩ : BufTy).Contents (Elt F) → (⟨S131072x128, .f32⟩ : BufTy).Contents (Elt F)),
    binary main_v28 main_v30 main_v31 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S131072x128, .f32⟩) main_call9_v0) (broadcastInDim S131072x128 ![] bcast_S_S131072x128),
    TRef.binary (TRef.of (T := ⟨S131072x128, .f32⟩) main_v31) (TRef.of (T := ⟨S131072x128, .f32⟩) main_call9_v0) (TRef.of (T := ⟨S131072x128, .f32⟩) main_v32) maximumf ]

/-- The buffers this stretch writes, in order. -/
abbrev writesB1 : List (Ref sig .tc) := [main_v27, main_v28, main_v29, main_v30, main_v31, main_call9_cst, main_call9_v0, main_v32]

/-- Every operation of the stretch writes one buffer, and it is in the list. -/
theorem opsB1_writes : (opsB1 : List (HloOp τ sig (Elt F))).Forall fun op =>
    op.writes ⊆ ((writesB1).map (Proc.devRef (τ := τ) .tc)).toFinset := by
  simp only [List.Forall, nullary_writes, unary_writes, binary_writes, Finset.singleton_subset_iff, List.mem_toFinset]
  repeat' apply And.intro
  all_goals exact List.mem_map.mpr ⟨_, by decide, rfl⟩

/-- A buffer the stretch does not write keeps its contents. -/
theorem afterB1_keeps (W : Valuation τ sig (Elt F)) (b : Ref sig .tc) (hb : b ∉ writesB1) :
    after opsB1 W (Proc.devRef .tc b) = W (Proc.devRef .tc b) :=
  after_of_writes_sub opsB1 W opsB1_writes hb

/-- The neighbour layer: the stacked rotated copies times the neighbour weights, plus the neighbour bias repeated along the rows and the neighbour axis, clamped below at zero, summed over the neighbour axis of seven and divided by the constant eight. -/
abbrev opsB2 : List (HloOp τ sig (Elt F)) :=
  [
    binary main_v26 main_arg3 main_v33 ((fun l r => Host.dotGeneral dot_S131072x7x64_S128x64_S131072x7x128_2_1_01_0_n_n none l r) : (⟨S131072x7x64, .f32⟩ : BufTy).Contents (Elt F) → (⟨S128x64, .f32⟩ : BufTy).Contents (Elt F) → (⟨S131072x7x128, .f32⟩ : BufTy).Contents (Elt F)),
    unary main_arg4 main_v34 (broadcastInDim S1x1x128 ![2] bcast_S128_S1x1x128_2 : (⟨S128, .f32⟩ : BufTy).Contents (Elt F) → (⟨S1x1x128, .f32⟩ : BufTy).Contents (Elt F)),
    unary main_v34 main_v35 (broadcastInDim S131072x7x128 ![0, 1, 2] bcast_S1x1x128_S131072x7x128_0_1_2 : (⟨S1x1x128, .f32⟩ : BufTy).Contents (Elt F) → (⟨S131072x7x128, .f32⟩ : BufTy).Contents (Elt F)),
    binary main_v33 main_v35 main_v36 (addf : (⟨S131072x7x128, .f32⟩ : BufTy).Contents (Elt F) → (⟨S131072x7x128, .f32⟩ : BufTy).Contents (Elt F) → (⟨S131072x7x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S131072x7x128, .f32⟩) main_call10_v0) (broadcastInDim S131072x7x128 ![] bcast_S_S131072x7x128),
    TRef.binary (TRef.of (T := ⟨S131072x7x128, .f32⟩) main_v36) (TRef.of (T := ⟨S131072x7x128, .f32⟩) main_call10_v0) (TRef.of (T := ⟨S131072x7x128, .f32⟩) main_v37) maximumf,
    nullary main_cst (constant S_ .f32 0x00000000#32),
    binary main_v37 main_cst main_v38 ((fun x v => Host.reduceAdd x v reducesTo_S131072x7x128_S131072x128_d1 h_S_) : (⟨S131072x7x128, .f32⟩ : BufTy).Contents (Elt F) → (⟨S_, .f32⟩ : BufTy).Contents (Elt F) → (⟨S131072x128, .f32⟩ : BufTy).Contents (Elt F)),
    nullary main_cst_0 (constant S_ .f32 0x41000000#32),
    unary main_cst_0 main_v39 (broadcastInDim S131072x128 ![] bcast_S_S131072x128 : (⟨S_, .f32⟩ : BufTy).Contents (Elt F) → (⟨S131072x128, .f32⟩ : BufTy).Contents (Elt F)),
    binary main_v38 main_v39 main_v40 (Host.divf : (⟨S131072x128, .f32⟩ : BufTy).Contents (Elt F) → (⟨S131072x128, .f32⟩ : BufTy).Contents (Elt F) → (⟨S131072x128, .f32⟩ : BufTy).Contents (Elt F)) ]

/-- The buffers this stretch writes, in order. -/
abbrev writesB2 : List (Ref sig .tc) := [main_v33, main_v34, main_v35, main_v36, main_call10_cst, main_call10_v0, main_v37, main_cst, main_v38, main_cst_0, main_v39, main_v40]

/-- Every operation of the stretch writes one buffer, and it is in the list. -/
theorem opsB2_writes : (opsB2 : List (HloOp τ sig (Elt F))).Forall fun op =>
    op.writes ⊆ ((writesB2).map (Proc.devRef (τ := τ) .tc)).toFinset := by
  simp only [List.Forall, nullary_writes, unary_writes, binary_writes, Finset.singleton_subset_iff, List.mem_toFinset]
  repeat' apply And.intro
  all_goals exact List.mem_map.mpr ⟨_, by decide, rfl⟩

/-- A buffer the stretch does not write keeps its contents. -/
theorem afterB2_keeps (W : Valuation τ sig (Elt F)) (b : Ref sig .tc) (hb : b ∉ writesB2) :
    after opsB2 W (Proc.devRef .tc b) = W (Proc.devRef .tc b) :=
  after_of_writes_sub opsB2 W opsB2_writes hb

/-- The two layers' results joined side by side, times the transposed second weights, plus the second bias repeated along the rows, clamped below at zero. -/
abbrev opsB3 : List (HloOp τ sig (Elt F)) :=
  [
    binary main_v32 main_v40 main_v41 ((fun a b => concatenate S131072x256 1 [⟨S131072x128, a⟩, ⟨S131072x128, b⟩] concatenates_S131072x128_S131072x128_S131072x256_d1) : (⟨S131072x128, .f32⟩ : BufTy).Contents (Elt F) → (⟨S131072x128, .f32⟩ : BufTy).Contents (Elt F) → (⟨S131072x256, .f32⟩ : BufTy).Contents (Elt F)),
    unary main_arg5 main_v42 ((transpose S256x128 [1, 0] · transposes_S128x256_S256x128_1_0) : (⟨S128x256, .f32⟩ : BufTy).Contents (Elt F) → (⟨S256x128, .f32⟩ : BufTy).Contents (Elt F)),
    binary main_v41 main_v42 main_v43 ((fun l r => Host.dotGeneral dot_S131072x256_S256x128_S131072x128_1_0_0_1_n_n none l r) : (⟨S131072x256, .f32⟩ : BufTy).Contents (Elt F) → (⟨S256x128, .f32⟩ : BufTy).Contents (Elt F) → (⟨S131072x128, .f32⟩ : BufTy).Contents (Elt F)),
    unary main_arg6 main_v44 (broadcastInDim S1x128 ![1] bcast_S128_S1x128_1 : (⟨S128, .f32⟩ : BufTy).Contents (Elt F) → (⟨S1x128, .f32⟩ : BufTy).Contents (Elt F)),
    unary main_v44 main_v45 (broadcastInDim S131072x128 ![0, 1] bcast_S1x128_S131072x128_0_1 : (⟨S1x128, .f32⟩ : BufTy).Contents (Elt F) → (⟨S131072x128, .f32⟩ : BufTy).Contents (Elt F)),
    binary main_v43 main_v45 main_v46 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S131072x128, .f32⟩) main_call11_v0) (broadcastInDim S131072x128 ![] bcast_S_S131072x128),
    TRef.binary (TRef.of (T := ⟨S131072x128, .f32⟩) main_v46) (TRef.of (T := ⟨S131072x128, .f32⟩) main_call11_v0) (TRef.of (T := ⟨S131072x128, .f32⟩) main_v47) maximumf ]

/-- The buffers this stretch writes, in order. -/
abbrev writesB3 : List (Ref sig .tc) := [main_v41, main_v42, main_v43, main_v44, main_v45, main_v46, main_call11_cst, main_call11_v0, main_v47]

/-- Every operation of the stretch writes one buffer, and it is in the list. -/
theorem opsB3_writes : (opsB3 : List (HloOp τ sig (Elt F))).Forall fun op =>
    op.writes ⊆ ((writesB3).map (Proc.devRef (τ := τ) .tc)).toFinset := by
  simp only [List.Forall, nullary_writes, unary_writes, binary_writes, Finset.singleton_subset_iff, List.mem_toFinset]
  repeat' apply And.intro
  all_goals exact List.mem_map.mpr ⟨_, by decide, rfl⟩

/-- A buffer the stretch does not write keeps its contents. -/
theorem afterB3_keeps (W : Valuation τ sig (Elt F)) (b : Ref sig .tc) (hb : b ∉ writesB3) :
    after opsB3 W (Proc.devRef .tc b) = W (Proc.devRef .tc b) :=
  after_of_writes_sub opsB3 W opsB3_writes hb

/-- The output layer: times the transposed output weights, plus the output bias repeated along the rows. -/
abbrev opsB4 : List (HloOp τ sig (Elt F)) :=
  [
    unary main_arg7 main_v48 ((transpose S128x16 [1, 0] · transposes_S16x128_S128x16_1_0) : (⟨S16x128, .f32⟩ : BufTy).Contents (Elt F) → (⟨S128x16, .f32⟩ : BufTy).Contents (Elt F)),
    binary main_v47 main_v48 main_v49 ((fun l r => Host.dotGeneral dot_S131072x128_S128x16_S131072x16_1_0_0_1_n_n none l r) : (⟨S131072x128, .f32⟩ : BufTy).Contents (Elt F) → (⟨S128x16, .f32⟩ : BufTy).Contents (Elt F) → (⟨S131072x16, .f32⟩ : BufTy).Contents (Elt F)),
    unary main_arg8 main_v50 (broadcastInDim S1x16 ![1] bcast_S16_S1x16_1 : (⟨S16, .f32⟩ : BufTy).Contents (Elt F) → (⟨S1x16, .f32⟩ : BufTy).Contents (Elt F)),
    unary main_v50 main_v51 (broadcastInDim S131072x16 ![0, 1] bcast_S1x16_S131072x16_0_1 : (⟨S1x16, .f32⟩ : BufTy).Contents (Elt F) → (⟨S131072x16, .f32⟩ : BufTy).Contents (Elt F)),
    binary main_v49 main_v51 main_v52 (addf : (⟨S131072x16, .f32⟩ : BufTy).Contents (Elt F) → (⟨S131072x16, .f32⟩ : BufTy).Contents (Elt F) → (⟨S131072x16, .f32⟩ : BufTy).Contents (Elt F)) ]

/-- The buffers this stretch writes, in order. -/
abbrev writesB4 : List (Ref sig .tc) := [main_v48, main_v49, main_v50, main_v51, main_v52]

/-- Every operation of the stretch writes one buffer, and it is in the list. -/
theorem opsB4_writes : (opsB4 : List (HloOp τ sig (Elt F))).Forall fun op =>
    op.writes ⊆ ((writesB4).map (Proc.devRef (τ := τ) .tc)).toFinset := by
  simp only [List.Forall, nullary_writes, unary_writes, binary_writes, Finset.singleton_subset_iff, List.mem_toFinset]
  repeat' apply And.intro
  all_goals exact List.mem_map.mpr ⟨_, by decide, rfl⟩

/-- A buffer the stretch does not write keeps its contents. -/
theorem afterB4_keeps (W : Valuation τ sig (Elt F)) (b : Ref sig .tc) (hb : b ∉ writesB4) :
    after opsB4 W (Proc.devRef .tc b) = W (Proc.devRef .tc b) :=
  after_of_writes_sub opsB4 W opsB4_writes hb

/-! ## The four stretches, each over any contents before it -/

set_option maxRecDepth 8192 in
/-- After the first stretch the first layer's buffer holds its stage of the arguments. -/
theorem afterB1 (W : Valuation τ sig (Elt F)) (x0 : (⟨S131072x64, .f32⟩ : BufTy).Contents (Elt F)) (x1 : (⟨S128x64, .f32⟩ : BufTy).Contents (Elt F)) (x2 : (⟨S128, .f32⟩ : BufTy).Contents (Elt F)) (h0 : W (Proc.devRef .tc main_arg0) = x0) (h1 : W (Proc.devRef .tc main_arg1) = x1) (h2 : W (Proc.devRef .tc main_arg2) = x2) :
    after opsB1 W (Proc.devRef .tc main_v32) = val_main_v32 (F := F) x0 x1 x2 := by
  after_results
  rw [h0, h1, h2]
  unfold val_main_v32 val_main_v31 val_main_v30 val_main_v29 val_main_v28 val_main_v27 val_main_call9_v0 val_main_call9_cst
  rfl

set_option maxRecDepth 8192 in
/-- After the second stretch the neighbour layer's buffer holds its stage of the arguments, given the stack of
    rotated copies at its stage. -/
theorem afterB2 (W : Valuation τ sig (Elt F)) (x0 : (⟨S131072x64, .f32⟩ : BufTy).Contents (Elt F)) (x3 : (⟨S128x64, .f32⟩ : BufTy).Contents (Elt F)) (x4 : (⟨S128, .f32⟩ : BufTy).Contents (Elt F))
    (h26 : W (Proc.devRef .tc main_v26) = val_main_v26 (F := F) x0) (h3 : W (Proc.devRef .tc main_arg3) = x3) (h4 : W (Proc.devRef .tc main_arg4) = x4) :
    after opsB2 W (Proc.devRef .tc main_v40) = val_main_v40 (F := F) x0 x3 x4 := by
  after_results
  rw [h26, h3, h4]
  unfold val_main_v40 val_main_v39 val_main_cst_0 val_main_v38 val_main_cst val_main_v37 val_main_call10_v0 val_main_call10_cst val_main_v36 val_main_v35 val_main_v34 val_main_v33
  rfl

set_option maxRecDepth 8192 in
/-- After the third stretch the second layer's buffer holds its stage of the arguments, given the two layers
    before it at their stages. -/
theorem afterB3 (W : Valuation τ sig (Elt F)) (x0 : (⟨S131072x64, .f32⟩ : BufTy).Contents (Elt F)) (x1 : (⟨S128x64, .f32⟩ : BufTy).Contents (Elt F)) (x2 : (⟨S128, .f32⟩ : BufTy).Contents (Elt F)) (x3 : (⟨S128x64, .f32⟩ : BufTy).Contents (Elt F)) (x4 : (⟨S128, .f32⟩ : BufTy).Contents (Elt F)) (x5 : (⟨S128x256, .f32⟩ : BufTy).Contents (Elt F)) (x6 : (⟨S128, .f32⟩ : BufTy).Contents (Elt F))
    (h32 : W (Proc.devRef .tc main_v32) = val_main_v32 (F := F) x0 x1 x2)
    (h40 : W (Proc.devRef .tc main_v40) = val_main_v40 (F := F) x0 x3 x4) (h5 : W (Proc.devRef .tc main_arg5) = x5) (h6 : W (Proc.devRef .tc main_arg6) = x6) :
    after opsB3 W (Proc.devRef .tc main_v47) = val_main_v47 (F := F) x0 x1 x2 x3 x4 x5 x6 := by
  after_results
  rw [h32, h40, h5, h6]
  unfold val_main_v47 val_main_call11_v0 val_main_call11_cst val_main_v46 val_main_v45 val_main_v44 val_main_v43 val_main_v42 val_main_v41
  rfl

set_option maxRecDepth 8192 in
/-- After the fourth stretch the result buffer holds the last stage, given the second layer at its stage. -/
theorem afterB4 (W : Valuation τ sig (Elt F)) (x0 : (⟨S131072x64, .f32⟩ : BufTy).Contents (Elt F)) (x1 : (⟨S128x64, .f32⟩ : BufTy).Contents (Elt F)) (x2 : (⟨S128, .f32⟩ : BufTy).Contents (Elt F)) (x3 : (⟨S128x64, .f32⟩ : BufTy).Contents (Elt F)) (x4 : (⟨S128, .f32⟩ : BufTy).Contents (Elt F)) (x5 : (⟨S128x256, .f32⟩ : BufTy).Contents (Elt F)) (x6 : (⟨S128, .f32⟩ : BufTy).Contents (Elt F)) (x7 : (⟨S16x128, .f32⟩ : BufTy).Contents (Elt F)) (x8 : (⟨S16, .f32⟩ : BufTy).Contents (Elt F))
    (h47 : W (Proc.devRef .tc main_v47) = val_main_v47 (F := F) x0 x1 x2 x3 x4 x5 x6) (h7 : W (Proc.devRef .tc main_arg7) = x7) (h8 : W (Proc.devRef .tc main_arg8) = x8) :
    after opsB4 W (Proc.devRef .tc main_v52) = val_main_v52 (F := F) x0 x1 x2 x3 x4 x5 x6 x7 x8 := by
  after_results
  rw [h47, h7, h8]
  unfold val_main_v52 val_main_v51 val_main_v50 val_main_v49 val_main_v48
  rfl

/-! ## The whole part -/

/-- The 34 operations are the four stretches in order. -/
theorem opsB_eq : (opsB : List (HloOp τ sig (Elt F))) = opsB1 ++ (opsB2 ++ (opsB3 ++ opsB4)) := rfl

/-- The buffers the 34 operations write, in order. -/
abbrev writesB : List (Ref sig .tc) := [main_v27, main_v28, main_v29, main_v30, main_v31, main_call9_cst, main_call9_v0, main_v32, main_v33, main_v34, main_v35, main_v36, main_call10_cst, main_call10_v0, main_v37, main_cst, main_v38, main_cst_0, main_v39, main_v40, main_v41, main_v42, main_v43, main_v44, main_v45, main_v46, main_call11_cst, main_call11_v0, main_v47, main_v48, main_v49, main_v50, main_v51, main_v52]

/-- Every one of the 34 operations writes one buffer, and it is in the list. -/
theorem opsB_writes : (opsB : List (HloOp τ sig (Elt F))).Forall fun op =>
    op.writes ⊆ ((writesB).map (Proc.devRef (τ := τ) .tc)).toFinset := by
  simp only [List.Forall, nullary_writes, unary_writes, binary_writes, Finset.singleton_subset_iff, List.mem_toFinset]
  repeat' apply And.intro
  all_goals exact List.mem_map.mpr ⟨_, by decide, rfl⟩

/-- A buffer none of the 34 operations writes keeps its contents. -/
theorem afterB_keeps (W : Valuation τ sig (Elt F)) (b : Ref sig .tc) (hb : b ∉ writesB) :
    after opsB W (Proc.devRef .tc b) = W (Proc.devRef .tc b) :=
  after_of_writes_sub opsB W opsB_writes hb

/-- After the 34 operations the result buffer holds the last stage of the nine arguments, given the stack of rotated
    copies at its stage and the arguments in their buffers: the four stretches composed, each fact a later stretch
    needs carried unwritten through the stretches between. -/
theorem afterB (W : Valuation τ sig (Elt F)) (x0 : (⟨S131072x64, .f32⟩ : BufTy).Contents (Elt F)) (x1 : (⟨S128x64, .f32⟩ : BufTy).Contents (Elt F)) (x2 : (⟨S128, .f32⟩ : BufTy).Contents (Elt F)) (x3 : (⟨S128x64, .f32⟩ : BufTy).Contents (Elt F)) (x4 : (⟨S128, .f32⟩ : BufTy).Contents (Elt F)) (x5 : (⟨S128x256, .f32⟩ : BufTy).Contents (Elt F)) (x6 : (⟨S128, .f32⟩ : BufTy).Contents (Elt F)) (x7 : (⟨S16x128, .f32⟩ : BufTy).Contents (Elt F)) (x8 : (⟨S16, .f32⟩ : BufTy).Contents (Elt F))
    (h26 : W (Proc.devRef .tc main_v26) = val_main_v26 (F := F) x0) (h0 : W (Proc.devRef .tc main_arg0) = x0) (h1 : W (Proc.devRef .tc main_arg1) = x1) (h2 : W (Proc.devRef .tc main_arg2) = x2) (h3 : W (Proc.devRef .tc main_arg3) = x3) (h4 : W (Proc.devRef .tc main_arg4) = x4) (h5 : W (Proc.devRef .tc main_arg5) = x5) (h6 : W (Proc.devRef .tc main_arg6) = x6) (h7 : W (Proc.devRef .tc main_arg7) = x7) (h8 : W (Proc.devRef .tc main_arg8) = x8) :
    after opsB W (Proc.devRef .tc main_v52) = val_main_v52 (F := F) x0 x1 x2 x3 x4 x5 x6 x7 x8 := by
  rw [opsB_eq, after_app, after_app, after_app]
  -- after the first stretch
  have a32 := afterB1 W x0 x1 x2 h0 h1 h2
  have a26 := (afterB1_keeps W main_v26 (by decide)).trans h26
  have a3 := (afterB1_keeps W main_arg3 (by decide)).trans h3
  have a4 := (afterB1_keeps W main_arg4 (by decide)).trans h4
  have a5 := (afterB1_keeps W main_arg5 (by decide)).trans h5
  have a6 := (afterB1_keeps W main_arg6 (by decide)).trans h6
  have a7 := (afterB1_keeps W main_arg7 (by decide)).trans h7
  have a8 := (afterB1_keeps W main_arg8 (by decide)).trans h8
  -- after the second
  have b40 := afterB2 (after opsB1 W) x0 x3 x4 a26 a3 a4
  have b32 := (afterB2_keeps (after opsB1 W) main_v32 (by decide)).trans a32
  have b5 := (afterB2_keeps (after opsB1 W) main_arg5 (by decide)).trans a5
  have b6 := (afterB2_keeps (after opsB1 W) main_arg6 (by decide)).trans a6
  have b7 := (afterB2_keeps (after opsB1 W) main_arg7 (by decide)).trans a7
  have b8 := (afterB2_keeps (after opsB1 W) main_arg8 (by decide)).trans a8
  -- after the third
  have c47 := afterB3 (after opsB2 (after opsB1 W)) x0 x1 x2 x3 x4 x5 x6 b32 b40 b5 b6
  have c7 := (afterB3_keeps (after opsB2 (after opsB1 W)) main_arg7 (by decide)).trans b7
  have c8 := (afterB3_keeps (after opsB2 (after opsB1 W)) main_arg8 (by decide)).trans b8
  exact afterB4 (after opsB3 (after opsB2 (after opsB1 W))) x0 x1 x2 x3 x4 x5 x6 x7 x8 c47 c7 c8

/-- The nine arguments are among the buffers the part leaves alone. -/
example (W : Valuation τ sig (Elt F)) : after opsB W (Proc.devRef .tc main_arg0) = W (Proc.devRef .tc main_arg0) :=
  afterB_keeps W main_arg0 (by decide)

end Cert.ReferenceIdeal.RunH

end
-- ==== Proof.RefRunH.lean ====
import proofs.«110319_j38714835206233_1_alg».proof.Proof.RefRunA1
import proofs.«110319_j38714835206233_1_alg».proof.Proof.RefRunA2
import proofs.«110319_j38714835206233_1_alg».proof.Proof.RefRunB
import proofs.«110319_j38714835206233_1_alg».proof.Proof.RefRead
import Idealize.ShloMosaic.Lib.StableHlo.Run

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The program as three lines in a row -/

set_option maxRecDepth 8192 in
set_option maxHeartbeats 4000000 in
/-- @main is the three lines of operations run one after the other. -/
theorem main_eq (c : Dev nD) : main (F := F) c = seq (opsA1 ++ opsA2 ++ opsB) := rfl

theorem scopedRefs_eq : (Finset.univ.filter fun b : Ref sig .tc => b.isScoped) = ∅ := by decide
theorem scopedSems_eq : (Finset.univ.filter fun sm : SemLoc sig => sm.isScoped .tc) = ∅ := by decide

/-- Every operation of the three lines touches TensorCore references only. -/
theorem ops_sub : (opsA1 ++ opsA2 ++ opsB : List (HloOp τ sig (Elt F))).Forall fun op => op.bufs ⊆ tcRefs τ sig :=
  List.forall_append.mpr ⟨List.forall_append.mpr ⟨opsA1_sub, opsA2_sub⟩, opsB_sub⟩

/-- Every operation of the three lines determines its results. -/
theorem ops_fresh : ∀ op ∈ (opsA1 ++ opsA2 ++ opsB : List (HloOp τ sig (Elt F))), op.fresh = ∅ :=
  List.forall_iff_forall_mem.mp (List.forall_append.mpr ⟨List.forall_append.mpr ⟨opsA1_fresh, opsA2_fresh⟩, opsB_fresh⟩)

/-! ## The valuation after the three lines -/

/-- The result buffer after the three lines, from the launch contents: the last stage of the arguments. The first
    line leaves the fifth rotation and the first five cuts, the second line from those the regrouped neighbours,
    the third line from that and the arguments the result. -/
theorem after_v52 (m : (ℓ : Loc nD τ sig) → Buf (Elt F) ℓ) (c : Dev nD) :
    after (opsA1 ++ opsA2 ++ opsB) (launchContents m c) (Proc.devRef .tc main_v52)
      = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [after_append, after_append]
  obtain ⟨h12, h2, h5, h8, h11, h14⟩ := afterA1 (F := F) (launchContents m c) (m ((c.tc : Thread nD τ).loc main_arg0)) rfl
  have h26 := afterA2 (F := F) (after opsA1 (launchContents m c)) (m ((c.tc : Thread nD τ).loc main_arg0)) h12 h2 h5 h8 h11 h14
  exact afterB (F := F) (after opsA2 (after opsA1 (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) h26
    ((afterA2_keeps _ main_arg0 (by decide)).trans ((afterA1_keeps _ main_arg0 (by decide)).trans rfl))
    ((afterA2_keeps _ main_arg1 (by decide)).trans ((afterA1_keeps _ main_arg1 (by decide)).trans rfl))
    ((afterA2_keeps _ main_arg2 (by decide)).trans ((afterA1_keeps _ main_arg2 (by decide)).trans rfl))
    ((afterA2_keeps _ main_arg3 (by decide)).trans ((afterA1_keeps _ main_arg3 (by decide)).trans rfl))
    ((afterA2_keeps _ main_arg4 (by decide)).trans ((afterA1_keeps _ main_arg4 (by decide)).trans rfl))
    ((afterA2_keeps _ main_arg5 (by decide)).trans ((afterA1_keeps _ main_arg5 (by decide)).trans rfl))
    ((afterA2_keeps _ main_arg6 (by decide)).trans ((afterA1_keeps _ main_arg6 (by decide)).trans rfl))
    ((afterA2_keeps _ main_arg7 (by decide)).trans ((afterA1_keeps _ main_arg7 (by decide)).trans rfl))
    ((afterA2_keeps _ main_arg8 (by decide)).trans ((afterA1_keeps _ main_arg8 (by decide)).trans rfl))

/-- A buffer none of the three lines writes holds after them what it held before. -/
theorem after_keeps (W : Valuation τ sig (Elt F)) (b : Ref sig .tc) (hA1 : b ∉ writesA1) (hA2 : b ∉ writesA2) (hB : b ∉ writesB) :
    after (opsA1 ++ opsA2 ++ opsB) W (Proc.devRef .tc b) = W (Proc.devRef .tc b) := by
  rw [after_append, after_append, afterB_keeps _ b hB, afterA2_keeps _ b hA2, afterA1_keeps _ b hA1]

/-! ## The run -/

/-- On every device, for any float values, from any memory with zero counters: every weakly fair execution of
    @main terminates with the result buffer at the last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v52).trans (after_v52 m c),
      (h c main_arg0).trans (after_keeps _ main_arg0 (by decide) (by decide) (by decide)),
      (h c main_arg1).trans (after_keeps _ main_arg1 (by decide) (by decide) (by decide)),
      (h c main_arg2).trans (after_keeps _ main_arg2 (by decide) (by decide) (by decide)),
      (h c main_arg3).trans (after_keeps _ main_arg3 (by decide) (by decide) (by decide)),
      (h c main_arg4).trans (after_keeps _ main_arg4 (by decide) (by decide) (by decide)),
      (h c main_arg5).trans (after_keeps _ main_arg5 (by decide) (by decide) (by decide)),
      (h c main_arg6).trans (after_keeps _ main_arg6 (by decide) (by decide) (by decide)),
      (h c main_arg7).trans (after_keeps _ main_arg7 (by decide) (by decide) (by decide)),
      (h c main_arg8).trans (after_keeps _ main_arg8 (by decide) (by decide) (by decide))⟩)
    (run_seq scopedRefs_eq scopedSems_eq defs main (fun _ => opsA1 ++ opsA2 ++ opsB) main_eq (fun _ => ops_sub) m ρ (fun _ => ops_fresh))

end Cert.ReferenceIdeal.RunH

end
-- ==== Proof.RefRoll.lean ====
import proofs.«110319_j38714835206233_1_alg».proof.Proof.RefRead
import proofs.«110319_j38714835206233_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.ValueIdx Idealize.SL.Sem

variable {F : FTy → Type} [FloatOps F]

/-- One unit rotation: the columns from 1 on followed by column 0, read at row `r`, place `o`, is the operand at the
    place one further round. -/
theorem rot1 {α : Type} (y : S131072x64.Idx → α) (r : Fin 131072) (o : Fin 64) :
    concatenate S131072x64 1
      [⟨S131072x63, extractStridedSlice S131072x63 ![0, 1] y slices_S131072x64_S131072x63_0_1⟩,
       ⟨S131072x1, extractStridedSlice S131072x1 ![0, 0] y slices_S131072x64_S131072x1_0_0⟩]
      concatenates_S131072x63_S131072x1_S131072x64_d1 (ix2 r o) = y (ix2 r (Cert.Spec.fwd 1 o)) := by
  by_cases h : o.val < 63
  · rw [concatenate_pair_apply_left 1 _ _ concatenates_S131072x63_S131072x1_S131072x64_d1 (ix2 r o) rfl
      (ix2 r (⟨o.val, h⟩ : Fin 63)) (fun b => by
        match b with
        | ⟨0, _⟩ => rfl
        | ⟨1, _⟩ => rfl)]
    exact extractStridedSlice_apply ![0, 1] y slices_S131072x64_S131072x63_0_1 (ix2 r (⟨o.val, h⟩ : Fin 63)) (ix2 r (Cert.Spec.fwd 1 o)) (fun a => by
      match a with
      | ⟨0, _⟩ => show r.val = 0 + r.val; omega
      | ⟨1, _⟩ => show (o.val + 1) % 64 = 1 + o.val; omega)
  · have ho : o.val = 63 := by have := o.isLt; omega
    rw [concatenate_pair_apply_right 1 _ _ concatenates_S131072x63_S131072x1_S131072x64_d1 (ix2 r o) rfl rfl
      (ix2 r (⟨0, by norm_num⟩ : Fin 1)) (fun b hb => by
        match b with
        | ⟨0, _⟩ => rfl
        | ⟨1, _⟩ => exact absurd rfl hb) (by show 0 + 63 = o.val; omega)]
    exact extractStridedSlice_apply ![0, 0] y slices_S131072x64_S131072x1_0_0 (ix2 r (⟨0, by norm_num⟩ : Fin 1)) (ix2 r (Cert.Spec.fwd 1 o)) (fun a => by
      match a with
      | ⟨0, _⟩ => show r.val = 0 + r.val; omega
      | ⟨1, _⟩ => show (o.val + 1) % 64 = 0 + 0; omega)

/-- A rotation by `a` places after one by one place is a rotation by `a + 1` places. -/
theorem fwd_succ (a : Nat) (o : Fin 64) : Cert.Spec.fwd a (Cert.Spec.fwd 1 o) = Cert.Spec.fwd (a + 1) o := by
  apply Fin.ext; simp only [Cert.Spec.fwd]; omega

/-- The first rotated copy: the input one place round. -/
theorem roll_v0 (x0 : (⟨S131072x64, .f32⟩ : BufTy).Contents (Elt F)) (r : Fin 131072) (o : Fin 64) :
    val_main_v0 (F := F) x0 (ix2 r o) = x0 (ix2 r (Cert.Spec.fwd 1 o)) := by
  unfold val_main_v0 val_main_call0_v0 val_main_call0_v1
  exact rot1 x0 r o

/-- Rotated copy 2 is copy 1 one place round: the input 2 places round. -/
theorem roll_v3 (x0 : (⟨S131072x64, .f32⟩ : BufTy).Contents (Elt F)) (r : Fin 131072) (o : Fin 64) :
    val_main_v3 (F := F) x0 (ix2 r o) = x0 (ix2 r (Cert.Spec.fwd 2 o)) := by
  unfold val_main_v3 val_main_call1_v0 val_main_call1_v1
  rw [rot1 (val_main_v0 (F := F) x0) r o, roll_v0, fwd_succ]

/-- Rotated copy 3 is copy 2 one place round: the input 3 places round. -/
theorem roll_v6 (x0 : (⟨S131072x64, .f32⟩ : BufTy).Contents (Elt F)) (r : Fin 131072) (o : Fin 64) :
    val_main_v6 (F := F) x0 (ix2 r o) = x0 (ix2 r (Cert.Spec.fwd 3 o)) := by
  unfold val_main_v6 val_main_call2_v0 val_main_call2_v1
  rw [rot1 (val_main_v3 (F := F) x0) r o, roll_v3, fwd_succ]

/-- Rotated copy 4 is copy 3 one place round: the input 4 places round. -/
theorem roll_v9 (x0 : (⟨S131072x64, .f32⟩ : BufTy).Contents (Elt F)) (r : Fin 131072) (o : Fin 64) :
    val_main_v9 (F := F) x0 (ix2 r o) = x0 (ix2 r (Cert.Spec.fwd 4 o)) := by
  unfold val_main_v9 val_main_call3_v0 val_main_call3_v1
  rw [rot1 (val_main_v6 (F := F) x0) r o, roll_v6, fwd_succ]

/-- Rotated copy 5 is copy 4 one place round: the input 5 places round. -/
theorem roll_v12 (x0 : (⟨S131072x64, .f32⟩ : BufTy).Contents (Elt F)) (r : Fin 131072) (o : Fin 64) :
    val_main_v12 (F := F) x0 (ix2 r o) = x0 (ix2 r (Cert.Spec.fwd 5 o)) := by
  unfold val_main_v12 val_main_call4_v0 val_main_call4_v1
  rw [rot1 (val_main_v9 (F := F) x0) r o, roll_v9, fwd_succ]

/-- Rotated copy 6 is copy 5 one place round: the input 6 places round. -/
theorem roll_v15 (x0 : (⟨S131072x64, .f32⟩ : BufTy).Contents (Elt F)) (r : Fin 131072) (o : Fin 64) :
    val_main_v15 (F := F) x0 (ix2 r o) = x0 (ix2 r (Cert.Spec.fwd 6 o)) := by
  unfold val_main_v15 val_main_call5_v0 val_main_call5_v1
  rw [rot1 (val_main_v12 (F := F) x0) r o, roll_v12, fwd_succ]

/-- Rotated copy 7 is copy 6 one place round: the input 7 places round. -/
theorem roll_v18 (x0 : (⟨S131072x64, .f32⟩ : BufTy).Contents (Elt F)) (r : Fin 131072) (o : Fin 64) :
    val_main_v18 (F := F) x0 (ix2 r o) = x0 (ix2 r (Cert.Spec.fwd 7 o)) := by
  unfold val_main_v18 val_main_call6_v0 val_main_call6_v1
  rw [rot1 (val_main_v15 (F := F) x0) r o, roll_v15, fwd_succ]

/-- Rotated copy 8 is copy 7 one place round: the input 8 places round. -/
theorem roll_v21 (x0 : (⟨S131072x64, .f32⟩ : BufTy).Contents (Elt F)) (r : Fin 131072) (o : Fin 64) :
    val_main_v21 (F := F) x0 (ix2 r o) = x0 (ix2 r (Cert.Spec.fwd 8 o)) := by
  unfold val_main_v21 val_main_call7_v0 val_main_call7_v1
  rw [rot1 (val_main_v18 (F := F) x0) r o, roll_v18, fwd_succ]

/-- The rows regrouped eight to a group and agents 1..7 cut out: group `b`, cut entry `j` is row `b * 8 + (j + 1)`. -/
theorem cut {α : Type} (y : S131072x64.Idx → α) (b : Fin 16384) (j : Fin 7) (o : Fin 64) :
    extractStridedSlice S16384x7x64 ![0, 1, 0] (shapeCast S16384x8x64 y shapeCasts_S131072x64_S16384x8x64)
      slices_S16384x8x64_S16384x7x64_0_1_0 (ix3 b j o)
      = y (ix2 (⟨b.val * 8 + (j.val + 1), by have := b.isLt; have := j.isLt; omega⟩ : Fin 131072) o) := by
  rw [extractStridedSlice_apply ![0, 1, 0] (shapeCast S16384x8x64 y shapeCasts_S131072x64_S16384x8x64)
    slices_S16384x8x64_S16384x7x64_0_1_0 (ix3 b j o)
    (ix3 b (⟨j.val + 1, by have := j.isLt; omega⟩ : Fin 8) o) (fun a => by
      match a with
      | ⟨0, _⟩ => show b.val = 0 + b.val; omega
      | ⟨1, _⟩ => show j.val + 1 = 1 + j.val; omega
      | ⟨2, _⟩ => show o.val = 0 + o.val; omega)]
  exact shapeCast_apply y shapeCasts_S131072x64_S16384x8x64 (ix3 b (⟨j.val + 1, by have := j.isLt; omega⟩ : Fin 8) o)
    (ix2 (⟨b.val * 8 + (j.val + 1), by have := b.isLt; have := j.isLt; omega⟩ : Fin 131072) o)
    (by rewrite [Shape.rowMajor_val_two, Shape.rowMajor_val_three]
        show (b.val * 8 + (j.val + 1)) * 64 + o.val = (b.val * 8 + (j.val + 1)) * 64 + o.val
        rfl)

/-- The seven agents cut out of rotated copy 1. -/
theorem cut_v2 (x0 : (⟨S131072x64, .f32⟩ : BufTy).Contents (Elt F)) (b : Fin 16384) (j : Fin 7) (o : Fin 64) :
    val_main_v2 (F := F) x0 (ix3 b j o)
      = x0 (ix2 (⟨b.val * 8 + (j.val + 1), by have := b.isLt; have := j.isLt; omega⟩ : Fin 131072) (Cert.Spec.fwd 1 o)) := by
  unfold val_main_v2 val_main_v1
  rw [cut (val_main_v0 (F := F) x0) b j o, roll_v0]

/-- The seven agents cut out of rotated copy 2. -/
theorem cut_v5 (x0 : (⟨S131072x64, .f32⟩ : BufTy).Contents (Elt F)) (b : Fin 16384) (j : Fin 7) (o : Fin 64) :
    val_main_v5 (F := F) x0 (ix3 b j o)
      = x0 (ix2 (⟨b.val * 8 + (j.val + 1), by have := b.isLt; have := j.isLt; omega⟩ : Fin 131072) (Cert.Spec.fwd 2 o)) := by
  unfold val_main_v5 val_main_v4
  rw [cut (val_main_v3 (F := F) x0) b j o, roll_v3]

/-- The seven agents cut out of rotated copy 3. -/
theorem cut_v8 (x0 : (⟨S131072x64, .f32⟩ : BufTy).Contents (Elt F)) (b : Fin 16384) (j : Fin 7) (o : Fin 64) :
    val_main_v8 (F := F) x0 (ix3 b j o)
      = x0 (ix2 (⟨b.val * 8 + (j.val + 1), by have := b.isLt; have := j.isLt; omega⟩ : Fin 131072) (Cert.Spec.fwd 3 o)) := by
  unfold val_main_v8 val_main_v7
  rw [cut (val_main_v6 (F := F) x0) b j o, roll_v6]

/-- The seven agents cut out of rotated copy 4. -/
theorem cut_v11 (x0 : (⟨S131072x64, .f32⟩ : BufTy).Contents (Elt F)) (b : Fin 16384) (j : Fin 7) (o : Fin 64) :
    val_main_v11 (F := F) x0 (ix3 b j o)
      = x0 (ix2 (⟨b.val * 8 + (j.val + 1), by have := b.isLt; have := j.isLt; omega⟩ : Fin 131072) (Cert.Spec.fwd 4 o)) := by
  unfold val_main_v11 val_main_v10
  rw [cut (val_main_v9 (F := F) x0) b j o, roll_v9]

/-- The seven agents cut out of rotated copy 5. -/
theorem cut_v14 (x0 : (⟨S131072x64, .f32⟩ : BufTy).Contents (Elt F)) (b : Fin 16384) (j : Fin 7) (o : Fin 64) :
    val_main_v14 (F := F) x0 (ix3 b j o)
      = x0 (ix2 (⟨b.val * 8 + (j.val + 1), by have := b.isLt; have := j.isLt; omega⟩ : Fin 131072) (Cert.Spec.fwd 5 o)) := by
  unfold val_main_v14 val_main_v13
  rw [cut (val_main_v12 (F := F) x0) b j o, roll_v12]

/-- The seven agents cut out of rotated copy 6. -/
theorem cut_v17 (x0 : (⟨S131072x64, .f32⟩ : BufTy).Contents (Elt F)) (b : Fin 16384) (j : Fin 7) (o : Fin 64) :
    val_main_v17 (F := F) x0 (ix3 b j o)
      = x0 (ix2 (⟨b.val * 8 + (j.val + 1), by have := b.isLt; have := j.isLt; omega⟩ : Fin 131072) (Cert.Spec.fwd 6 o)) := by
  unfold val_main_v17 val_main_v16
  rw [cut (val_main_v15 (F := F) x0) b j o, roll_v15]

/-- The seven agents cut out of rotated copy 7. -/
theorem cut_v20 (x0 : (⟨S131072x64, .f32⟩ : BufTy).Contents (Elt F)) (b : Fin 16384) (j : Fin 7) (o : Fin 64) :
    val_main_v20 (F := F) x0 (ix3 b j o)
      = x0 (ix2 (⟨b.val * 8 + (j.val + 1), by have := b.isLt; have := j.isLt; omega⟩ : Fin 131072) (Cert.Spec.fwd 7 o)) := by
  unfold val_main_v20 val_main_v19
  rw [cut (val_main_v18 (F := F) x0) b j o, roll_v18]

/-- The seven agents cut out of rotated copy 8. -/
theorem cut_v23 (x0 : (⟨S131072x64, .f32⟩ : BufTy).Contents (Elt F)) (b : Fin 16384) (j : Fin 7) (o : Fin 64) :
    val_main_v23 (F := F) x0 (ix3 b j o)
      = x0 (ix2 (⟨b.val * 8 + (j.val + 1), by have := b.isLt; have := j.isLt; omega⟩ : Fin 131072) (Cert.Spec.fwd 8 o)) := by
  unfold val_main_v23 val_main_v22
  rw [cut (val_main_v21 (F := F) x0) b j o, roll_v21]

/-- What the reference gathers for row `r`: its `j`-th entry is agent `j + 1` of `r`'s group with the features rotated left
    by `r % 8 + 1` places — `k + 1` unit rotations of the whole input, the seven agents cut out of each, the eight cuts
    joined and re-laid so that rotation `k` lands on the rows that are agent `k` of their group. -/
theorem stateOther_apply (x0 : (⟨S131072x64, .f32⟩ : BufTy).Contents (Elt F)) (r : Fin 131072) (j : Fin 7) (o : Fin 64) :
    val_main_v26 (F := F) x0 (ix3 r j o) = x0 (ix2 (Cert.Spec.nbr r j) (Cert.Spec.fwd (r.val % 8 + 1) o)) := by
  have hr := r.isLt
  have hj := j.isLt
  have hb : r.val / 8 < 16384 := by omega
  have hq : r.val % 8 * 7 + j.val < 56 := by omega
  -- the last re-laying: linear position (r * 7 + j) * 64 + o is group r / 8, joined entry (r % 8) * 7 + j, place o
  have h26 : val_main_v26 (F := F) x0 (ix3 r j o)
      = val_main_v25 (F := F) x0 (ix3 (⟨r.val / 8, hb⟩ : Fin 16384) (⟨r.val % 8 * 7 + j.val, hq⟩ : Fin 56) o) := by
    unfold val_main_v26
    generalize val_main_v25 (F := F) x0 = y
    exact shapeCast_apply y shapeCasts_S16384x56x64_S131072x7x64 (ix3 r j o)
      (ix3 (⟨r.val / 8, hb⟩ : Fin 16384) (⟨r.val % 8 * 7 + j.val, hq⟩ : Fin 56) o)
      (by rewrite [Shape.rowMajor_val_three, Shape.rowMajor_val_three]
          show (r.val / 8 * 56 + (r.val % 8 * 7 + j.val)) * 64 + o.val = (r.val * 7 + j.val) * 64 + o.val
          omega)
  rw [h26]
  unfold val_main_v25
  -- a joined entry `pre + j`, `pre` the extents of the pieces before piece `k`, is piece `k` at its entry `j`
  have piece := fun (k : Nat) hk x₁ hxk (pre : Nat) hpre (ha : pre + j.val = r.val % 8 * 7 + j.val) =>
    concatenate_apply_piece 1
      [⟨S16384x7x64, val_main_v2 (F := F) x0⟩,
        ⟨S16384x7x64, val_main_v5 (F := F) x0⟩,
        ⟨S16384x7x64, val_main_v8 (F := F) x0⟩,
        ⟨S16384x7x64, val_main_v11 (F := F) x0⟩,
        ⟨S16384x7x64, val_main_v14 (F := F) x0⟩,
        ⟨S16384x7x64, val_main_v17 (F := F) x0⟩,
        ⟨S16384x7x64, val_main_v20 (F := F) x0⟩,
        ⟨S16384x7x64, val_main_v23 (F := F) x0⟩]
      concatenates_S16384x7x64_S16384x7x64_S16384x7x64_S16384x7x64_S16384x7x64_S16384x7x64_S16384x7x64_S16384x7x64_S16384x56x64_d1
      (ix3 (⟨r.val / 8, hb⟩ : Fin 16384) (⟨r.val % 8 * 7 + j.val, hq⟩ : Fin 56) o)
      k hk S16384x7x64 x₁ hxk rfl pre hpre (ix3 (⟨r.val / 8, hb⟩ : Fin 16384) j o)
      (fun a ha' => by
        match a with
        | ⟨0, _⟩ => rfl
        | ⟨1, _⟩ => exact absurd rfl ha'
        | ⟨2, _⟩ => rfl)
      ha
  -- the joined entry (r % 8) * 7 + j lies in piece r % 8
  rcases (show r.val % 8 = 0 ∨ r.val % 8 = 1 ∨ r.val % 8 = 2 ∨ r.val % 8 = 3 ∨ r.val % 8 = 4 ∨ r.val % 8 = 5
      ∨ r.val % 8 = 6 ∨ r.val % 8 = 7 by omega) with hk | hk | hk | hk | hk | hk | hk | hk
  · rw [piece 0 (by show 0 < 8; omega) (val_main_v2 (F := F) x0) rfl 0 rfl
      (by show 0 + j.val = r.val % 8 * 7 + j.val; omega), cut_v2, hk]
    rfl
  · rw [piece 1 (by show 1 < 8; omega) (val_main_v5 (F := F) x0) rfl 7 rfl
      (by show 7 + j.val = r.val % 8 * 7 + j.val; omega), cut_v5, hk]
    rfl
  · rw [piece 2 (by show 2 < 8; omega) (val_main_v8 (F := F) x0) rfl 14 rfl
      (by show 14 + j.val = r.val % 8 * 7 + j.val; omega), cut_v8, hk]
    rfl
  · rw [piece 3 (by show 3 < 8; omega) (val_main_v11 (F := F) x0) rfl 21 rfl
      (by show 21 + j.val = r.val % 8 * 7 + j.val; omega), cut_v11, hk]
    rfl
  · rw [piece 4 (by show 4 < 8; omega) (val_main_v14 (F := F) x0) rfl 28 rfl
      (by show 28 + j.val = r.val % 8 * 7 + j.val; omega), cut_v14, hk]
    rfl
  · rw [piece 5 (by show 5 < 8; omega) (val_main_v17 (F := F) x0) rfl 35 rfl
      (by show 35 + j.val = r.val % 8 * 7 + j.val; omega), cut_v17, hk]
    rfl
  · rw [piece 6 (by show 6 < 8; omega) (val_main_v20 (F := F) x0) rfl 42 rfl
      (by show 42 + j.val = r.val % 8 * 7 + j.val; omega), cut_v20, hk]
    rfl
  · rw [piece 7 (by show 7 < 8; omega) (val_main_v23 (F := F) x0) rfl 49 rfl
      (by show 49 + j.val = r.val % 8 * 7 + j.val; omega), cut_v23, hk]
    rfl

end Cert.ReferenceIdeal.RefValue

end
-- ==== Proof.RefTail.lean ====
import proofs.«110319_j38714835206233_1_alg».proof.Proof.RefRoll
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.ValueIdx Idealize.SL.Sem

section Layers

variable (x0 : (⟨S131072x64, .f32⟩ : BufTy).Contents (Elt Ideal)) (x1 : (⟨S128x64, .f32⟩ : BufTy).Contents (Elt Ideal))
    (x2 : (⟨S128, .f32⟩ : BufTy).Contents (Elt Ideal)) (x3 : (⟨S128x64, .f32⟩ : BufTy).Contents (Elt Ideal))
    (x4 : (⟨S128, .f32⟩ : BufTy).Contents (Elt Ideal)) (x5 : (⟨S128x256, .f32⟩ : BufTy).Contents (Elt Ideal))
    (x6 : (⟨S128, .f32⟩ : BufTy).Contents (Elt Ideal)) (x7 : (⟨S16x128, .f32⟩ : BufTy).Contents (Elt Ideal))
    (x8 : (⟨S16, .f32⟩ : BufTy).Contents (Elt Ideal))

/-! ## The row's own path -/

/-- The first dense layer's left factor sits at (row, place). -/
theorem lidx28_eq (r : Fin 131072) (h : Fin 128) (k : Fin 64) : lidx_main_v28 (ix2 r h) k = ix2 r k := by
  funext a; match a with | ⟨0, _⟩ => rfl | ⟨1, _⟩ => rfl

/-- Its right factor, read through the transposition, is the weight at (unit, place). -/
theorem ridx28_eq (r : Fin 131072) (h : Fin 128) (k : Fin 64) :
    idx_main_v27 (ridx_main_v28 (ix2 r h) k) = ix2 h k := by
  funext a; match a with | ⟨0, _⟩ => rfl | ⟨1, _⟩ => rfl

/-- The bias, broadcast over the rows, is read at the unit. -/
theorem idx29_eq (r : Fin 131072) (h : Fin 128) : idx_main_v29 (idx_main_v30 (ix2 r h)) = ix1 h := by
  funext a; match a with | ⟨0, _⟩ => rfl

/-- Own path: a dense layer, its bias, and the maximum with zero. -/
theorem own_apply (r : Fin 131072) (h : Fin 128) :
    val_main_v32 (F := Ideal) x0 x1 x2 (ix2 r h) = Cert.Spec.own x0 x1 x2 r h := by
  rw [val_main_v32_apply, val_main_v31_apply, val_main_v28_apply, val_main_v30_apply, val_main_v29_apply,
    val_main_call9_v0_apply, val_main_call9_cst_apply, idx29_eq]
  simp only [Ideal.maximumf_def, Ideal.addf_def, Ideal.ofBits_def, Ideal.ofBits_zero_f32]
  unfold Cert.Spec.own
  refine congrArg (fun t => max (t + x2 (ix1 h)) 0) (Finset.sum_congr rfl fun k _ => ?_)
  rw [val_main_v27_apply, lidx28_eq, ridx28_eq]

/-! ## The neighbours' path -/

/-- The neighbour layer's left factor sits at (row, neighbour, place) of the gathered array. -/
theorem lidx33_eq (r : Fin 131072) (j : Fin 7) (h : Fin 128) (k : Fin 64) :
    lidx_main_v33 (ix3 r j h) k = ix3 r j k := by
  funext a; match a with | ⟨0, _⟩ => rfl | ⟨1, _⟩ => rfl | ⟨2, _⟩ => rfl

/-- Its right factor is the weight at (unit, place). -/
theorem ridx33_eq (r : Fin 131072) (j : Fin 7) (h : Fin 128) (k : Fin 64) :
    ridx_main_v33 (ix3 r j h) k = ix2 h k := by
  funext a; match a with | ⟨0, _⟩ => rfl | ⟨1, _⟩ => rfl

/-- The bias, broadcast over rows and neighbours, is read at the unit. -/
theorem idx34_eq (r : Fin 131072) (j : Fin 7) (h : Fin 128) : idx_main_v34 (idx_main_v35 (ix3 r j h)) = ix1 h := by
  funext a; match a with | ⟨0, _⟩ => rfl

/-- One neighbour's rectified contribution. -/
theorem nbrTerm_apply (r : Fin 131072) (j : Fin 7) (h : Fin 128) :
    val_main_v37 (F := Ideal) x0 x3 x4 (ix3 r j h) = Cert.Spec.nbrTerm x0 x3 x4 r h j := by
  rw [val_main_v37_apply, val_main_v36_apply, val_main_v33_apply, val_main_v35_apply, val_main_v34_apply,
    val_main_call10_v0_apply, val_main_call10_cst_apply, idx34_eq]
  simp only [Ideal.maximumf_def, Ideal.addf_def, Ideal.ofBits_def, Ideal.ofBits_zero_f32]
  unfold Cert.Spec.nbrTerm
  refine congrArg (fun t => max (t + x4 (ix1 h)) 0) (Finset.sum_congr rfl fun k _ => ?_)
  rw [lidx33_eq, ridx33_eq, stateOther_apply]

/-- The summed axis is the neighbour. -/
theorem idx38_eq (r : Fin 131072) (h : Fin 128) (k : Fin 7) : idx_main_v38 (ix2 r h) k = ix3 r k h := by
  funext a; match a with | ⟨0, _⟩ => rfl | ⟨1, _⟩ => rfl | ⟨2, _⟩ => rfl

/-- The word 0x41000000 is the real number eight. -/
theorem ofBits_eight : Ideal.ofBits .f32 0x41000000#32 = ((8 : ℝ) : EReal) := by
  simp [Ideal.ofBits, Ideal.ieee]
  rw [← EReal.coe_mul]
  exact congrArg _ (by norm_num)

/-- Neighbours' path: the seven contributions summed from zero, divided by eight. -/
theorem oth_apply (r : Fin 131072) (h : Fin 128) :
    val_main_v40 (F := Ideal) x0 x3 x4 (ix2 r h) = Cert.Spec.oth x0 x3 x4 r h := by
  rw [val_main_v40_apply, val_main_v38_apply, val_main_cst_apply, val_main_v39_apply, val_main_cst_0_apply]
  simp only [Ideal.hostDivf_def, Ideal.ofBits_def, Ideal.ofBits_zero_f32, ofBits_eight, zero_add]
  rw [Ideal.div_coe (by norm_num : (8 : ℝ) ≠ 0)]
  unfold Cert.Spec.oth
  refine congrArg (fun t => t * ((1 / 8 : ℝ) : EReal)) (Finset.sum_congr rfl fun k _ => ?_)
  rw [idx38_eq, nbrTerm_apply]

/-! ## The two paths side by side -/

/-- The joined array: own path on columns below 128, neighbours' path on the rest. -/
theorem cat_apply (r : Fin 131072) (k : Fin 256) :
    val_main_v41 (F := Ideal) x0 x1 x2 x3 x4 (ix2 r k) = Cert.Spec.cat x0 x1 x2 x3 x4 r k := by
  unfold val_main_v41 Cert.Spec.cat
  by_cases hk : k.val < 128
  · rw [dif_pos hk, ← own_apply]
    exact concatenate_pair_apply_left (1 : Fin S131072x256.rank) _ _
      concatenates_S131072x128_S131072x128_S131072x256_d1 (ix2 r k) rfl (ix2 r ⟨k.val, hk⟩)
      (fun b => match b with | ⟨0, _⟩ => rfl | ⟨1, _⟩ => rfl)
  · rw [dif_neg hk, ← oth_apply]
    exact concatenate_pair_apply_right (1 : Fin S131072x256.rank) _ _
      concatenates_S131072x128_S131072x128_S131072x256_d1 (ix2 r k) rfl rfl
      (ix2 r ⟨k.val - 128, by have := k.isLt; omega⟩)
      (fun b => match b with | ⟨0, _⟩ => fun _ => rfl | ⟨1, _⟩ => fun hb => absurd rfl hb)
      (by show k.val - 128 + 128 = k.val; omega)

/-! ## The second dense layer -/

theorem lidx43_eq (r : Fin 131072) (h : Fin 128) (k : Fin 256) : lidx_main_v43 (ix2 r h) k = ix2 r k := by
  funext a; match a with | ⟨0, _⟩ => rfl | ⟨1, _⟩ => rfl

theorem ridx43_eq (r : Fin 131072) (h : Fin 128) (k : Fin 256) :
    idx_main_v42 (ridx_main_v43 (ix2 r h) k) = ix2 h k := by
  funext a; match a with | ⟨0, _⟩ => rfl | ⟨1, _⟩ => rfl

theorem idx44_eq (r : Fin 131072) (h : Fin 128) : idx_main_v44 (idx_main_v45 (ix2 r h)) = ix1 h := by
  funext a; match a with | ⟨0, _⟩ => rfl

/-- Hidden layer: the 256 joined values through the second dense layer, its bias, and the maximum with zero. -/
theorem hid_apply (r : Fin 131072) (h : Fin 128) :
    val_main_v47 (F := Ideal) x0 x1 x2 x3 x4 x5 x6 (ix2 r h) = Cert.Spec.hid x0 x1 x2 x3 x4 x5 x6 r h := by
  rw [val_main_v47_apply, val_main_v46_apply, val_main_v43_apply, val_main_v45_apply, val_main_v44_apply,
    val_main_call11_v0_apply, val_main_call11_cst_apply, idx44_eq]
  simp only [Ideal.maximumf_def, Ideal.addf_def, Ideal.ofBits_def, Ideal.ofBits_zero_f32]
  unfold Cert.Spec.hid
  refine congrArg (fun t => max (t + x6 (ix1 h)) 0) (Finset.sum_congr rfl fun k _ => ?_)
  rw [val_main_v42_apply, lidx43_eq, ridx43_eq, cat_apply]

/-! ## The output layer -/

theorem lidx49_eq (r : Fin 131072) (n : Fin 16) (k : Fin 128) : lidx_main_v49 (ix2 r n) k = ix2 r k := by
  funext a; match a with | ⟨0, _⟩ => rfl | ⟨1, _⟩ => rfl

theorem ridx49_eq (r : Fin 131072) (n : Fin 16) (k : Fin 128) :
    idx_main_v48 (ridx_main_v49 (ix2 r n) k) = ix2 n k := by
  funext a; match a with | ⟨0, _⟩ => rfl | ⟨1, _⟩ => rfl

theorem idx50_eq (r : Fin 131072) (n : Fin 16) : idx_main_v50 (idx_main_v51 (ix2 r n)) = ix1 n := by
  funext a; match a with | ⟨0, _⟩ => rfl

/-- Output: the hidden values through the last dense layer and its bias. -/
theorem outv_apply (r : Fin 131072) (n : Fin 16) :
    val_main_v52 (F := Ideal) x0 x1 x2 x3 x4 x5 x6 x7 x8 (ix2 r n)
      = Cert.Spec.outv x0 x1 x2 x3 x4 x5 x6 x7 x8 r n := by
  rw [val_main_v52_apply, val_main_v49_apply, val_main_v51_apply, val_main_v50_apply, idx50_eq]
  simp only [Ideal.addf_def]
  unfold Cert.Spec.outv
  refine congrArg (fun t => t + x8 (ix1 n)) (Finset.sum_congr rfl fun k _ => ?_)
  rw [val_main_v48_apply, lidx49_eq, ridx49_eq, hid_apply]

end Layers

/-- The reference's result, stage by stage, is the network's function of the nine arguments. -/
theorem ref_eq_G (x0 : (⟨S131072x64, .f32⟩ : BufTy).Contents (Elt Ideal)) (x1 : (⟨S128x64, .f32⟩ : BufTy).Contents (Elt Ideal))
    (x2 : (⟨S128, .f32⟩ : BufTy).Contents (Elt Ideal)) (x3 : (⟨S128x64, .f32⟩ : BufTy).Contents (Elt Ideal))
    (x4 : (⟨S128, .f32⟩ : BufTy).Contents (Elt Ideal)) (x5 : (⟨S128x256, .f32⟩ : BufTy).Contents (Elt Ideal))
    (x6 : (⟨S128, .f32⟩ : BufTy).Contents (Elt Ideal)) (x7 : (⟨S16x128, .f32⟩ : BufTy).Contents (Elt Ideal))
    (x8 : (⟨S16, .f32⟩ : BufTy).Contents (Elt Ideal)) :
    val_main_v52 (F := Ideal) x0 x1 x2 x3 x4 x5 x6 x7 x8 = Cert.Spec.G x0 x1 x2 x3 x4 x5 x6 x7 x8 := by
  funext i
  obtain ⟨r, n, rfl⟩ : ∃ (r : Fin 131072) (n : Fin 16), i = ix2 r n := ⟨i 0, i 1, eq_ix2 i⟩
  rw [Cert.Spec.G_ix2]
  exact outv_apply x0 x1 x2 x3 x4 x5 x6 x7 x8 r n

end Cert.ReferenceIdeal.RefValue

end
-- ==== Proof.lean ====
/- The certificate of a fused DeepSet actor kernel against its jnp reference, over the extended reals.

   Rows come in groups of eight agents. A row's own features go through a dense layer and a rectifier; the features of its
   group's agents 1..7, rotated left by (the row's agent index + 1) places, go through a second dense layer and rectifier, are
   summed over the seven and divided by eight; the two 128-vectors are joined and two more dense layers follow.
   The reference rotates the FEATURES (nine unit rotations of the whole input, cut and re-laid); the kernel rotates the
   WEIGHTS the other way (eight rotated copies stacked by host operations before its one launch) and multiplies by 1/8.
   The two agree because a sum over the 64 feature places may be taken in rotated order, and because dividing an extended
   real by 8 is multiplying it by 1/8; no finiteness of the inputs is needed.

   The three frames: each kernel program's from the pipeline's frame theorem over the body's one whole-block store; the
   reference's from its run. The value claim: the kernel's result array is the network's function of the arguments block by
   block (the 64 blocks tile it), the reference's is the same function stage by stage. -/
import proofs.«110319_j38714835206233_1_alg».proof.Defs
import proofs.«110319_j38714835206233_1_alg».proof.Proof.Gen.Kernel
import proofs.«110319_j38714835206233_1_alg».proof.Proof.Gen.KernelIdeal
import proofs.«110319_j38714835206233_1_alg».proof.Proof.Gen.ReferenceIdeal
import proofs.«110319_j38714835206233_1_alg».proof.Proof.Gen.Pre_finite_inputs
import proofs.«110319_j38714835206233_1_alg».proof.Proof.FrameB
import proofs.«110319_j38714835206233_1_alg».proof.Proof.KernelValue
import proofs.«110319_j38714835206233_1_alg».proof.Proof.RefRunH
import proofs.«110319_j38714835206233_1_alg».proof.Proof.RefTail
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- From memories that agree on the nine arguments both programs end with the network's function of them. -/
theorem algebraic : Cert.algebraic_KernelIdeal_ReferenceIdeal := by
  intro m ρ m' ρ' _ hagree
  refine ⟨fun c => Cert.KernelIdeal.Hand.GK m c, Cert.KernelIdeal.Hand.run m ρ, ?_⟩
  refine (θ_run Cert.ReferenceIdeal.defs _ _).mono (fun _ h c => ⟨(h c).1.trans ?_, (h c).2⟩)
    (Cert.ReferenceIdeal.RunH.run (F := Ideal) m' ρ')
  obtain ⟨a0, a1, a2, a3, a4, a5, a6, a7, a8⟩ := hagree c
  rw [a0, a1, a2, a3, a4, a5, a6, a7, a8]
  exact Cert.ReferenceIdeal.RefValue.ref_eq_G _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
